-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S4096 : Shape := ⟨1, ![4096]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S_ : Shape := ⟨0, ![]⟩
abbrev S1x800000 : Shape := ⟨2, ![1, 800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x800000_S1x800000_1_0 : S2x800000.Slices ![1, 0] S1x800000
  shapeCasts_S1x800000_S800000 : S1x800000.ShapeCasts S800000
  bcast_S_S4096 : S_.BroadcastsInDim S4096 (![] : Fin 0 → Fin S4096.rank)
  reducesTo_S4096_S_d0 : S4096.ReducesTo [0] S_

variable [Facts]

def fn_part9 {F : FTy → Type} [FloatOps F] (main_v149 : IVec S_ 1) (main_v154 : IVec S4096 1) : IVec S_ 1 :=
  let main_c_59 : IVec S_ 1 := constantI S_ 1 1#1
  let main_v155 : IVec S_ 1 := (fun x v => Host.reduce IntOp.andi x v reducesTo_S4096_S_d0 h_S_) main_v154 main_c_59
  let main_v156 : IVec S_ 1 := andi main_v149 main_v155
  main_v156

def fn_part8 {F : FTy → Type} [FloatOps F] (main_arg1 : IVec S2x800000 32) (main_arg3 : IVec S4096 32) (main_v133 : IVec S_ 1) (main_v136 : IVec S2 1) : IVec S_ 1 :=
  let main_c_53 : IVec S_ 1 := constantI S_ 1 1#1
  let main_v137 : IVec S_ 1 := (fun x v => Host.reduce IntOp.andi x v reducesTo_S2_S_d0 h_S_) main_v136 main_c_53
  let main_v138 : IVec S_ 1 := andi main_v133 main_v137
  let main_v139 : IVec S1x800000 32 := (extractStridedSlice S1x800000 ![1, 0] · slices_S2x800000_S1x800000_1_0) main_arg1
  let main_v140 : IVec S800000 32 := shapeCast S800000 main_v139 shapeCasts_S1x800000_S800000
  let main_c_54 : IVec S_ 32 := constantI S_ 32 0#32
  let main_v141 : IVec S800000 32 := broadcastInDim S800000 ![] bcast_S_S800000 main_c_54
  let main_v142 : IVec S800000 1 := cmpi .sge main_v140 main_v141
  let main_v143 : IVec S1x800000 32 := (extractStridedSlice S1x800000 ![1, 0] · slices_S2x800000_S1x800000_1_0) main_arg1
  let main_v144 : IVec S800000 32 := shapeCast S800000 main_v143 shapeCasts_S1x800000_S800000
  let main_c_55 : IVec S_ 32 := constantI S_ 32 50000#32
  let main_v145 : IVec S800000 32 := broadcastInDim S800000 ![] bcast_S_S800000 main_c_55
  let main_v146 : IVec S800000 1 := cmpi .slt main_v144 main_v145
  let main_v147 : IVec S800000 1 := andi main_v142 main_v146
  let main_c_56 : IVec S_ 1 := constantI S_ 1 1#1
  let main_v148 : IVec S_ 1 := (fun x v => Host.reduce IntOp.andi x v reducesTo_S800000_S_d0 h_S_) main_v147 main_c_56
  let main_v149 : IVec S_ 1 := andi main_v138 main_v148
  let main_c_57 : IVec S_ 32 := constantI S_ 32 0#32
  let main_v150 : IVec S4096 32 := broadcastInDim S4096 ![] bcast_S_S4096 main_c_57
  let main_v151 : IVec S4096 1 := cmpi .sge main_arg3 main_v150
  let main_c_58 : IVec S_ 32 := constantI S_ 32 50000#32
  let main_v152 : IVec S4096 32 := broadcastInDim S4096 ![] bcast_S_S4096 main_c_58
  let main_v153 : IVec S4096 1 := cmpi .slt main_arg3 main_v152
  let main_v154 : IVec S4096 1 := andi main_v151 main_v153
  fn_part9 (F := F) main_v149 main_v154

def fn_part7 {F : FTy → Type} [FloatOps F] (main_arg1 : IVec S2x800000 32) (main_arg3 : IVec S4096 32) (main_arg27 : FVec F S64 .f32) (main_arg28 : FVec F S64x2 .f32) (main_arg29 : FVec F S2 .f32) (main_v118 : IVec S_ 1) (main_v119 : FVec F S64x64 .f32) : IVec S_ 1 :=
  let main_cst_46 : FVec F S_ .f32 := constant S_ .f32 0x7F800000#32
  let main_v120 : FVec F S64x64 .f32 := broadcastInDim S64x64 ![] bcast_S_S64x64 main_cst_46
  let main_v121 : IVec S64x64 1 := cmpf .olt main_v119 main_v120
  let main_c_47 : IVec S_ 1 := constantI S_ 1 1#1
  let main_v122 : IVec S_ 1 := (fun x v => Host.reduce IntOp.andi x v reducesTo_S64x64_S_d0_1 h_S_) main_v121 main_c_47
  let main_v123 : IVec S_ 1 := andi main_v118 main_v122
  let main_v124 : FVec F S64 .f32 := Host.absf main_arg27
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x2 .f32 := Host.absf main_arg28
  let main_cst_50 : FVec F S_ .f32 := constant S_ .f32 0x7F800000#32
  let main_v130 : FVec F S64x2 .f32 := broadcastInDim S64x2 ![] bcast_S_S64x2 main_cst_50
  let main_v131 : IVec S64x2 1 := cmpf .olt main_v129 main_v130
  let main_c_51 : IVec S_ 1 := constantI S_ 1 1#1
  let main_v132 : IVec S_ 1 := (fun x v => Host.reduce IntOp.andi x v reducesTo_S64x2_S_d0_1 h_S_) main_v131 main_c_51
  let main_v133 : IVec S_ 1 := andi main_v128 main_v132
  let main_v134 : FVec F S2 .f32 := Host.absf main_arg29
  let main_cst_52 : FVec F S_ .f32 := constant S_ .f32 0x7F800000#32
  let main_v135 : FVec F S2 .f32 := broadcastInDim S2 ![] bcast_S_S2 main_cst_52
  let main_v136 : IVec S2 1 := cmpf .olt main_v134 main_v135
  fn_part8 (F := F) main_arg1 main_arg3 main_v133 main_v136

def fn_part6 {F : FTy → Type} [FloatOps F] (main_arg1 : IVec S2x800000 32) (main_arg3 : IVec S4096 32) (main_arg23 : FVec F S64 .f32) (main_arg24 : FVec F S64x64 .f32) (main_arg25 : FVec F S64 .f32) (main_arg26 : FVec F S64x64 .f32) (main_arg27 : FVec F S64 .f32) (main_arg28 : FVec F S64x2 .f32) (main_arg29 : FVec F S2 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x64 .f32 := Host.absf main_arg24
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x64 .f32 := Host.absf main_arg26
  fn_part7 (F := F) main_arg1 main_arg3 main_arg27 main_arg28 main_arg29 main_v118 main_v119

def fn_part5 {F : FTy → Type} [FloatOps F] (main_arg1 : IVec S2x800000 32) (main_arg3 : IVec S4096 32) (main_arg20 : FVec F S128x64 .f32) (main_arg21 : FVec F S64 .f32) (main_arg22 : FVec F S64x64 .f32) (main_arg23 : FVec F S64 .f32) (main_arg24 : FVec F S64x64 .f32) (main_arg25 : FVec F S64 .f32) (main_arg26 : FVec F S64x64 .f32) (main_arg27 : FVec F S64 .f32) (main_arg28 : FVec F S64x2 .f32) (main_arg29 : FVec F S2 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S128x64 .f32 := Host.absf main_arg20
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg22
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg1 main_arg3 main_arg23 main_arg24 main_arg25 main_arg26 main_arg27 main_arg28 main_arg29 main_v98 main_v101 main_c_39

def fn_part4 {F : FTy → Type} [FloatOps F] (main_arg1 : IVec S2x800000 32) (main_arg3 : IVec S4096 32) (main_arg16 : FVec F S64x64 .f32) (main_arg17 : FVec F S64 .f32) (main_arg18 : FVec F S64x64 .f32) (main_arg19 : FVec F S64 .f32) (main_arg20 : FVec F S128x64 .f32) (main_arg21 : FVec F S64 .f32) (main_arg22 : FVec F S64x64 .f32) (main_arg23 : FVec F S64 .f32) (main_arg24 : FVec F S64x64 .f32) (main_arg25 : FVec F S64 .f32) (main_arg26 : FVec F S64x64 .f32) (main_arg27 : FVec F S64 .f32) (main_arg28 : FVec F S64x2 .f32) (main_arg29 : FVec F S2 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg1 main_arg3 main_arg20 main_arg21 main_arg22 main_arg23 main_arg24 main_arg25 main_arg26 main_arg27 main_arg28 main_arg29 main_v83 main_v84 main_cst_32

def fn_part3 {F : FTy → Type} [FloatOps F] (main_arg1 : IVec S2x800000 32) (main_arg3 : IVec S4096 32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_arg20 : FVec F S128x64 .f32) (main_arg21 : FVec F S64 .f32) (main_arg22 : FVec F S64x64 .f32) (main_arg23 : FVec F S64 .f32) (main_arg24 : FVec F S64x64 .f32) (main_arg25 : FVec F S64 .f32) (main_arg26 : FVec F S64x64 .f32) (main_arg27 : FVec F S64 .f32) (main_arg28 : FVec F S64x2 .f32) (main_arg29 : FVec F S2 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg3 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg1 : IVec S2x800000 32) (main_arg3 : IVec S4096 32) (main_arg9 : FVec F S64 .f32) (main_arg10 : FVec F S64x64 .f32) (main_arg11 : FVec F S64 .f32) (main_arg12 : FVec F S128x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_arg20 : FVec F S128x64 .f32) (main_arg21 : FVec F S64 .f32) (main_arg22 : FVec F S64x64 .f32) (main_arg23 : FVec F S64 .f32) (main_arg24 : FVec F S64x64 .f32) (main_arg25 : FVec F S64 .f32) (main_arg26 : FVec F S64x64 .f32) (main_arg27 : FVec F S64 .f32) (main_arg28 : FVec F S64x2 .f32) (main_arg29 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg1 main_arg3 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg1 : IVec S2x800000 32) (main_arg3 : IVec S4096 32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S128x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_arg20 : FVec F S128x64 .f32) (main_arg21 : FVec F S64 .f32) (main_arg22 : FVec F S64x64 .f32) (main_arg23 : FVec F S64 .f32) (main_arg24 : FVec F S64x64 .f32) (main_arg25 : FVec F S64 .f32) (main_arg26 : FVec F S64x64 .f32) (main_arg27 : FVec F S64 .f32) (main_arg28 : FVec F S64x2 .f32) (main_arg29 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg3 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x64 .f32) (main_arg1 : IVec S2x800000 32) (main_arg2 : FVec F S800000 .f32) (main_arg3 : IVec S4096 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S128x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_arg20 : FVec F S128x64 .f32) (main_arg21 : FVec F S64 .f32) (main_arg22 : FVec F S64x64 .f32) (main_arg23 : FVec F S64 .f32) (main_arg24 : FVec F S64x64 .f32) (main_arg25 : FVec F S64 .f32) (main_arg26 : FVec F S64x64 .f32) (main_arg27 : FVec F S64 .f32) (main_arg28 : FVec F S64x2 .f32) (main_arg29 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg3 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S4096 : Shape := ⟨1, ![4096]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S_ : Shape := ⟨0, ![]⟩
abbrev S1x800000 : Shape := ⟨2, ![1, 800000]⟩
abbrev S1x64 : Shape := ⟨2, ![1, 64]⟩
abbrev S5000x64 : Shape := ⟨2, ![5000, 64]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S5000 : Shape := ⟨1, ![5000]⟩
abbrev S5000x1 : Shape := ⟨2, ![5000, 1]⟩
abbrev S4096x1 : Shape := ⟨2, ![4096, 1]⟩
abbrev S4096x64 : Shape := ⟨2, ![4096, 64]⟩
abbrev S4096x2 : Shape := ⟨2, ![4096, 2]⟩
abbrev S1x2 : Shape := ⟨2, ![1, 2]⟩

abbrev nBuf : Space → Nat
  | .hbm => 147
  | .vmem => 52
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S4096, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S128x64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x64, .f32⟩
  | 19 => ⟨S64, .f32⟩
  | 20 => ⟨S128x64, .f32⟩
  | 21 => ⟨S64, .f32⟩
  | 22 => ⟨S64x64, .f32⟩
  | 23 => ⟨S64, .f32⟩
  | 24 => ⟨S64x64, .f32⟩
  | 25 => ⟨S64, .f32⟩
  | 26 => ⟨S64x64, .f32⟩
  | 27 => ⟨S64, .f32⟩
  | 28 => ⟨S64x2, .f32⟩
  | 29 => ⟨S2, .f32⟩
  | 30 => ⟨S_, .f32⟩
  | 31 => ⟨S_, .f32⟩
  | 32 => ⟨S800000, .f32⟩
  | 33 => ⟨S800000, .f32⟩
  | 34 => ⟨S1x800000, .i32⟩
  | 35 => ⟨S800000, .i32⟩
  | 36 => ⟨S1x800000, .i32⟩
  | 37 => ⟨S800000, .i32⟩
  | 38 => ⟨S1x64, .f32⟩
  | 39 => ⟨S1x64, .f32⟩
  | 40 => ⟨S50000x64, .f32⟩
  | 41 => ⟨S1x64, .f32⟩
  | 42 => ⟨S1x64, .f32⟩
  | 43 => ⟨S50000x64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S1, .i32⟩
  | 53 => ⟨S_, .i32⟩
  | 54 => ⟨S800000x1, .i32⟩
  | 55 => ⟨S800000x1, .i1⟩
  | 56 => ⟨S1x1, .i32⟩
  | 57 => ⟨S800000x1, .i32⟩
  | 58 => ⟨S800000x1, .i1⟩
  | 59 => ⟨S800000x1, .i1⟩
  | 60 => ⟨S_, .i1⟩
  | 61 => ⟨S800000, .i1⟩
  | 62 => ⟨S800000x64, .f32⟩
  | 63 => ⟨S800000x64, .i1⟩
  | 64 => ⟨S_, .f32⟩
  | 65 => ⟨S800000x64, .f32⟩
  | 66 => ⟨S800000x64, .f32⟩
  | 67 => ⟨S800000x1, .f32⟩
  | 68 => ⟨S800000x64, .f32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S64x64, .f32⟩
  | 75 => ⟨S64x64, .f32⟩
  | 76 => ⟨S1x64, .f32⟩
  | 77 => ⟨S1x64, .f32⟩
  | 78 => ⟨S50000x64, .f32⟩
  | 79 => ⟨S1x64, .f32⟩
  | 80 => ⟨S1x64, .f32⟩
  | 81 => ⟨S50000x64, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S1, .i32⟩
  | 91 => ⟨S_, .i32⟩
  | 92 => ⟨S800000x1, .i32⟩
  | 93 => ⟨S800000x1, .i1⟩
  | 94 => ⟨S1x1, .i32⟩
  | 95 => ⟨S800000x1, .i32⟩
  | 96 => ⟨S800000x1, .i1⟩
  | 97 => ⟨S800000x1, .i1⟩
  | 98 => ⟨S_, .i1⟩
  | 99 => ⟨S800000, .i1⟩
  | 100 => ⟨S800000x64, .f32⟩
  | 101 => ⟨S800000x64, .i1⟩
  | 102 => ⟨S_, .f32⟩
  | 103 => ⟨S800000x64, .f32⟩
  | 104 => ⟨S800000x64, .f32⟩
  | 105 => ⟨S800000x1, .f32⟩
  | 106 => ⟨S800000x64, .f32⟩
  | 107 => ⟨S800000x64, .f32⟩
  | 108 => ⟨S_, .f32⟩
  | 109 => ⟨S50000x64, .f32⟩
  | 110 => ⟨S800000x1, .i32⟩
  | 111 => ⟨S50000x64, .f32⟩
  | 112 => ⟨S64x64, .f32⟩
  | 113 => ⟨S64x64, .f32⟩
  | 114 => ⟨S1x64, .f32⟩
  | 115 => ⟨S1x64, .f32⟩
  | 116 => ⟨S50000x64, .f32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S1, .i32⟩
  | 126 => ⟨S_, .i32⟩
  | 127 => ⟨S4096x1, .i32⟩
  | _ => ⟨S50000x64, .f32⟩

abbrev hbmTy0_1 (i : Nat) : BufTy := match i % 128 with
  | 0 => ⟨S4096x1, .i1⟩
  | 1 => ⟨S1x1, .i32⟩
  | 2 => ⟨S4096x1, .i32⟩
  | 3 => ⟨S4096x1, .i1⟩
  | 4 => ⟨S4096x1, .i1⟩
  | 5 => ⟨S_, .i1⟩
  | 6 => ⟨S4096, .i1⟩
  | 7 => ⟨S4096x64, .f32⟩
  | 8 => ⟨S4096x64, .i1⟩
  | 9 => ⟨S_, .f32⟩
  | 10 => ⟨S4096x64, .f32⟩
  | 11 => ⟨S4096x64, .f32⟩
  | 12 => ⟨S1x64, .f32⟩
  | 13 => ⟨S1x64, .f32⟩
  | 14 => ⟨S4096x64, .f32⟩
  | 15 => ⟨S4096x2, .f32⟩
  | 16 => ⟨S1x2, .f32⟩
  | 17 => ⟨S4096x2, .f32⟩
  | 18 => ⟨S4096x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S64x64, .f32⟩
  | .local _ .vmem, ⟨40, _⟩ => ⟨S64x64, .f32⟩
  | .local _ .vmem, ⟨41, _⟩ => ⟨S1x64, .f32⟩
  | .local _ .vmem, ⟨42, _⟩ => ⟨S64x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | .local _ .vmem, ⟨46, _⟩ => ⟨S4096x64, .f32⟩
  | .local _ .vmem, ⟨47, _⟩ => ⟨S64x64, .f32⟩
  | .local _ .vmem, ⟨48, _⟩ => ⟨S1x64, .f32⟩
  | .local _ .vmem, ⟨49, _⟩ => ⟨S64x64, .f32⟩
  | .local _ .vmem, ⟨50, _⟩ => ⟨S1x64, .f32⟩
  | .local _ .vmem, ⟨51, _⟩ => ⟨S4096x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_cst_0 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_cst_1 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_call2_c : Ref sig .tc := ⟨.hbm, 117, rfl⟩
abbrev main_call2_v0 : Ref sig .tc := ⟨.hbm, 118, rfl⟩
abbrev main_call2_v1 : Ref sig .tc := ⟨.hbm, 119, rfl⟩
abbrev main_call2_c_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_c_1 : Ref sig .tc := ⟨.hbm, 125, rfl⟩
abbrev main_call2_c_2 : Ref sig .tc := ⟨.hbm, 126, rfl⟩
abbrev main_call2_v6 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_c_3 : Ref sig .tc := ⟨.hbm, 133, rfl⟩
abbrev main_call2_v12 : Ref sig .tc := ⟨.hbm, 134, rfl⟩
abbrev main_call2_v13 : Ref sig .tc := ⟨.hbm, 135, rfl⟩
abbrev main_call2_v14 : Ref sig .tc := ⟨.hbm, 136, rfl⟩
abbrev main_call2_cst : Ref sig .tc := ⟨.hbm, 137, rfl⟩
abbrev main_call2_v15 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg7_1 : Ref sig .tc := ⟨.vmem, 45, rfl⟩
abbrev cc5_stg0_0 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem7_1 : DmaSem sig := 45
abbrev cc5_sem0_0 : DmaSem sig := 46
abbrev cc5_sem1_0 : DmaSem sig := 47
abbrev cc5_sem2_0 : DmaSem sig := 48
abbrev cc5_sem3_0 : DmaSem sig := 49
abbrev cc5_sem4_0 : DmaSem sig := 50
abbrev cc5_sem5_0 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S4096x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S4096x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

class Facts₀ : Prop where
  reducesTo_S800000_S_d0 : S800000.ReducesTo [0] S_
  h_S_ : 0 < S_.numel
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S128x64_S64x64_0_0 : S128x64.Slices ![0, 0] S64x64
  slices_S128x64_S64x64_64_0 : S128x64.Slices ![64, 0] S64x64
  shapeCasts_S64x64_S64x64 : S64x64.ShapeCasts S64x64
  reduces_S5000x64_S5000 : S5000x64.Reduces [1] S5000
  shapeCasts_S5000_S5000x1 : S5000.ShapeCasts S5000x1
  broadcasts_S5000x1_S5000x64 : S5000x1.Broadcasts S5000x64
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x64_0 : S4096.BroadcastsInDim S4096x64 (![0] : Fin 1 → Fin S4096x64.rank)
  bcast_S_S4096x64 : S_.BroadcastsInDim S4096x64 (![] : Fin 0 → Fin S4096x64.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S1x64_S4096x64 : S1x64.Broadcasts S4096x64
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S4096x1_S4096x64_1_0_n_n_0_1_164_wf : GatherDims.WF S50000x64 S4096x1 S4096x64 [1] [0] [] [0] [] 1 ![1, 64]
  dot_S4096x64_S64x64_S4096x64_1_0_0_1_n_n_wf : DotDims.WF S4096x64 S64x64 S4096x64 [1] [0] [0] [1] [] []
  dot_S4096x64_S64x2_S4096x2_1_0_0_1_n_n_wf : DotDims.WF S4096x64 S64x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S50000x64.size a
  hwx4_7 : ∀ i : grid4.Coords, EltTy.bits .f32 = 32 ∨ (Rect.block (s := S50000x64) S5000x64.size (cc4_transform_7 i) (hinb4_7 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S4096x64.size a ≤ S4096x64.size a
  hwx5_0 : ∀ i : grid5.Coords, EltTy.bits .f32 = 32 ∨ (Rect.block (s := S4096x64) S4096x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 1
  hreads5_5 : ∀ i i' : grid5.Coords, (∀ a, reads5_5 a = true → i a = i' a) → cc5_transform_5 i = cc5_transform_5 i'
  hinb5_5 : ∀ (i : grid5.Coords) a, (cc5_transform_5 i a + 1) * S4096x64.size a ≤ S4096x64.size a
  hwx5_5 : ∀ i : grid5.Coords, EltTy.bits .f32 = 32 ∨ (Rect.block (s := S4096x64) S4096x64.size (cc5_transform_5 i) (hinb5_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x2_S4096x2_1_0_0_1_n_n : DotDims S4096x64 S64x2 S4096x2 where
  lhsContracting := [1]
  rhsContracting := [0]
  lhsNonContracting := [0]
  rhsNonContracting := [1]
  lhsBatch := []
  rhsBatch := []
  wf := dot_S4096x64_S64x2_S4096x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v9) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v23) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v24) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v24) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg16) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v27) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v24) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v37) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg22) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v38) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v39) S5000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v40) S4096x64.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg24) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v41) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg26) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v42) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v43) S4096x64.size cc5_transform_5 reads5_5 true false 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S4096 : Shape := ⟨1, ![4096]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S_ : Shape := ⟨0, ![]⟩
abbrev S1x64 : Shape := ⟨2, ![1, 64]⟩
abbrev S1x800000 : Shape := ⟨2, ![1, 800000]⟩
abbrev S800000x1 : Shape := ⟨2, ![800000, 1]⟩
abbrev S800000x64 : Shape := ⟨2, ![800000, 64]⟩
abbrev S50000x128 : Shape := ⟨2, ![50000, 128]⟩
abbrev S50000 : Shape := ⟨1, ![50000]⟩
abbrev S50000x1 : Shape := ⟨2, ![50000, 1]⟩
abbrev S4096x1 : Shape := ⟨2, ![4096, 1]⟩
abbrev S4096x64 : Shape := ⟨2, ![4096, 64]⟩
abbrev S4096x2 : Shape := ⟨2, ![4096, 2]⟩
abbrev S1x2 : Shape := ⟨2, ![1, 2]⟩

abbrev nBuf : Space → Nat
  | .hbm => 261
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S4096, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S128x64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x64, .f32⟩
  | 19 => ⟨S64, .f32⟩
  | 20 => ⟨S128x64, .f32⟩
  | 21 => ⟨S64, .f32⟩
  | 22 => ⟨S64x64, .f32⟩
  | 23 => ⟨S64, .f32⟩
  | 24 => ⟨S64x64, .f32⟩
  | 25 => ⟨S64, .f32⟩
  | 26 => ⟨S64x64, .f32⟩
  | 27 => ⟨S64, .f32⟩
  | 28 => ⟨S64x2, .f32⟩
  | 29 => ⟨S2, .f32⟩
  | 30 => ⟨S_, .f32⟩
  | 31 => ⟨S_, .f32⟩
  | 32 => ⟨S800000, .f32⟩
  | 33 => ⟨S800000, .f32⟩
  | 34 => ⟨S50000x64, .f32⟩
  | 35 => ⟨S1x64, .f32⟩
  | 36 => ⟨S50000x64, .f32⟩
  | 37 => ⟨S50000x64, .f32⟩
  | 38 => ⟨S50000x64, .f32⟩
  | 39 => ⟨S50000x64, .f32⟩
  | 40 => ⟨S_, .f32⟩
  | 41 => ⟨S50000x64, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S50000x64, .f32⟩
  | 48 => ⟨S_, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S1x800000, .i32⟩
  | 60 => ⟨S800000, .i32⟩
  | 61 => ⟨S1x800000, .i32⟩
  | 62 => ⟨S800000, .i32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S800000x64, .f32⟩
  | 73 => ⟨S1x64, .f32⟩
  | 74 => ⟨S800000x64, .f32⟩
  | 75 => ⟨S800000x64, .f32⟩
  | 76 => ⟨S800000x64, .f32⟩
  | 77 => ⟨S800000x64, .f32⟩
  | 78 => ⟨S_, .f32⟩
  | 79 => ⟨S800000x64, .f32⟩
  | 80 => ⟨S800000x64, .f32⟩
  | 81 => ⟨S800000x64, .f32⟩
  | 82 => ⟨S_, .f32⟩
  | 83 => ⟨S800000x64, .f32⟩
  | 84 => ⟨S800000x64, .f32⟩
  | 85 => ⟨S800000x64, .f32⟩
  | 86 => ⟨S_, .f32⟩
  | 87 => ⟨S800000x64, .f32⟩
  | 88 => ⟨S800000x64, .f32⟩
  | 89 => ⟨S_, .f32⟩
  | 90 => ⟨S800000x64, .f32⟩
  | 91 => ⟨S800000x64, .f32⟩
  | 92 => ⟨S800000x64, .f32⟩
  | 93 => ⟨S800000x64, .f32⟩
  | 94 => ⟨S1x64, .f32⟩
  | 95 => ⟨S800000x64, .f32⟩
  | 96 => ⟨S800000x64, .f32⟩
  | 97 => ⟨S800000x1, .f32⟩
  | 98 => ⟨S800000x64, .f32⟩
  | 99 => ⟨S800000x64, .f32⟩
  | 100 => ⟨S_, .f32⟩
  | 101 => ⟨S50000x64, .f32⟩
  | 102 => ⟨S800000x1, .i32⟩
  | 103 => ⟨S50000x64, .f32⟩
  | 104 => ⟨S50000x128, .f32⟩
  | 105 => ⟨S50000x64, .f32⟩
  | 106 => ⟨S1x64, .f32⟩
  | 107 => ⟨S50000x64, .f32⟩
  | 108 => ⟨S50000x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S50000x64, .f32⟩
  | 115 => ⟨S_, .f32⟩
  | 116 => ⟨S50000x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S50000x64, .f32⟩
  | 127 => ⟨S1x64, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000, .f32⟩
  | 5 => ⟨S50000x1, .f32⟩
  | 6 => ⟨S_, .f32⟩
  | 7 => ⟨S50000x1, .f32⟩
  | 8 => ⟨S50000x1, .f32⟩
  | 9 => ⟨S50000x1, .f32⟩
  | 10 => ⟨S50000x64, .f32⟩
  | 11 => ⟨S50000x64, .f32⟩
  | 12 => ⟨S50000x64, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S800000x64, .f32⟩
  | 27 => ⟨S1x64, .f32⟩
  | 28 => ⟨S800000x64, .f32⟩
  | 29 => ⟨S800000x64, .f32⟩
  | 30 => ⟨S800000x64, .f32⟩
  | 31 => ⟨S800000x64, .f32⟩
  | 32 => ⟨S_, .f32⟩
  | 33 => ⟨S800000x64, .f32⟩
  | 34 => ⟨S800000x64, .f32⟩
  | 35 => ⟨S800000x64, .f32⟩
  | 36 => ⟨S_, .f32⟩
  | 37 => ⟨S800000x64, .f32⟩
  | 38 => ⟨S800000x64, .f32⟩
  | 39 => ⟨S800000x64, .f32⟩
  | 40 => ⟨S_, .f32⟩
  | 41 => ⟨S800000x64, .f32⟩
  | 42 => ⟨S800000x64, .f32⟩
  | 43 => ⟨S_, .f32⟩
  | 44 => ⟨S800000x64, .f32⟩
  | 45 => ⟨S800000x64, .f32⟩
  | 46 => ⟨S800000x64, .f32⟩
  | 47 => ⟨S800000x64, .f32⟩
  | 48 => ⟨S1x64, .f32⟩
  | 49 => ⟨S800000x64, .f32⟩
  | 50 => ⟨S800000x64, .f32⟩
  | 51 => ⟨S800000x1, .f32⟩
  | 52 => ⟨S800000x64, .f32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S50000x128, .f32⟩
  | 59 => ⟨S50000x64, .f32⟩
  | 60 => ⟨S1x64, .f32⟩
  | 61 => ⟨S50000x64, .f32⟩
  | 62 => ⟨S50000x64, .f32⟩
  | 63 => ⟨S50000x64, .f32⟩
  | 64 => ⟨S50000x64, .f32⟩
  | 65 => ⟨S_, .f32⟩
  | 66 => ⟨S50000x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S50000x64, .f32⟩
  | 85 => ⟨S_, .f32⟩
  | 86 => ⟨S50000, .f32⟩
  | 87 => ⟨S50000x1, .f32⟩
  | 88 => ⟨S_, .f32⟩
  | 89 => ⟨S50000x1, .f32⟩
  | 90 => ⟨S50000x1, .f32⟩
  | 91 => ⟨S50000x1, .f32⟩
  | 92 => ⟨S50000x64, .f32⟩
  | 93 => ⟨S50000x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S50000x64, .f32⟩
  | 109 => ⟨S_, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S50000x64, .f32⟩

abbrev hbmTy0_2 (i : Nat) : BufTy := match i % 128 with
  | 0 => ⟨S4096x64, .f32⟩
  | 1 => ⟨S4096x2, .f32⟩
  | 2 => ⟨S1x2, .f32⟩
  | 3 => ⟨S4096x2, .f32⟩
  | 4 => ⟨S4096x2, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_cst_3 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c : Ref sig .tc := ⟨.hbm, 63, rfl⟩
abbrev main_v28 : Ref sig .tc := ⟨.hbm, 64, rfl⟩
abbrev main_v29 : Ref sig .tc := ⟨.hbm, 65, rfl⟩
abbrev main_c_4 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_6 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_7 : Ref sig .tc := ⟨.hbm, 86, rfl⟩
abbrev main_v47 : Ref sig .tc := ⟨.hbm, 87, rfl⟩
abbrev main_v48 : Ref sig .tc := ⟨.hbm, 88, rfl⟩
abbrev main_cst_8 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_9 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_10 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_11 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_12 : Ref sig .tc := ⟨.hbm, 119, rfl⟩
abbrev main_v75 : Ref sig .tc := ⟨.hbm, 120, rfl⟩
abbrev main_v76 : Ref sig .tc := ⟨.hbm, 121, rfl⟩
abbrev main_cst_13 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_14 : Ref sig .tc := ⟨.hbm, 131, rfl⟩
abbrev main_v85 : Ref sig .tc := ⟨.hbm, 132, rfl⟩
abbrev main_v86 : Ref sig .tc := ⟨.hbm, 133, rfl⟩
abbrev main_cst_15 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_c_16 : Ref sig .tc := ⟨.hbm, 145, rfl⟩
abbrev main_v97 : Ref sig .tc := ⟨.hbm, 146, rfl⟩
abbrev main_v98 : Ref sig .tc := ⟨.hbm, 147, rfl⟩
abbrev main_c_17 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_18 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_19 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_20 : Ref sig .tc := ⟨.hbm, 168, rfl⟩
abbrev main_v116 : Ref sig .tc := ⟨.hbm, 169, rfl⟩
abbrev main_v117 : Ref sig .tc := ⟨.hbm, 170, rfl⟩
abbrev main_cst_21 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_22 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_23 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_24 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_25 : Ref sig .tc := ⟨.hbm, 201, rfl⟩
abbrev main_v144 : Ref sig .tc := ⟨.hbm, 202, rfl⟩
abbrev main_v145 : Ref sig .tc := ⟨.hbm, 203, rfl⟩
abbrev main_cst_26 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_cst_27 : Ref sig .tc := ⟨.hbm, 213, rfl⟩
abbrev main_v154 : Ref sig .tc := ⟨.hbm, 214, rfl⟩
abbrev main_v155 : Ref sig .tc := ⟨.hbm, 215, rfl⟩
abbrev main_cst_28 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_29 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_cst_30 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_cst_31 : Ref sig .tc := ⟨.hbm, 237, rfl⟩
abbrev main_v174 : Ref sig .tc := ⟨.hbm, 238, rfl⟩
abbrev main_v175 : Ref sig .tc := ⟨.hbm, 239, rfl⟩
abbrev main_cst_32 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_c_33 : Ref sig .tc := ⟨.hbm, 248, rfl⟩
abbrev main_v183 : Ref sig .tc := ⟨.hbm, 249, rfl⟩
abbrev main_v184 : Ref sig .tc := ⟨.hbm, 250, rfl⟩
abbrev main_c_34 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩

abbrev nD : Nat := 1
abbrev τ : Topo := Topo.v7x

variable {F : FTy → Type} [FloatOps F]

class Facts₀ : Prop where
  reducesTo_S800000_S_d0 : S800000.ReducesTo [0] S_
  h_S_ : 0 < S_.numel
  bcast_S_S800000 : S_.BroadcastsInDim S800000 (![] : Fin 0 → Fin S800000.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  concatenates_S50000x64_S50000x64_S50000x128_d1 : Shape.Concatenates [S50000x64, S50000x64] S50000x128 1
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  gather_S50000x64_S4096x1_S4096x64_1_0_n_n_0_1_164_wf : GatherDims.WF S50000x64 S4096x1 S4096x64 [1] [0] [] [0] [] 1 ![1, 64]
  dot_S4096x64_S64x2_S4096x2_1_0_0_1_n_n_wf : DotDims.WF S4096x64 S64x2 S4096x2 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf
def dot_S4096x64_S64x2_S4096x2_1_0_0_1_n_n : DotDims S4096x64 S64x2 S4096x2 where
  lhsContracting := [1]
  rhsContracting := [0]
  lhsNonContracting := [0]
  rhsNonContracting := [1]
  lhsBatch := []
  rhsBatch := []
  wf := dot_S4096x64_S64x2_S4096x2_1_0_0_1_n_n_wf

class Facts : Prop extends Facts₀ where

variable [Facts]
-- ==== Proof.Spec.lean ====
/-
  The network's row functions over the extended reals.

  Every dense layer of the network acts on one ROW of its input at a time: output column `j` of a row `x` is
  `∑ k, x k * w k j + b j`. A feed-forward block is two dense layers with the tanh form of GELU between them, so it
  too is a function of one row; the update block of a graph convolution takes the row of the node table and the row of
  the aggregated messages side by side (a row of width 128), runs a feed-forward block on it, scales the result by the
  reciprocal square root of its own sum of squares (bounded below by a small constant) and adds the node's row back.
  A whole table is then the row function applied to every row (`rowsMap`, `rowsMap2`), and this is the one fact both
  programs are compared through: a table computed row by row does not care in how many blocks of rows it is computed,
  nor whether rows are picked out of it before or after the row function is applied.
-/
import Idealize.ShloMosaic.PureOps.Ideal
import Idealize.ShloMosaic.Lib.ValueIdx

noncomputable section

open scoped BigOperators

namespace Cert.Gnn

open Idealize.ShloMosaic Idealize.ShloMosaic.ValueIdx

/-- A row of 64 extended reals. -/
abbrev Row := Fin 64 → EReal

/-- The tanh form of GELU at one extended real, its four constants the binary words both programs carry:
    `h · (½ · (1 + tanh (c₂ · (h + c₁ · (h · (h · h))))))`. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- One dense layer on one row of width `K`: column `j` is `∑ k, x k * w k j + b j`. -/
def dense {K : Nat} (w : Fin K → Fin 64 → EReal) (b : Row) (x : Fin K → EReal) : Row :=
  fun j => (∑ k : Fin K, x k * w k j) + b j

/-- A feed-forward block on one row: dense, GELU, dense. -/
def ffnRow {K : Nat} (w1 : Fin K → Fin 64 → EReal) (b1 : Row) (w2 : Fin 64 → Fin 64 → EReal) (b2 : Row)
    (x : Fin K → EReal) : Row :=
  dense w2 b2 (fun k => gelu (dense w1 b1 x k))

/-- A row scaled by the reciprocal square root of `max s ε`, `s` a stand-in for its sum of squares and `ε` the
    binary word of `1e-12`. -/
def scaleRow (o : Row) (s : EReal) : Row :=
  fun j => o j * Ideal.rsqrt (max s (Ideal.ofBits .f32 0x2B8CBCCC#32))

/-- The sum of squares of a row. -/
def sumSq (o : Row) : EReal := ∑ l : Fin 64, o l * o l

/-- The update block on one node: the feed-forward block on the node's row and its aggregated messages side by
    side, scaled to unit length, plus the node's row. -/
def updRow (w1 : Fin 128 → Fin 64 → EReal) (b1 : Row) (w2 : Fin 64 → Fin 64 → EReal) (b2 : Row) (x agg : Row) : Row :=
  fun j => scaleRow (ffnRow w1 b1 w2 b2 (Fin.append x agg)) (sumSq (ffnRow w1 b1 w2 b2 (Fin.append x agg))) j + x j

/-- Row `r` of a table of width `C`. -/
def rowOf {R C : Nat} (x : (⟨2, ![R, C]⟩ : Shape).Idx → EReal) (r : Fin R) : Fin C → EReal := fun l => x (ix2 r l)

/-- A table as a matrix of weights, a vector as a row of biases, a one-row table as a row of biases. -/
def mat {A B : Nat} (W : (⟨2, ![A, B]⟩ : Shape).Idx → EReal) : Fin A → Fin B → EReal := fun k j => W (ix2 k j)
def vec1 {B : Nat} (b : (⟨1, ![B]⟩ : Shape).Idx → EReal) : Fin B → EReal := fun j => b (ix1 j)
def vecRow {B : Nat} (b : (⟨2, ![1, B]⟩ : Shape).Idx → EReal) : Fin B → EReal := fun j => b (ix2 0 j)

/-- A row function applied to every row of a table. -/
def rowsMap {R C : Nat} (g : (Fin C → EReal) → Row) (x : (⟨2, ![R, C]⟩ : Shape).Idx → EReal) :
    (⟨2, ![R, 64]⟩ : Shape).Idx → EReal :=
  fun i => g (rowOf x (i 0)) (i 1)

/-- A function of two rows applied to every pair of rows of two tables. -/
def rowsMap2 {R : Nat} (g : Row → Row → Row) (x y : (⟨2, ![R, 64]⟩ : Shape).Idx → EReal) :
    (⟨2, ![R, 64]⟩ : Shape).Idx → EReal :=
  fun i => g (rowOf x (i 0)) (rowOf y (i 0)) (i 1)

theorem rowsMap_apply {R C : Nat} (g : (Fin C → EReal) → Row) (x : (⟨2, ![R, C]⟩ : Shape).Idx → EReal) (r : Fin R)
    (j : Fin 64) : rowsMap g x (ix2 r j) = g (rowOf x r) j := rfl

theorem rowsMap2_apply {R : Nat} (g : Row → Row → Row) (x y : (⟨2, ![R, 64]⟩ : Shape).Idx → EReal) (r : Fin R)
    (j : Fin 64) : rowsMap2 g x y (ix2 r j) = g (rowOf x r) (rowOf y r) j := rfl

/-- Two tables are equal when they agree at every `(r, j)`. -/
theorem table_ext {R C : Nat} {α : Type} {f g : (⟨2, ![R, C]⟩ : Shape).Idx → α}
    (h : ∀ (r : Fin R) (j : Fin C), f (ix2 r j) = g (ix2 r j)) : f = g := by
  funext i
  rw [eq_ix2 i]
  exact h _ _

end Cert.Gnn

end
-- ==== Proof.LibRows.lean ====
/-
  Row gathers and row scatter-adds read at an index.

  A ROW GATHER takes, for every entry `e` of a list of start indices, the whole row of the operand that the entry
  names: the entry is read as a signed integer and clamped into the operand's row range. A ROW SCATTER-ADD adds,
  for every entry `e` of a list of indices, the whole update row `e` onto the operand row that the entry names; an
  entry that names no row of the operand contributes nothing. Read at one element, the gather is the operand at
  the clamped row, and the scatter-add is the operand's element plus the sum, over all entries naming its row, of
  the update rows' elements in the same column.

  The dimension numbers below are the ones an index array of shape [E, 1] along axis 0 produces, for operands of
  rank 2 ([N, C]) and of rank 3 ([N, A, B]).
-/
import Idealize.ShloMosaic.PureOps.Ideal
import Idealize.ShloMosaic.Lib.ValueIdx

noncomputable section

open scoped BigOperators

namespace Cert.LibRows

open Idealize.ShloMosaic Idealize.ShloMosaic.ValueIdx

/-! ## Row gather -/

/-- Row gather of a rank-2 operand `[N, C]` at start indices `[E, 1]`: result `[E, C]`. -/
abbrev gatherRows2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The clamped row a start index names: read signed, then clamped into `[0, N − 1]`. -/
def clampRow {w : Nat} (N : Nat) (hN : 0 < N) (x : BitVec w) : Fin N := ⟨min x.toInt.toNat (N - 1), by omega⟩

/-- The rank-2 row gather at `(e, j)`: the operand at the clamped row that entry `e` names, column `j`. -/
theorem gatherRows2_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (gatherRows2 N E C wf) x idx (ix2 e j) = x (ix2 (clampRow N hN (idx (ix2 e 0))) j) := by
  unfold Host.gather
  congr 1
  funext a
  refine Fin.ext ?_
  show (gatherRows2 N E C wf).start (ix2 e j) idx a + (gatherRows2 N E C wf).batchCoord (ix2 e j) a
    + (gatherRows2 N E C wf).offCoord (ix2 e j) a = _
  rw [GatherDims.batchCoord_eq_zero _ _ _ List.not_mem_nil]
  match a with
  | ⟨0, _⟩ =>
    show (gatherRows2 N E C wf).start (ix2 e j) idx (0 : Fin 2) + 0
      + (gatherRows2 N E C wf).offCoord (ix2 e j) (0 : Fin 2) = _
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows2 N E C wf).startIndexMap from List.mem_singleton.mpr rfl)]
    have hsi : (gatherRows2 N E C wf).siIdx (ix2 e j) ⟨List.idxOf (0 : Fin 2) (gatherRows2 N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRows2 N E C wf).start (ix2 e j) idx (1 : Fin 2) + 0
      + (gatherRows2 N E C wf).offCoord (ix2 e j) (1 : Fin 2) = j.val
    have h1 : (1 : Fin 2) ∉ (gatherRows2 N E C wf).startIndexMap := by
      show (1 : Fin 2) ∉ [(0 : Fin 2)]; decide
    have h2 : (1 : Fin 2) ∈ (gatherRows2 N E C wf).sKept :=
      (GatherDims.mem_sKept _ _).2 ⟨by show (1 : Fin 2) ∉ [(0 : Fin 2)]; decide, List.not_mem_nil⟩
    unfold GatherDims.start GatherDims.offCoord
    rw [dif_neg h1, dif_pos h2]
    simp only [Nat.zero_add]
    rfl

/-- Row gather of a rank-3 operand `[N, A, B]` at start indices `[E, 1]`: result `[E, A, B]`. -/
abbrev gatherRows3 (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The rank-3 row gather at `(e, a, b)`: the operand at the clamped row that entry `e` names, at `(a, b)`. -/
theorem gatherRows3_apply {α : Type} {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (gatherRows3 N A B E wf) x idx (ix3 e a b) = x (ix3 (clampRow N hN (idx (ix2 e 0))) a b) := by
  unfold Host.gather
  congr 1
  funext c
  refine Fin.ext ?_
  show (gatherRows3 N A B E wf).start (ix3 e a b) idx c + (gatherRows3 N A B E wf).batchCoord (ix3 e a b) c
    + (gatherRows3 N A B E wf).offCoord (ix3 e a b) c = _
  rw [GatherDims.batchCoord_eq_zero _ _ _ List.not_mem_nil]
  match c with
  | ⟨0, _⟩ =>
    show (gatherRows3 N A B E wf).start (ix3 e a b) idx (0 : Fin 3) + 0
      + (gatherRows3 N A B E wf).offCoord (ix3 e a b) (0 : Fin 3) = _
    rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (gatherRows3 N A B E wf).startIndexMap from List.mem_singleton.mpr rfl)]
    have hsi : (gatherRows3 N A B E wf).siIdx (ix3 e a b) ⟨List.idxOf (0 : Fin 3) (gatherRows3 N A B E wf).startIndexMap,
        List.idxOf_lt_length_iff.2 (List.mem_singleton.mpr rfl)⟩ = ix2 e 0 := by
      funext k; refine Fin.ext ?_
      match k with
      | ⟨0, _⟩ => rfl
      | ⟨1, _⟩ => rfl
    rw [hsi]
    rfl
  | ⟨1, _⟩ =>
    show (gatherRows3 N A B E wf).start (ix3 e a b) idx (1 : Fin 3) + 0
      + (gatherRows3 N A B E wf).offCoord (ix3 e a b) (1 : Fin 3) = a.val
    have h1 : (1 : Fin 3) ∉ (gatherRows3 N A B E wf).startIndexMap := by
      show (1 : Fin 3) ∉ [(0 : Fin 3)]; decide
    have h2 : (1 : Fin 3) ∈ (gatherRows3 N A B E wf).sKept :=
      (GatherDims.mem_sKept _ _).2 ⟨by show (1 : Fin 3) ∉ [(0 : Fin 3)]; decide, List.not_mem_nil⟩
    unfold GatherDims.start GatherDims.offCoord
    rw [dif_neg h1, dif_pos h2]
    simp only [Nat.zero_add]
    rfl
  | ⟨2, _⟩ =>
    show (gatherRows3 N A B E wf).start (ix3 e a b) idx (2 : Fin 3) + 0
      + (gatherRows3 N A B E wf).offCoord (ix3 e a b) (2 : Fin 3) = b.val
    have h1 : (2 : Fin 3) ∉ (gatherRows3 N A B E wf).startIndexMap := by
      show (2 : Fin 3) ∉ [(0 : Fin 3)]; decide
    have h2 : (2 : Fin 3) ∈ (gatherRows3 N A B E wf).sKept :=
      (GatherDims.mem_sKept _ _).2 ⟨by show (2 : Fin 3) ∉ [(0 : Fin 3)]; decide, List.not_mem_nil⟩
    unfold GatherDims.start GatherDims.offCoord
    rw [dif_neg h1, dif_pos h2]
    simp only [Nat.zero_add]
    rfl

/-! ## Row scatter-add -/

/-- Row scatter of updates `[E, C]` into a rank-2 operand `[N, C]` at scatter indices `[E, 1]`. -/
abbrev scatterRows2 (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The scatter-indices index update index `j` reads its row entry at: `[j₀, 0]`. -/
private theorem scatterRows2_siIdx {N E C : Nat}
    (wf : ScatterDims.WF ⟨2, ![N, C]⟩ ⟨2, ![E, 1]⟩ ⟨2, ![E, C]⟩ [1] [0] [0] 1)
    (j : (⟨2, ![E, C]⟩ : Shape).Idx) :
    (scatterRows2 N E C wf).siIdx j ⟨List.idxOf (0 : Fin 2) (scatterRows2 N E C wf).scatterDimsToOperandDims,
        List.idxOf_lt_length_iff.2 (List.mem_singleton.mpr rfl)⟩ = ix2 (j 0) 0 := by
  funext b; refine Fin.ext ?_
  match b with
  | ⟨0, _⟩ => rfl
  | ⟨1, _⟩ => rfl

/-- On the row axis the window starts at the entry, read signed … -/
private theorem scatterRows2_start0 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (scatterRows2 N E C wf).start j idx (0 : Fin 2) = (idx (ix2 (j 0) 0)).toInt := by
  unfold ScatterDims.start
  rw [dif_pos (show (0 : Fin 2) ∈ (scatterRows2 N E C wf).scatterDimsToOperandDims from List.mem_singleton.mpr rfl),
    scatterRows2_siIdx]
  rfl

/-- … and on the column axis at `0`. -/
private theorem scatterRows2_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (scatterRows2 N E C wf).start j idx (1 : Fin 2) = 0 := by
  unfold ScatterDims.start
  rw [dif_neg (show (1 : Fin 2) ∉ [(0 : Fin 2)] by decide)]

/-- The window coordinate is `0` on the row axis … -/
private theorem scatterRows2_window0 {N E C : Nat}
    (wf : ScatterDims.WF ⟨2, ![N, C]⟩ ⟨2, ![E, 1]⟩ ⟨2, ![E, C]⟩ [1] [0] [0] 1)
    (j : (⟨2, ![E, C]⟩ : Shape).Idx) :
    (scatterRows2 N E C wf).window j (0 : Fin 2) = 0 := by
  unfold ScatterDims.window
  rw [dif_neg]
  show (0 : Fin 2) ∉ (List.finRange 2).filter (· ∉ [(0 : Fin 2)])
  decide

/-- … and the update's column on the column axis. -/
private theorem scatterRows2_window1 {N E C : Nat}
    (wf : ScatterDims.WF ⟨2, ![N, C]⟩ ⟨2, ![E, 1]⟩ ⟨2, ![E, C]⟩ [1] [0] [0] 1)
    (j : (⟨2, ![E, C]⟩ : Shape).Idx) :
    (scatterRows2 N E C wf).window j (1 : Fin 2) = (j 1).val := by
  have h : (1 : Fin 2) ∈ (scatterRows2 N E C wf).sKept := by
    show (1 : Fin 2) ∈ (List.finRange 2).filter (· ∉ [(0 : Fin 2)])
    decide
  unfold ScatterDims.window
  rw [dif_pos h]
  rfl

/-- Update index `j` lands on operand index `i` exactly when its row entry, read signed, is `i`'s row and its
    column is `i`'s column. -/
private theorem scatterRows2_resultIdx_iff {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (scatterRows2 N E C wf).resultIdx? j idx = some i
      ↔ (idx (ix2 (j 0) 0)).toInt = ((i 0).val : Int) ∧ (j 1).val = (i 1).val := by
  have hi0 := idx2_lt0 i
  have hi1 := idx2_lt1 i
  have hj1 := idx2_lt1 j
  unfold ScatterDims.resultIdx?
  constructor
  · intro h
    split at h
    · rename_i hh
      have h' := Option.some.inj h
      have h0 := congrArg (fun f => (f (0 : Fin 2)).val) h'
      have h1 := congrArg (fun f => (f (1 : Fin 2)).val) h'
      have hh0 := hh (0 : Fin 2)
      have hh1 := hh (1 : Fin 2)
      simp only [scatterRows2_start0, scatterRows2_start1, scatterRows2_window0, scatterRows2_window1] at h0 h1 hh0 hh1
      constructor <;> omega
    · exact absurd h (by simp)
  · rintro ⟨h0, h1⟩
    have hh : ∀ a, 0 ≤ (scatterRows2 N E C wf).start j idx a + ((scatterRows2 N E C wf).window j a : Int)
        ∧ (scatterRows2 N E C wf).start j idx a + ((scatterRows2 N E C wf).window j a : Int)
          < ((⟨2, ![N, C]⟩ : Shape).size a : Int) := by
      intro a
      match a with
      | ⟨0, _⟩ =>
        show 0 ≤ (scatterRows2 N E C wf).start j idx (0 : Fin 2) + ((scatterRows2 N E C wf).window j (0 : Fin 2) : Int)
          ∧ (scatterRows2 N E C wf).start j idx (0 : Fin 2) + ((scatterRows2 N E C wf).window j (0 : Fin 2) : Int) < (N : Int)
        rw [scatterRows2_start0, scatterRows2_window0]
        omega
      | ⟨1, _⟩ =>
        show 0 ≤ (scatterRows2 N E C wf).start j idx (1 : Fin 2) + ((scatterRows2 N E C wf).window j (1 : Fin 2) : Int)
          ∧ (scatterRows2 N E C wf).start j idx (1 : Fin 2) + ((scatterRows2 N E C wf).window j (1 : Fin 2) : Int) < (C : Int)
        rw [scatterRows2_start1, scatterRows2_window1]
        omega
    rw [dif_pos hh]
    congr 1
    funext a
    refine Fin.ext ?_
    match a with
    | ⟨0, _⟩ =>
      show ((scatterRows2 N E C wf).start j idx (0 : Fin 2) + ((scatterRows2 N E C wf).window j (0 : Fin 2) : Int)).toNat
        = (i 0).val
      rw [scatterRows2_start0, scatterRows2_window0]
      omega
    | ⟨1, _⟩ =>
      show ((scatterRows2 N E C wf).start j idx (1 : Fin 2) + ((scatterRows2 N E C wf).window j (1 : Fin 2) : Int)).toNat
        = (i 1).val
      rw [scatterRows2_start1, scatterRows2_window1]
      omega

/-- The rank-2 row scatter-add at `(n, j)`: the operand's element plus the sum over the entries `e` whose index,
    read signed, is `n`, of update row `e` at column `j`. -/
theorem scatterAddRows2_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (j : Fin C) :
    Ideal.hostScatterAdd (scatterRows2 N E C wf) x idx upd (ix2 n j)
      = x (ix2 n j) + ∑ e : Fin E, if (idx (ix2 e 0)).toInt = (n.val : Int) then upd (ix2 e j) else 0 := by
  unfold Ideal.hostScatterAdd
  congr 1
  rw [Finset.sum_filter, sum_idx2]
  refine Finset.sum_congr rfl fun e _ => ?_
  have key : ∀ b : Fin C,
      (if (scatterRows2 N E C wf).resultIdx? (ix2 e b) idx = some (ix2 n j) then upd (ix2 e b) else 0)
        = if (idx (ix2 e 0)).toInt = (n.val : Int) then (if b = j then upd (ix2 e b) else 0) else 0 := by
    intro b
    simp only [scatterRows2_resultIdx_iff, ite_and]
    show (if (idx (ix2 e 0)).toInt = (n.val : Int) then (if b.val = j.val then upd (ix2 e b) else 0) else 0) = _
    simp only [Fin.val_inj]
  rw [Finset.sum_congr rfl fun b _ => key b]
  by_cases h : (idx (ix2 e 0)).toInt = (n.val : Int)
  · simp only [if_pos h, Finset.sum_ite_eq', Finset.mem_univ, if_true]
  · simp only [if_neg h, Finset.sum_const_zero]

/-- Row scatter of updates `[E, A, B]` into a rank-3 operand `[N, A, B]` at scatter indices `[E, 1]`. -/
abbrev scatterRows3 (N A B E : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-- A rank-3 index's coordinates are below the extents, written as the extents themselves. -/
private theorem idx3_lt0 {n0 n1 n2 : Nat} (j : (⟨3, ![n0, n1, n2]⟩ : Shape).Idx) : (j 0).val < n0 := (j 0).isLt
private theorem idx3_lt1 {n0 n1 n2 : Nat} (j : (⟨3, ![n0, n1, n2]⟩ : Shape).Idx) : (j 1).val < n1 := (j 1).isLt
private theorem idx3_lt2 {n0 n1 n2 : Nat} (j : (⟨3, ![n0, n1, n2]⟩ : Shape).Idx) : (j 2).val < n2 := (j 2).isLt

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The scatter-indices index update index `j` reads its row entry at: `[j₀, 0]`. -/
private theorem scatterRows3_siIdx {N A B E : Nat}
    (wf : ScatterDims.WF ⟨3, ![N, A, B]⟩ ⟨2, ![E, 1]⟩ ⟨3, ![E, A, B]⟩ [1, 2] [0] [0] 1)
    (j : (⟨3, ![E, A, B]⟩ : Shape).Idx) :
    (scatterRows3 N A B E wf).siIdx j ⟨List.idxOf (0 : Fin 3) (scatterRows3 N A B E wf).scatterDimsToOperandDims,
        List.idxOf_lt_length_iff.2 (List.mem_singleton.mpr rfl)⟩ = ix2 (j 0) 0 := by
  funext b; refine Fin.ext ?_
  match b with
  | ⟨0, _⟩ => rfl
  | ⟨1, _⟩ => rfl

/-- On the row axis the window starts at the entry, read signed … -/
private theorem scatterRows3_start0 {N A B E w : Nat}
    (wf : ScatterDims.WF ⟨3, ![N, A, B]⟩ ⟨2, ![E, 1]⟩ ⟨3, ![E, A, B]⟩ [1, 2] [0] [0] 1)
    (idx : IVec ⟨2, ![E, 1]⟩ w) (j : (⟨3, ![E, A, B]⟩ : Shape).Idx) :
    (scatterRows3 N A B E wf).start j idx (0 : Fin 3) = (idx (ix2 (j 0) 0)).toInt := by
  unfold ScatterDims.start
  rw [dif_pos (show (0 : Fin 3) ∈ (scatterRows3 N A B E wf).scatterDimsToOperandDims from List.mem_singleton.mpr rfl),
    scatterRows3_siIdx]
  rfl

/-- … and on the two window axes at `0`. -/
private theorem scatterRows3_start1 {N A B E w : Nat}
    (wf : ScatterDims.WF ⟨3, ![N, A, B]⟩ ⟨2, ![E, 1]⟩ ⟨3, ![E, A, B]⟩ [1, 2] [0] [0] 1)
    (idx : IVec ⟨2, ![E, 1]⟩ w) (j : (⟨3, ![E, A, B]⟩ : Shape).Idx) :
    (scatterRows3 N A B E wf).start j idx (1 : Fin 3) = 0 := by
  unfold ScatterDims.start
  rw [dif_neg (show (1 : Fin 3) ∉ [(0 : Fin 3)] by decide)]
private theorem scatterRows3_start2 {N A B E w : Nat}
    (wf : ScatterDims.WF ⟨3, ![N, A, B]⟩ ⟨2, ![E, 1]⟩ ⟨3, ![E, A, B]⟩ [1, 2] [0] [0] 1)
    (idx : IVec ⟨2, ![E, 1]⟩ w) (j : (⟨3, ![E, A, B]⟩ : Shape).Idx) :
    (scatterRows3 N A B E wf).start j idx (2 : Fin 3) = 0 := by
  unfold ScatterDims.start
  rw [dif_neg (show (2 : Fin 3) ∉ [(0 : Fin 3)] by decide)]

/-- The window coordinate is `0` on the row axis … -/
private theorem scatterRows3_window0 {N A B E : Nat}
    (wf : ScatterDims.WF ⟨3, ![N, A, B]⟩ ⟨2, ![E, 1]⟩ ⟨3, ![E, A, B]⟩ [1, 2] [0] [0] 1)
    (j : (⟨3, ![E, A, B]⟩ : Shape).Idx) :
    (scatterRows3 N A B E wf).window j (0 : Fin 3) = 0 := by
  unfold ScatterDims.window
  rw [dif_neg]
  show (0 : Fin 3) ∉ (List.finRange 3).filter (· ∉ [(0 : Fin 3)])
  decide

/-- … and the update's own coordinate on each window axis. -/
private theorem scatterRows3_window1 {N A B E : Nat}
    (wf : ScatterDims.WF ⟨3, ![N, A, B]⟩ ⟨2, ![E, 1]⟩ ⟨3, ![E, A, B]⟩ [1, 2] [0] [0] 1)
    (j : (⟨3, ![E, A, B]⟩ : Shape).Idx) :
    (scatterRows3 N A B E wf).window j (1 : Fin 3) = (j 1).val := by
  have h : (1 : Fin 3) ∈ (scatterRows3 N A B E wf).sKept := by
    show (1 : Fin 3) ∈ (List.finRange 3).filter (· ∉ [(0 : Fin 3)])
    decide
  unfold ScatterDims.window
  rw [dif_pos h]
  rfl
private theorem scatterRows3_window2 {N A B E : Nat}
    (wf : ScatterDims.WF ⟨3, ![N, A, B]⟩ ⟨2, ![E, 1]⟩ ⟨3, ![E, A, B]⟩ [1, 2] [0] [0] 1)
    (j : (⟨3, ![E, A, B]⟩ : Shape).Idx) :
    (scatterRows3 N A B E wf).window j (2 : Fin 3) = (j 2).val := by
  have h : (2 : Fin 3) ∈ (scatterRows3 N A B E wf).sKept := by
    show (2 : Fin 3) ∈ (List.finRange 3).filter (· ∉ [(0 : Fin 3)])
    decide
  unfold ScatterDims.window
  rw [dif_pos h]
  rfl

/-- Update index `j` lands on operand index `i` exactly when its row entry, read signed, is `i`'s row and its two
    window coordinates are `i`'s. -/
private theorem scatterRows3_resultIdx_iff {N A B E w : Nat}
    (wf : ScatterDims.WF ⟨3, ![N, A, B]⟩ ⟨2, ![E, 1]⟩ ⟨3, ![E, A, B]⟩ [1, 2] [0] [0] 1)
    (idx : IVec ⟨2, ![E, 1]⟩ w) (j : (⟨3, ![E, A, B]⟩ : Shape).Idx) (i : (⟨3, ![N, A, B]⟩ : Shape).Idx) :
    (scatterRows3 N A B E wf).resultIdx? j idx = some i
      ↔ (idx (ix2 (j 0) 0)).toInt = ((i 0).val : Int) ∧ (j 1).val = (i 1).val ∧ (j 2).val = (i 2).val := by
  have hi0 := idx3_lt0 i
  have hi1 := idx3_lt1 i
  have hi2 := idx3_lt2 i
  have hj1 := idx3_lt1 j
  have hj2 := idx3_lt2 j
  unfold ScatterDims.resultIdx?
  constructor
  · intro h
    split at h
    · rename_i hh
      have h' := Option.some.inj h
      have h0 := congrArg (fun f => (f (0 : Fin 3)).val) h'
      have h1 := congrArg (fun f => (f (1 : Fin 3)).val) h'
      have h2 := congrArg (fun f => (f (2 : Fin 3)).val) h'
      have hh0 := hh (0 : Fin 3)
      have hh1 := hh (1 : Fin 3)
      have hh2 := hh (2 : Fin 3)
      simp only [scatterRows3_start0, scatterRows3_start1, scatterRows3_start2, scatterRows3_window0,
        scatterRows3_window1, scatterRows3_window2] at h0 h1 h2 hh0 hh1 hh2
      refine ⟨?_, ?_, ?_⟩ <;> omega
    · exact absurd h (by simp)
  · rintro ⟨h0, h1, h2⟩
    have hh : ∀ a, 0 ≤ (scatterRows3 N A B E wf).start j idx a + ((scatterRows3 N A B E wf).window j a : Int)
        ∧ (scatterRows3 N A B E wf).start j idx a + ((scatterRows3 N A B E wf).window j a : Int)
          < ((⟨3, ![N, A, B]⟩ : Shape).size a : Int) := by
      intro a
      match a with
      | ⟨0, _⟩ =>
        show 0 ≤ (scatterRows3 N A B E wf).start j idx (0 : Fin 3) + ((scatterRows3 N A B E wf).window j (0 : Fin 3) : Int)
          ∧ (scatterRows3 N A B E wf).start j idx (0 : Fin 3) + ((scatterRows3 N A B E wf).window j (0 : Fin 3) : Int) < (N : Int)
        rw [scatterRows3_start0, scatterRows3_window0]
        omega
      | ⟨1, _⟩ =>
        show 0 ≤ (scatterRows3 N A B E wf).start j idx (1 : Fin 3) + ((scatterRows3 N A B E wf).window j (1 : Fin 3) : Int)
          ∧ (scatterRows3 N A B E wf).start j idx (1 : Fin 3) + ((scatterRows3 N A B E wf).window j (1 : Fin 3) : Int) < (A : Int)
        rw [scatterRows3_start1, scatterRows3_window1]
        omega
      | ⟨2, _⟩ =>
        show 0 ≤ (scatterRows3 N A B E wf).start j idx (2 : Fin 3) + ((scatterRows3 N A B E wf).window j (2 : Fin 3) : Int)
          ∧ (scatterRows3 N A B E wf).start j idx (2 : Fin 3) + ((scatterRows3 N A B E wf).window j (2 : Fin 3) : Int) < (B : Int)
        rw [scatterRows3_start2, scatterRows3_window2]
        omega
    rw [dif_pos hh]
    congr 1
    funext a
    refine Fin.ext ?_
    match a with
    | ⟨0, _⟩ =>
      show ((scatterRows3 N A B E wf).start j idx (0 : Fin 3) + ((scatterRows3 N A B E wf).window j (0 : Fin 3) : Int)).toNat
        = (i 0).val
      rw [scatterRows3_start0, scatterRows3_window0]
      omega
    | ⟨1, _⟩ =>
      show ((scatterRows3 N A B E wf).start j idx (1 : Fin 3) + ((scatterRows3 N A B E wf).window j (1 : Fin 3) : Int)).toNat
        = (i 1).val
      rw [scatterRows3_start1, scatterRows3_window1]
      omega
    | ⟨2, _⟩ =>
      show ((scatterRows3 N A B E wf).start j idx (2 : Fin 3) + ((scatterRows3 N A B E wf).window j (2 : Fin 3) : Int)).toNat
        = (i 2).val
      rw [scatterRows3_start2, scatterRows3_window2]
      omega

/-- The rank-3 row scatter-add at `(n, a, b)`: the operand's element plus the sum over the entries `e` whose index,
    read signed, is `n`, of update row `e` at `(a, b)`. -/
theorem scatterAddRows3_apply {N A B E w : Nat}
    (wf : ScatterDims.WF ⟨3, ![N, A, B]⟩ ⟨2, ![E, 1]⟩ ⟨3, ![E, A, B]⟩ [1, 2] [0] [0] 1)
    (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd (scatterRows3 N A B E wf) x idx upd (ix3 n a b)
      = x (ix3 n a b) + ∑ e : Fin E, if (idx (ix2 e 0)).toInt = (n.val : Int) then upd (ix3 e a b) else 0 := by
  unfold Ideal.hostScatterAdd
  congr 1
  rw [Finset.sum_filter, sum_idx3]
  refine Finset.sum_congr rfl fun e _ => ?_
  have key : ∀ (p : Fin A) (q : Fin B),
      (if (scatterRows3 N A B E wf).resultIdx? (ix3 e p q) idx = some (ix3 n a b) then upd (ix3 e p q) else 0)
        = if (idx (ix2 e 0)).toInt = (n.val : Int) then
            (if p = a then (if q = b then upd (ix3 e p q) else 0) else 0) else 0 := by
    intro p q
    simp only [scatterRows3_resultIdx_iff, ite_and]
    show (if (idx (ix2 e 0)).toInt = (n.val : Int) then
        (if p.val = a.val then (if q.val = b.val then upd (ix3 e p q) else 0) else 0) else 0) = _
    simp only [Fin.val_inj]
  rw [Finset.sum_congr rfl fun p _ => Finset.sum_congr rfl fun q _ => key p q]
  by_cases h : (idx (ix2 e 0)).toInt = (n.val : Int)
  · simp only [if_pos h]
    have inner : ∀ p : Fin A,
        (∑ q : Fin B, if p = a then (if q = b then upd (ix3 e p q) else 0) else 0)
          = if p = a then upd (ix3 e p b) else 0 := by
      intro p
      by_cases hp : p = a
      · simp only [if_pos hp, Finset.sum_ite_eq', Finset.mem_univ, if_true]
      · simp only [if_neg hp, Finset.sum_const_zero]
    simp only [inner, Finset.sum_ite_eq', Finset.mem_univ, if_true]
  · simp only [if_neg h, Finset.sum_const_zero]

end Cert.LibRows

end
-- ==== Proof.Gather.lean ====
/-
  Picking rows out of a table: the two programs' gathers.

  Both programs turn a list of node indices into a column of START indices the same way: a negative entry has the
  number of nodes added to it. The reference then takes, for every entry, the row of the table the entry names (the
  host gather clamps the entry into the table's row range). The kernel's program takes the same rows but masks the
  result: an entry outside the row range gives a row of the not-a-number word instead. Where every start index is in
  range the mask is all ones and the two are the same table.
  A table computed row by row commutes with picking rows: the row function applied to the picked rows is the picked
  rows of the row function's table.
-/
import proofs.«408577_j31361851195877_2_alg».proof.Proof.Spec
import proofs.«408577_j31361851195877_2_alg».proof.Proof.LibRows
import Idealize.ShloMosaic.Lib.Pipeline.Value
import Idealize.ShloMosaic.Lib.StableHlo.Predicate
import Idealize.ShloMosaic.Lib.Affine

noncomputable section

open scoped BigOperators

namespace Cert.Gnn

open Idealize.ShloMosaic Idealize.ShloMosaic.ValueIdx

local notation "𝕀" => Idealize.ShloMosaic.Ideal

/-- Rows picked from a table computed row by row are the row function of the picked rows. -/
theorem gather_rowsMap {N E w : Nat} (hN : 0 < N)
    (wf : GatherDims.WF ⟨2, ![N, 64]⟩ ⟨2, ![E, 1]⟩ ⟨2, ![E, 64]⟩ [1] [0] [] [0] [] 1 ![1, 64])
    (g : Row → Row) (x : (⟨2, ![N, 64]⟩ : Shape).Idx → EReal) (idx : IVec ⟨2, ![E, 1]⟩ w) :
    Host.gather (Cert.LibRows.gatherRows2 N E 64 wf) (rowsMap g x) idx
      = rowsMap g (Host.gather (Cert.LibRows.gatherRows2 N E 64 wf) x idx) := by
  refine table_ext fun e j => ?_
  rw [Cert.LibRows.gatherRows2_apply hN, rowsMap_apply, rowsMap_apply]
  congr 1
  funext l
  exact (Cert.LibRows.gatherRows2_apply hN wf x idx e l).symm

/-- A broadcast of a table that holds one value everywhere holds that value everywhere. -/
private theorem broadcastInDim_of_const {α : Type} {s t : Shape} (dims : Fin s.rank → Fin t.rank)
    (h : s.BroadcastsInDim t dims) (x : s.Idx → α) (c : α) (hx : ∀ k, x k = c) (j : t.Idx) :
    broadcastInDim t dims h x j = c := by
  unfold broadcastInDim
  exact hx _

/-- A left fold by `and` that starts at one and meets only ones ends at one. -/
private theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), IntOp.andi_eq_one.2 ⟨rfl, rfl⟩]
    exact foldl_andi_of_forall f l fun n hn => h n (List.mem_cons_of_mem _ hn)

/-- A reduction by `and` from one, of a table of ones, is one at every index. -/
private theorem reduce_andi_of_forall {s t u : Shape} {axes : List (Fin s.rank)} (x : s.Idx → BitVec 1)
    (init : u.Idx → BitVec 1) (h : s.ReducesTo axes t) (hu : 0 < u.numel) (hinit : ∀ k, init k = 1#1)
    (hx : ∀ i, x i = 1#1) (j : t.Idx) : Host.reduce IntOp.andi x init h hu j = 1#1 := by
  rw [Host.reduce_eq_foldl, hinit]
  exact foldl_andi_of_forall x _ fun i _ => hx i

/-- The column of start indices: a negative entry has `nW` (the number of rows, as a word) added to it. -/
def startCol {E : Nat} (nW : BitVec 32) (h0 : (⟨0, ![]⟩ : Shape).BroadcastsInDim ⟨1, ![E]⟩ (![] : Fin 0 → Fin 1))
    (hc : (⟨1, ![E]⟩ : Shape).BroadcastsInDim ⟨2, ![E, 1]⟩ (![0] : Fin 1 → Fin 2)) (idx : IVec ⟨1, ![E]⟩ 32) :
    IVec ⟨2, ![E, 1]⟩ 32 :=
  broadcastInDim (⟨2, ![E, 1]⟩ : Shape) ![0] hc
    (select (cmpi .slt idx (broadcastInDim (⟨1, ![E]⟩ : Shape) ![] h0 (constantI (⟨0, ![]⟩ : Shape) 32 0#32)))
      (addi idx (broadcastInDim (⟨1, ![E]⟩ : Shape) ![] h0 (constantI (⟨0, ![]⟩ : Shape) 32 nW))) idx)

/-- At an entry that is not negative the start index is the entry. -/
theorem startCol_apply {E : Nat} (nW : BitVec 32) (h0 : (⟨0, ![]⟩ : Shape).BroadcastsInDim ⟨1, ![E]⟩ (![] : Fin 0 → Fin 1))
    (hc : (⟨1, ![E]⟩ : Shape).BroadcastsInDim ⟨2, ![E, 1]⟩ (![0] : Fin 1 → Fin 2)) (idx : IVec ⟨1, ![E]⟩ 32) (e : Fin E)
    (hpos : 0 ≤ (idx (ix1 e)).toInt) : startCol nW h0 hc idx (ix2 e 0) = idx (ix1 e) := by
  unfold startCol
  -- The column at `(e, 0)` is the vector at `e`.
  rw [broadcastInDim_apply ![0] hc _ (ix2 e 0) (ix1 e) (fun a => by
    match a with
    | ⟨0, _⟩ =>
      show e.val = if E = 1 then 0 else e.val
      have := e.isLt
      split <;> omega), select_apply]
  -- The entry is not below zero, so the comparison's bit is zero and the select keeps the entry.
  have hbit : cmpi .slt idx (broadcastInDim (⟨1, ![E]⟩ : Shape) ![] h0 (constantI (⟨0, ![]⟩ : Shape) 32 0#32)) (ix1 e) = 0#1 := by
    refine eq_zero_of_ne_one fun h1 => ?_
    have hlt : (idx (ix1 e)).toInt < (broadcastInDim (⟨1, ![E]⟩ : Shape) ![] h0 (constantI (⟨0, ![]⟩ : Shape) 32 0#32) (ix1 e)).toInt :=
      IntOp.cmpi_slt.1 h1
    rw [broadcastInDim_of_const _ h0 (constantI (⟨0, ![]⟩ : Shape) 32 0#32) 0#32 (fun _ => rfl)] at hlt
    have h00 : (0#32 : BitVec 32).toInt = 0 := by decide
    omega
  rw [hbit, select_zero]

/-- The kernel program's masked row gather: the rows the start column names, and a row of the not-a-number word
    wherever the start index is below zero or above `hiW` (the last row, as a word). -/
def takeRows {N E : Nat} (hiW : BitVec 32) (dims : GatherDims ⟨2, ![N, 64]⟩ ⟨2, ![E, 1]⟩ ⟨2, ![E, 64]⟩)
    (hz : (⟨0, ![]⟩ : Shape).BroadcastsInDim ⟨2, ![E, 1]⟩ (![] : Fin 0 → Fin 2))
    (h1 : (⟨1, ![1]⟩ : Shape).BroadcastsInDim ⟨2, ![1, 1]⟩ (![1] : Fin 1 → Fin 2))
    (h11 : (⟨2, ![1, 1]⟩ : Shape).BroadcastsInDim ⟨2, ![E, 1]⟩ (![0, 1] : Fin 2 → Fin 2))
    (hred : (⟨2, ![E, 1]⟩ : Shape).ReducesTo [1] ⟨1, ![E]⟩) (h_S_ : 0 < (⟨0, ![]⟩ : Shape).numel)
    (hm : (⟨1, ![E]⟩ : Shape).BroadcastsInDim ⟨2, ![E, 64]⟩ (![0] : Fin 1 → Fin 2))
    (hn : (⟨0, ![]⟩ : Shape).BroadcastsInDim ⟨2, ![E, 64]⟩ (![] : Fin 0 → Fin 2))
    (x : FVec 𝕀 ⟨2, ![N, 64]⟩ .f32) (start : IVec ⟨2, ![E, 1]⟩ 32) : FVec 𝕀 ⟨2, ![E, 64]⟩ .f32 :=
  select (broadcastInDim (⟨2, ![E, 64]⟩ : Shape) ![0] hm
      (Host.reduce IntOp.andi
        (andi (cmpi .sge start (broadcastInDim (⟨2, ![E, 1]⟩ : Shape) ![] hz (constantI (⟨0, ![]⟩ : Shape) 32 0#32)))
          (cmpi .sle start (broadcastInDim (⟨2, ![E, 1]⟩ : Shape) ![0, 1] h11
            (broadcastInDim (⟨2, ![1, 1]⟩ : Shape) ![1] h1 (constantI (⟨1, ![1]⟩ : Shape) 32 hiW)))))
        (constantI (⟨0, ![]⟩ : Shape) 1 1#1) hred h_S_))
    (Host.gather dims x start)
    (broadcastInDim (⟨2, ![E, 64]⟩ : Shape) ![] hn (constant (⟨0, ![]⟩ : Shape) .f32 0x7FC00000#32))

/-- Where every start index is in `[0, hiW]` the mask is all ones: the masked gather is the gather. -/
theorem takeRows_eq_gather {N E : Nat} (hiW : BitVec 32) (dims : GatherDims ⟨2, ![N, 64]⟩ ⟨2, ![E, 1]⟩ ⟨2, ![E, 64]⟩)
    (hz : (⟨0, ![]⟩ : Shape).BroadcastsInDim ⟨2, ![E, 1]⟩ (![] : Fin 0 → Fin 2))
    (h1 : (⟨1, ![1]⟩ : Shape).BroadcastsInDim ⟨2, ![1, 1]⟩ (![1] : Fin 1 → Fin 2))
    (h11 : (⟨2, ![1, 1]⟩ : Shape).BroadcastsInDim ⟨2, ![E, 1]⟩ (![0, 1] : Fin 2 → Fin 2))
    (hred : (⟨2, ![E, 1]⟩ : Shape).ReducesTo [1] ⟨1, ![E]⟩) (h_S_ : 0 < (⟨0, ![]⟩ : Shape).numel)
    (hm : (⟨1, ![E]⟩ : Shape).BroadcastsInDim ⟨2, ![E, 64]⟩ (![0] : Fin 1 → Fin 2))
    (hn : (⟨0, ![]⟩ : Shape).BroadcastsInDim ⟨2, ![E, 64]⟩ (![] : Fin 0 → Fin 2))
    (x : FVec 𝕀 ⟨2, ![N, 64]⟩ .f32) (start : IVec ⟨2, ![E, 1]⟩ 32)
    (hrange : ∀ e : Fin E, 0 ≤ (start (ix2 e 0)).toInt ∧ (start (ix2 e 0)).toInt ≤ hiW.toInt) :
    takeRows hiW dims hz h1 h11 hred h_S_ hm hn x start = Host.gather dims x start := by
  refine table_ext fun e j => ?_
  unfold takeRows
  rw [select_apply]
  -- Every entry of the range test is one: both comparisons hold at every start index.
  have hone : ∀ i : (⟨2, ![E, 1]⟩ : Shape).Idx,
      andi (cmpi .sge start (broadcastInDim (⟨2, ![E, 1]⟩ : Shape) ![] hz (constantI (⟨0, ![]⟩ : Shape) 32 0#32)))
        (cmpi .sle start (broadcastInDim (⟨2, ![E, 1]⟩ : Shape) ![0, 1] h11
          (broadcastInDim (⟨2, ![1, 1]⟩ : Shape) ![1] h1 (constantI (⟨1, ![1]⟩ : Shape) 32 hiW)))) i = 1#1 := by
    intro i
    obtain ⟨e', z, rfl⟩ : ∃ (e' : Fin E) (z : Fin 1), i = ix2 e' z := ⟨i 0, i 1, eq_ix2 i⟩
    obtain rfl : z = 0 := Subsingleton.elim _ _
    refine IntOp.andi_eq_one.2 ⟨IntOp.cmpi_sge.2 ?_, IntOp.cmpi_sle.2 ?_⟩
    · rw [broadcastInDim_of_const _ hz (constantI (⟨0, ![]⟩ : Shape) 32 0#32) 0#32 (fun _ => rfl)]
      have h00 : (0#32 : BitVec 32).toInt = 0 := by decide
      rw [h00]
      exact (hrange e').1
    · rw [broadcastInDim_of_const _ h11
        (broadcastInDim (⟨2, ![1, 1]⟩ : Shape) ![1] h1 (constantI (⟨1, ![1]⟩ : Shape) 32 hiW)) hiW
        (fun k => broadcastInDim_of_const _ h1 (constantI (⟨1, ![1]⟩ : Shape) 32 hiW) hiW (fun _ => rfl) k)]
      exact (hrange e').2
  -- So the reduction over the one-entry axis is one, and so is the mask laid along the rows.
  rw [broadcastInDim_of_const _ hm _ 1#1
    (reduce_andi_of_forall _ (constantI (⟨0, ![]⟩ : Shape) 1 1#1) hred h_S_ (fun _ => rfl) hone), select_one]

end Cert.Gnn

end
-- ==== Proof.NetSpec.lean ====
/-
  The two programs as compositions of tables.

  Over the thirty argument arrays (`Args`): the edge weights divided by their sum; the two rows of the edge list
  (target node, neighbour); the node table after the first feed-forward block; a graph convolution (messages along
  the edges, scaled by the edge weights, added up at the target nodes, then the update block); the query rows; the
  logits. The two programs differ in two places only. The KERNEL's program applies a convolution's message block to
  the whole node table and then picks the neighbours' rows, with a mask on the row range, where the REFERENCE picks
  the neighbours' rows and then applies the block to them; and the kernel's program picks the query rows (again with
  the mask) before the last feed-forward block, the reference after it.
-/
import proofs.«408577_j31361851195877_2_alg».proof.KernelIdeal
import proofs.«408577_j31361851195877_2_alg».proof.ReferenceIdeal
import proofs.«408577_j31361851195877_2_alg».proof.Proof.Spec
import proofs.«408577_j31361851195877_2_alg».proof.Proof.Gather

noncomputable section

namespace Cert.Gnn

open Idealize.ShloMosaic Idealize.ShloMosaic.ValueIdx

local notation "𝕀" => Idealize.ShloMosaic.Ideal

/-- The thirty argument arrays, in the order of the programs' parameters: node features, edge list, edge weights,
    query indices, then the weights and biases of the seven feed-forward blocks and of the logits layer. -/
structure Args where
  a0 : FVec 𝕀 ⟨2, ![50000, 64]⟩ .f32
  a1 : IVec ⟨2, ![2, 800000]⟩ 32
  a2 : FVec 𝕀 ⟨1, ![800000]⟩ .f32
  a3 : IVec ⟨1, ![4096]⟩ 32
  a4 : FVec 𝕀 ⟨2, ![64, 64]⟩ .f32
  a5 : FVec 𝕀 ⟨1, ![64]⟩ .f32
  a6 : FVec 𝕀 ⟨2, ![64, 64]⟩ .f32
  a7 : FVec 𝕀 ⟨1, ![64]⟩ .f32
  a8 : FVec 𝕀 ⟨2, ![64, 64]⟩ .f32
  a9 : FVec 𝕀 ⟨1, ![64]⟩ .f32
  a10 : FVec 𝕀 ⟨2, ![64, 64]⟩ .f32
  a11 : FVec 𝕀 ⟨1, ![64]⟩ .f32
  a12 : FVec 𝕀 ⟨2, ![128, 64]⟩ .f32
  a13 : FVec 𝕀 ⟨1, ![64]⟩ .f32
  a14 : FVec 𝕀 ⟨2, ![64, 64]⟩ .f32
  a15 : FVec 𝕀 ⟨1, ![64]⟩ .f32
  a16 : FVec 𝕀 ⟨2, ![64, 64]⟩ .f32
  a17 : FVec 𝕀 ⟨1, ![64]⟩ .f32
  a18 : FVec 𝕀 ⟨2, ![64, 64]⟩ .f32
  a19 : FVec 𝕀 ⟨1, ![64]⟩ .f32
  a20 : FVec 𝕀 ⟨2, ![128, 64]⟩ .f32
  a21 : FVec 𝕀 ⟨1, ![64]⟩ .f32
  a22 : FVec 𝕀 ⟨2, ![64, 64]⟩ .f32
  a23 : FVec 𝕀 ⟨1, ![64]⟩ .f32
  a24 : FVec 𝕀 ⟨2, ![64, 64]⟩ .f32
  a25 : FVec 𝕀 ⟨1, ![64]⟩ .f32
  a26 : FVec 𝕀 ⟨2, ![64, 64]⟩ .f32
  a27 : FVec 𝕀 ⟨1, ![64]⟩ .f32
  a28 : FVec 𝕀 ⟨2, ![64, 2]⟩ .f32
  a29 : FVec 𝕀 ⟨1, ![2]⟩ .f32

/-- A feed-forward block on every row of a table. -/
def ffn {R K : Nat} (w1 : FVec 𝕀 ⟨2, ![K, 64]⟩ .f32) (b1 : FVec 𝕀 ⟨1, ![64]⟩ .f32) (w2 : FVec 𝕀 ⟨2, ![64, 64]⟩ .f32)
    (b2 : FVec 𝕀 ⟨1, ![64]⟩ .f32) (x : (⟨2, ![R, K]⟩ : Shape).Idx → EReal) : (⟨2, ![R, 64]⟩ : Shape).Idx → EReal :=
  rowsMap (ffnRow (mat w1) (vec1 b1) (mat w2) (vec1 b2)) x

/-- An update block on every pair of rows of the node table and the message table. -/
def upd {R : Nat} (w1 : FVec 𝕀 ⟨2, ![128, 64]⟩ .f32) (b1 : FVec 𝕀 ⟨1, ![64]⟩ .f32) (w2 : FVec 𝕀 ⟨2, ![64, 64]⟩ .f32)
    (b2 : FVec 𝕀 ⟨1, ![64]⟩ .f32) (x agg : (⟨2, ![R, 64]⟩ : Shape).Idx → EReal) : (⟨2, ![R, 64]⟩ : Shape).Idx → EReal :=
  rowsMap2 (updRow (mat w1) (vec1 b1) (mat w2) (vec1 b2)) x agg

/-! ## The kernel's program -/

namespace K

open Cert.KernelIdeal
variable [Cert.KernelIdeal.Facts₀]
open Cert.KernelIdeal.Facts₀

/-- The edge weights over their sum. -/
def ew (a : Args) : FVec 𝕀 S800000 .f32 :=
  Host.divf a.a2 (broadcastInDim S800000 ![] bcast_S_S800000 (Host.reduceAdd a.a2 (constant S_ .f32 0x00000000#32) reducesTo_S800000_S_d0 h_S_))
/-- The target-node row and the neighbour row of the edge list. -/
def node (a : Args) : IVec S800000 32 := shapeCast S800000 (extractStridedSlice S1x800000 ![0, 0] a.a1 slices_S2x800000_S1x800000_0_0) shapeCasts_S1x800000_S800000
def nbr (a : Args) : IVec S800000 32 := shapeCast S800000 (extractStridedSlice S1x800000 ![1, 0] a.a1 slices_S2x800000_S1x800000_1_0) shapeCasts_S1x800000_S800000
/-- The start columns of the neighbour gather and of the query gather. -/
def startE (a : Args) : IVec S800000x1 32 := startCol 50000#32 bcast_S_S800000 bcast_S800000_S800000x1_0 (nbr a)
def startQ (a : Args) : IVec S4096x1 32 := startCol 50000#32 bcast_S_S4096 bcast_S4096_S4096x1_0 a.a3
/-- The masked row gathers at the edges and at the queries. -/
def takeE (a : Args) (x : FVec 𝕀 S50000x64 .f32) : FVec 𝕀 S800000x64 .f32 :=
  takeRows 49999#32 gather_S50000x64_S800000x1_S800000x64_1_0_n_n_0_1_164 bcast_S_S800000x1 bcast_S1_S1x1_1 bcast_S1x1_S800000x1_0_1
    reducesTo_S800000x1_S800000_d1 h_S_ bcast_S800000_S800000x64_0 bcast_S_S800000x64 x (startE a)
def takeQ (a : Args) (x : FVec 𝕀 S50000x64 .f32) : FVec 𝕀 S4096x64 .f32 :=
  takeRows 49999#32 gather_S50000x64_S4096x1_S4096x64_1_0_n_n_0_1_164 bcast_S_S4096x1 bcast_S1_S1x1_1 bcast_S1x1_S4096x1_0_1
    reducesTo_S4096x1_S4096_d1 h_S_ bcast_S4096_S4096x64_0 bcast_S_S4096x64 x (startQ a)
/-- Messages scaled by the edge weights and added up at the target nodes. -/
def agg (a : Args) (msg : FVec 𝕀 S800000x64 .f32) : FVec 𝕀 S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (node a))
    (mulf msg (broadcastInDim S800000x64 ![0, 1] bcast_S800000x1_S800000x64_0_1 (broadcastInDim S800000x1 ![0] bcast_S800000_S800000x1_0 (ew a))))
/-- The node table after the first block, after the first convolution, after the second. -/
def x0 (a : Args) : FVec 𝕀 S50000x64 .f32 := ffn a.a4 a.a5 a.a6 a.a7 a.a0
def x1 (a : Args) : FVec 𝕀 S50000x64 .f32 := upd a.a12 a.a13 a.a14 a.a15 (x0 a) (agg a (takeE a (ffn a.a8 a.a9 a.a10 a.a11 (x0 a))))
def x2 (a : Args) : FVec 𝕀 S50000x64 .f32 := upd a.a20 a.a21 a.a22 a.a23 (x1 a) (agg a (takeE a (ffn a.a16 a.a17 a.a18 a.a19 (x1 a))))
/-- The logits of a table of query rows. -/
def logits (a : Args) (t : FVec 𝕀 S4096x64 .f32) : FVec 𝕀 S4096x2 .f32 :=
  addf (Host.dotGeneral dot_S4096x64_S64x2_S4096x2_1_0_0_1_n_n none t a.a28)
    (broadcastInDim S4096x2 ![0, 1] bcast_S1x2_S4096x2_0_1 (broadcastInDim S1x2 ![1] bcast_S2_S1x2_1 a.a29))
/-- The kernel program's result. -/
def out (a : Args) : FVec 𝕀 S4096x2 .f32 := logits a (ffn a.a24 a.a25 a.a26 a.a27 (takeQ a (x2 a)))

end K

/-! ## The reference -/

namespace R

open Cert.ReferenceIdeal
variable [Cert.ReferenceIdeal.Facts₀]
open Cert.ReferenceIdeal.Facts₀

def ew (a : Args) : FVec 𝕀 S800000 .f32 :=
  Host.divf a.a2 (broadcastInDim S800000 ![] bcast_S_S800000 (Host.reduceAdd a.a2 (constant S_ .f32 0x00000000#32) reducesTo_S800000_S_d0 h_S_))
def node (a : Args) : IVec S800000 32 := shapeCast S800000 (extractStridedSlice S1x800000 ![0, 0] a.a1 slices_S2x800000_S1x800000_0_0) shapeCasts_S1x800000_S800000
def nbr (a : Args) : IVec S800000 32 := shapeCast S800000 (extractStridedSlice S1x800000 ![1, 0] a.a1 slices_S2x800000_S1x800000_1_0) shapeCasts_S1x800000_S800000
def startE (a : Args) : IVec S800000x1 32 := startCol 50000#32 bcast_S_S800000 bcast_S800000_S800000x1_0 (nbr a)
def startQ (a : Args) : IVec S4096x1 32 := startCol 50000#32 bcast_S_S4096 bcast_S4096_S4096x1_0 a.a3
def gatherE (a : Args) (x : FVec 𝕀 S50000x64 .f32) : FVec 𝕀 S800000x64 .f32 :=
  Host.gather gather_S50000x64_S800000x1_S800000x64_1_0_n_n_0_1_164 x (startE a)
def gatherQ (a : Args) (x : FVec 𝕀 S50000x64 .f32) : FVec 𝕀 S4096x64 .f32 :=
  Host.gather gather_S50000x64_S4096x1_S4096x64_1_0_n_n_0_1_164 x (startQ a)
def agg (a : Args) (msg : FVec 𝕀 S800000x64 .f32) : FVec 𝕀 S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (node a))
    (mulf msg (broadcastInDim S800000x64 ![0, 1] bcast_S800000x1_S800000x64_0_1 (broadcastInDim S800000x1 ![0] bcast_S800000_S800000x1_0 (ew a))))
def x0 (a : Args) : FVec 𝕀 S50000x64 .f32 := ffn a.a4 a.a5 a.a6 a.a7 a.a0
def x1 (a : Args) : FVec 𝕀 S50000x64 .f32 := upd a.a12 a.a13 a.a14 a.a15 (x0 a) (agg a (ffn a.a8 a.a9 a.a10 a.a11 (gatherE a (x0 a))))
def x2 (a : Args) : FVec 𝕀 S50000x64 .f32 := upd a.a20 a.a21 a.a22 a.a23 (x1 a) (agg a (ffn a.a16 a.a17 a.a18 a.a19 (gatherE a (x1 a))))
def logits (a : Args) (t : FVec 𝕀 S4096x64 .f32) : FVec 𝕀 S4096x2 .f32 :=
  addf (Host.dotGeneral dot_S4096x64_S64x2_S4096x2_1_0_0_1_n_n none t a.a28)
    (broadcastInDim S4096x2 ![0, 1] bcast_S1x2_S4096x2_0_1 (broadcastInDim S1x2 ![1] bcast_S2_S1x2_1 a.a29))
/-- The reference's result. -/
def out (a : Args) : FVec 𝕀 S4096x2 .f32 := logits a (gatherQ a (ffn a.a24 a.a25 a.a26 a.a27 (x2 a)))

end R

end Cert.Gnn

end
-- ==== Proof.Dense.lean ====
/-
  A plain matrix product read at one entry.

  Both the kernel's matrix unit and the host's dot product contract the one shared axis of a table `[R, K]` and a
  weight matrix `[K, C]`; over the extended reals either is, at row `r` and column `j`, the sum over `k` of
  `x (r, k) * W (k, j)`. The kernel's form starts from an accumulator of zeros, which adds nothing.
-/
import Idealize.ShloMosaic.PureOps.Ideal.Laws
import Idealize.ShloMosaic.Lib.ValueIdx
import Idealize.ShloMosaic.Lib.StackMember

noncomputable section

open scoped BigOperators

namespace Cert.Gnn

open Idealize.ShloMosaic Idealize.ShloMosaic.ValueIdx

/-- The host's dot product of `[R, K]` by `[K, C]` at `(r, j)`. -/
theorem dotGeneral_plain_apply {R K C : Nat} {φ₁ φ₂ : FTy} (x : FVec Idealize.ShloMosaic.Ideal ⟨2, ![R, K]⟩ φ₁)
    (W : FVec Idealize.ShloMosaic.Ideal ⟨2, ![K, C]⟩ φ₂) (r : Fin R) (j : Fin C) :
    Host.dotGeneral (F := Idealize.ShloMosaic.Ideal) (DotDims.plain R K C) none x W (ix2 r j)
      = ∑ k : Fin K, x (ix2 r k) * W (ix2 k j) :=
  StackMember.dotGeneral_plain_apply none x W r j

/-- The matrix unit's product of `[R, K]` by `[K, C]` into zeros, at `(r, j)`. -/
theorem matmul_plain_zero_apply {R K C : Nat} {φ₁ φ₂ : FTy} (x : FVec Idealize.ShloMosaic.Ideal ⟨2, ![R, K]⟩ φ₁)
    (W : FVec Idealize.ShloMosaic.Ideal ⟨2, ![K, C]⟩ φ₂) (r : Fin R) (j : Fin C) :
    matmul (F := Idealize.ShloMosaic.Ideal) (DotDims.plain R K C) none x W
        (constant (⟨2, ![R, C]⟩ : Shape) .f32 0x00000000#32) (ix2 r j)
      = ∑ k : Fin K, x (ix2 r k) * W (ix2 k j) := by
  -- Into zeros the matrix unit's entry is the bare sum over the contraction index, which is also the host's entry.
  simp only [matmul]
  rw [Ideal.matmul_constant_zero_apply,
    ← Ideal.dotGeneral_apply (DotDims.plain R K C) none .single x W (ix2 r j)]
  exact dotGeneral_plain_apply x W r j

end Cert.Gnn

end
-- ==== Proof.RowsKer.lean ====
/-
  The kernel's layers on one block of rows, each as a function of rows.

  Inside a kernel a block of `R` rows is in vector registers: a dense layer is the matrix unit's product of the block
  and the weights (both passed through a change of float format, which is the identity over the extended reals) into
  zeros, plus the one-row bias table repeated down the rows; GELU is a chain of pointwise operations on scalars
  broadcast over the block; the update block's first layer adds two such products, one for each half of the weights;
  and the normalisation sums each row's squares along the lanes. Read at one entry, each is the row function of Spec
  applied to that entry's row.
-/
import proofs.«408577_j31361851195877_2_alg».proof.Proof.Spec
import proofs.«408577_j31361851195877_2_alg».proof.Proof.Dense
import Idealize.ShloMosaic.Lib.Pipeline.Value
import Idealize.ShloMosaic.Lib.ValueLayout

noncomputable section

open scoped BigOperators

namespace Cert.Gnn

open Idealize.ShloMosaic Idealize.ShloMosaic.ValueIdx

local notation "𝕀" => Idealize.ShloMosaic.Ideal

/-- The matrix unit's product of a block and a weight matrix, both through the narrower float format, into zeros. -/
def kerMm {R : Nat} (hlt : FTy.bits .bf16 < FTy.bits .f32) (x : FVec 𝕀 ⟨2, ![R, 64]⟩ .f32) (W : FVec 𝕀 ⟨2, ![64, 64]⟩ .f32) :
    FVec 𝕀 ⟨2, ![R, 64]⟩ .f32 :=
  matmul (DotDims.plain R 64 64) none (truncf .bf16 x hlt) (truncf .bf16 W hlt) (constant (⟨2, ![R, 64]⟩ : Shape) .f32 0x00000000#32)

/-- At `(r, j)` it is the sum over `k` of `x (r, k) * W (k, j)`. -/
theorem kerMm_apply {R : Nat} (hlt : FTy.bits .bf16 < FTy.bits .f32) (x : FVec 𝕀 ⟨2, ![R, 64]⟩ .f32)
    (W : FVec 𝕀 ⟨2, ![64, 64]⟩ .f32) (r : Fin R) (j : Fin 64) :
    kerMm hlt x W (ix2 r j) = ∑ k : Fin 64, x (ix2 r k) * W (ix2 k j) := by
  unfold kerMm
  rw [matmul_plain_zero_apply]
  -- the change of float format is the identity on extended reals
  simp only [truncf_apply]

/-- The one-row bias table repeated down the rows of a block. -/
def kerBias {R : Nat} (hs : (⟨2, ![1, 64]⟩ : Shape).ShapeCasts ⟨2, ![1, 64]⟩) (hb : (⟨2, ![1, 64]⟩ : Shape).Broadcasts ⟨2, ![R, 64]⟩)
    (b : FVec 𝕀 ⟨2, ![1, 64]⟩ .f32) : FVec 𝕀 ⟨2, ![R, 64]⟩ .f32 :=
  broadcastTo (⟨2, ![R, 64]⟩ : Shape) (shapeCast (⟨2, ![1, 64]⟩ : Shape) b hs) hb

/-- At `(r, j)` it is the bias of column `j`. -/
theorem kerBias_apply {R : Nat} (hs : (⟨2, ![1, 64]⟩ : Shape).ShapeCasts ⟨2, ![1, 64]⟩)
    (hb : (⟨2, ![1, 64]⟩ : Shape).Broadcasts ⟨2, ![R, 64]⟩) (b : FVec 𝕀 ⟨2, ![1, 64]⟩ .f32) (r : Fin R) (j : Fin 64) :
    kerBias hs hb b (ix2 r j) = vecRow b j := by
  unfold kerBias
  -- the one row repeated reads that row; the cast between equal shapes is the identity
  rw [broadcastTo_1b_ab_apply, shapeCast_self]
  rfl

/-- A kernel dense layer on a block: product plus bias. It is the dense row function on every row. -/
theorem kerDense_eq {R : Nat} (hlt : FTy.bits .bf16 < FTy.bits .f32) (hs : (⟨2, ![1, 64]⟩ : Shape).ShapeCasts ⟨2, ![1, 64]⟩)
    (hb : (⟨2, ![1, 64]⟩ : Shape).Broadcasts ⟨2, ![R, 64]⟩) (x : FVec 𝕀 ⟨2, ![R, 64]⟩ .f32)
    (W : FVec 𝕀 ⟨2, ![64, 64]⟩ .f32) (b : FVec 𝕀 ⟨2, ![1, 64]⟩ .f32) :
    addf (kerMm hlt x W) (kerBias hs hb b) = rowsMap (dense (mat W) (vecRow b)) x := by
  refine table_ext fun r j => ?_
  rw [addf_apply, kerMm_apply, kerBias_apply, rowsMap_apply]
  rfl

/-- The update block's first layer on a block: the product of the node rows with the upper half of the weights plus
    the product of the message rows with the lower half, plus the bias. With the two halves cut from one `[128, 64]`
    matrix `W` (`Wa (k, j) = W (k, j)`, `Wb (k, j) = W (64 + k, j)`) it is the dense row function of `W` on the two rows
    side by side. -/
theorem kerDense2_eq {R : Nat} (hlt : FTy.bits .bf16 < FTy.bits .f32) (hs : (⟨2, ![1, 64]⟩ : Shape).ShapeCasts ⟨2, ![1, 64]⟩)
    (hb : (⟨2, ![1, 64]⟩ : Shape).Broadcasts ⟨2, ![R, 64]⟩) (x y : FVec 𝕀 ⟨2, ![R, 64]⟩ .f32)
    (Wa Wb : FVec 𝕀 ⟨2, ![64, 64]⟩ .f32) (W : FVec 𝕀 ⟨2, ![128, 64]⟩ .f32) (b : FVec 𝕀 ⟨2, ![1, 64]⟩ .f32)
    (ha : ∀ (k j : Fin 64), Wa (ix2 k j) = W (ix2 (Fin.castAdd 64 k) j))
    (hbw : ∀ (k j : Fin 64), Wb (ix2 k j) = W (ix2 (Fin.natAdd 64 k) j)) (r : Fin R) (j : Fin 64) :
    addf (addf (kerMm hlt x Wa) (kerMm hlt y Wb)) (kerBias hs hb b) (ix2 r j)
      = dense (mat W) (vecRow b) (Fin.append (rowOf x r) (rowOf y r)) j := by
  rw [addf_apply, addf_apply, kerMm_apply, kerMm_apply, kerBias_apply]
  unfold dense
  -- the sum over the 128 columns of the two rows side by side splits into the two halves
  show _ = (∑ k : Fin (64 + 64), Fin.append (rowOf x r) (rowOf y r) k * mat W k j) + vecRow b j
  rw [Fin.sum_univ_add]
  simp only [Fin.append_left, Fin.append_right, ha, hbw]
  rfl

/-- The kernel's GELU chain on a block. -/
def kerGelu {s : Shape} (h : FVec 𝕀 s .f32) : FVec 𝕀 s .f32 :=
  mulf h (mulf (broadcast s (Scalar.ofBits .f32 0x3F000000#32))
    (addf (broadcast s (Scalar.ofBits .f32 0x3F800000#32))
      (tanh (mulf (broadcast s (Scalar.ofBits .f32 0x3F4C422A#32))
        (addf h (mulf (broadcast s (Scalar.ofBits .f32 0x3D372713#32)) (mulf h (mulf h h))))))))

/-- It is GELU at every entry. -/
theorem kerGelu_apply {s : Shape} (h : FVec 𝕀 s .f32) (i : s.Idx) : kerGelu h i = gelu (h i) := by
  unfold kerGelu gelu
  simp only [mulf_apply, addf_apply, broadcast_apply, tanh, Ideal.tanh_def]
  rfl

/-- The kernel's normalisation with the residual on a block: every row of `o` scaled by the reciprocal square root of
    its lane sum of squares (bounded below by the small constant), plus the same row of `x`. -/
def kerL2 {R : Nat} (hr : (⟨2, ![R, 64]⟩ : Shape).Reduces [1] ⟨1, ![R]⟩) (hφ : FKind.Formats .f32)
    (hacc : (0x00000000#32 : BitVec 32) = FKind.add.neutral .f32 hφ)
    (hsc : (⟨1, ![R]⟩ : Shape).ShapeCasts ⟨2, ![R, 1]⟩) (hb : (⟨2, ![R, 1]⟩ : Shape).Broadcasts ⟨2, ![R, 64]⟩)
    (o x : FVec 𝕀 ⟨2, ![R, 64]⟩ .f32) : FVec 𝕀 ⟨2, ![R, 64]⟩ .f32 :=
  addf (mulf o (broadcastTo (⟨2, ![R, 64]⟩ : Shape)
    (rsqrt (maximumf (shapeCast (⟨2, ![R, 1]⟩ : Shape) (multiReduction .add [1] (⟨1, ![R]⟩ : Shape) (mulf o o) 0x00000000#32 hr hφ hacc) hsc)
      (broadcast (⟨2, ![R, 1]⟩ : Shape) (Scalar.ofBits .f32 0x2B8CBCCC#32)))) hb)) x

/-- It is the scaled row plus the residual row, at every entry. -/
theorem kerL2_eq {R : Nat} (hr : (⟨2, ![R, 64]⟩ : Shape).Reduces [1] ⟨1, ![R]⟩) (hφ : FKind.Formats .f32)
    (hacc : (0x00000000#32 : BitVec 32) = FKind.add.neutral .f32 hφ)
    (hsc : (⟨1, ![R]⟩ : Shape).ShapeCasts ⟨2, ![R, 1]⟩) (hb : (⟨2, ![R, 1]⟩ : Shape).Broadcasts ⟨2, ![R, 64]⟩)
    (o x : FVec 𝕀 ⟨2, ![R, 64]⟩ .f32) :
    kerL2 hr hφ hacc hsc hb o x = rowsMap2 (fun orow xrow j => scaleRow orow (sumSq orow) j + xrow j) o x := by
  refine table_ext fun r j => ?_
  rw [rowsMap2_apply]
  unfold kerL2
  rw [addf_apply, mulf_apply]
  -- a one-column table repeated along the lanes reads, at (r, j), its entry (r, 0)
  have hbc : ∀ (v : (⟨2, ![R, 1]⟩ : Shape).Idx → EReal),
      broadcastTo (⟨2, ![R, 64]⟩ : Shape) v hb (ix2 r j) = v (ix2 r (0 : Fin 1)) := by
    intro v
    refine broadcastTo_apply v hb (ix2 r j) (ix2 r (0 : Fin 1)) fun ax => ?_
    match ax with
    | ⟨0, _⟩ =>
      show r.val = if R = 1 then 0 else r.val
      split
      · have := r.isLt; omega
      · rfl
    | ⟨1, _⟩ => rfl
  -- a vector of length R seen as a one-column table reads, at (r, 0), its entry r: the row-major positions agree
  have hcast : ∀ (v : (⟨1, ![R]⟩ : Shape).Idx → EReal),
      shapeCast (⟨2, ![R, 1]⟩ : Shape) v hsc (ix2 r (0 : Fin 1)) = v (ix1 r) := by
    intro v
    refine shapeCast_apply v hsc _ _ ?_
    rw [Shape.rowMajor_val_one, Shape.rowMajor_val_two]
    show r.val = r.val * 1 + 0
    omega
  -- the sum along the lanes of the squares, at row r, is the sum of squares of row r
  have hsum : multiReduction .add [1] (⟨1, ![R]⟩ : Shape) (mulf o o) 0x00000000#32 hr hφ hacc (ix1 r)
      = sumSq (rowOf o r) := by
    rw [Ideal.multiReduction_add_single]
    show ∑ k : Fin 64, mulf o o (hr.lift (ix1 r) k) = ∑ l : Fin 64, o (ix2 r l) * o (ix2 r l)
    refine Finset.sum_congr rfl fun k _ => ?_
    have hk : hr.lift (ix1 r) k = ix2 r k := by
      funext a
      match a with
      | ⟨0, _⟩ => exact Fin.ext rfl
      | ⟨1, _⟩ => exact Fin.ext rfl
    rw [hk, mulf_apply]
  rw [hbc]
  show o (ix2 r j) * FloatOps.rsqrt (max (shapeCast (⟨2, ![R, 1]⟩ : Shape)
      (multiReduction .add [1] (⟨1, ![R]⟩ : Shape) (mulf o o) 0x00000000#32 hr hφ hacc) hsc (ix2 r (0 : Fin 1)))
      (Ideal.ofBits .f32 0x2B8CBCCC#32)) + x (ix2 r j) = _
  rw [hcast, hsum, Ideal.rsqrt_def]
  rfl

end Cert.Gnn

end
-- ==== Proof.Blocks0.lean ====
/-
  Region 0: a feed-forward block applied to a table in blocks of 5000 rows.

  The region sweeps its input table in 10 blocks of 5000 rows; at each block the body loads the block of rows and the whole weights and
  biases, and stores the feed-forward block of those rows. A feed-forward block acts on each row by itself, so what
  block `t` writes back is block `t` of the row function applied to every row of the whole input table; the blocks
  tile the output table, so after the last block the output table IS that function of the input table.
-/
import proofs.«408577_j31361851195877_2_alg».proof.Proof.Gen.KernelIdeal.Frame
import proofs.«408577_j31361851195877_2_alg».proof.Proof.Spec
import proofs.«408577_j31361851195877_2_alg».proof.Proof.RowsKer
import Idealize.ShloMosaic.Lib.Pipeline.Value

set_option maxRecDepth 16384

noncomputable section

namespace Cert.Gnn.K0

open Idealize.ShloMosaic Idealize.ShloMosaic.TcCoe Idealize.ShloMosaic.ValueIdx Idealize.SL.Sem
open Cert.KernelIdeal Cert.KernelIdeal.Gen Cert.Gnn

local notation "𝕀" => Idealize.ShloMosaic.Ideal

variable (V : (c : Dev nD) → (b : Ref sig .tc) → Buf (Elt 𝕀) ((c : Thread nD τ).loc b))

/-! ## The body's arithmetic on one block of rows -/

/-- The offsets of a whole-block access are all zero. -/
private theorem hz : (![0, 0] : Fin 2 → Nat) = fun _ => 0 := funext fun a => by fin_cases a <;> rfl

/-- What the body stores is two dense layers with GELU between them: product plus bias, GELU, product plus bias. -/
private theorem pay_unfold (x0 : Vec 𝕀 S5000x64 .f32) (x1 : Vec 𝕀 S64x64 .f32) (x2 : Vec 𝕀 S1x64 .f32) (x3 : Vec 𝕀 S64x64 .f32)
    (x4 : Vec 𝕀 S1x64 .f32) :
    k0_pay1 x0 x1 x2 x3 x4
      = addf (kerMm bitsLt_bf16_f32
            (kerGelu (addf (kerMm bitsLt_bf16_f32 x0 x1) (kerBias shapeCasts_S1x64_S1x64 broadcasts_S1x64_S5000x64 x2))) x3)
          (kerBias shapeCasts_S1x64_S1x64 broadcasts_S1x64_S5000x64 x4) := rfl

/-- So it is the feed-forward row function, with the loaded weights and biases, on every row of the loaded block. -/
private theorem pay_eq (x0 : Vec 𝕀 S5000x64 .f32) (x1 : Vec 𝕀 S64x64 .f32) (x2 : Vec 𝕀 S1x64 .f32) (x3 : Vec 𝕀 S64x64 .f32)
    (x4 : Vec 𝕀 S1x64 .f32) :
    k0_pay1 x0 x1 x2 x3 x4
      = rowsMap (R := 5000) (C := 64)
          (ffnRow (mat (A := 64) (B := 64) x1) (vecRow (B := 64) x2) (mat (A := 64) (B := 64) x3) (vecRow (B := 64) x4)) x0 := by
  rw [pay_unfold, kerDense_eq, kerDense_eq]
  refine table_ext fun r j => ?_
  rw [rowsMap_apply, rowsMap_apply]
  -- the second layer's input row is GELU of the first layer's output row, entry by entry
  unfold ffnRow
  congr 1

/-! ## Where each window's block sits in its table -/

/-- The block index of every window at every point of the sweep: the row windows (input rows, output rows) are at
    block `t` along the rows and block 0 along the columns; the weight and bias windows stay at block 0. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry `(r, l)` of the block of input rows at point `t` is entry `(5000 t + r, l)` of the input table. -/
private theorem iblk_w0 (c : Dev nD) (t : Fin cfg0.N) (r : Fin 5000) (l : Fin 64) (h : t.val * 5000 + r.val < 50000) :
    (iblk0 V c 0 t : Vec 𝕀 S5000x64 .f32) (ix2 r l) = V c main_arg0 (ix2 ⟨t.val * 5000 + r.val, h⟩ l) := by
  obtain ⟨e0, e1, -⟩ := idx_facts t
  show V c main_arg0 (((cfg0.win 0).blk t).view.emb (ix2 r l)) = V c main_arg0 _
  congr 1
  funext a
  apply Fin.ext
  match a with
  | ⟨0, _⟩ => show win0_0.index t (0 : Fin 2) * 5000 + 1 * r.val = t.val * 5000 + r.val; rw [e0]; omega
  | ⟨1, _⟩ => show win0_0.index t (1 : Fin 2) * 64 + 1 * l.val = l.val; rw [e1]; omega

/-- The block of the first layer's weights is the whole table of them, at every point. -/
private theorem iblk_w1 (c : Dev nD) (t : Fin cfg0.N) : (iblk0 V c 1 t : Vec 𝕀 S64x64 .f32) = V c main_arg4 := by
  obtain ⟨-, -, e0, e1, -⟩ := idx_facts t
  funext y
  show V c main_arg4 (((cfg0.win 1).blk t).view.emb y) = V c main_arg4 y
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The block of the first layer's biases is the whole one-row table of them. -/
private theorem iblk_w2 (c : Dev nD) (t : Fin cfg0.N) : (iblk0 V c 2 t : Vec 𝕀 S1x64 .f32) = V c main_v7 := by
  obtain ⟨-, -, -, -, e0, e1, -⟩ := idx_facts t
  funext y
  show V c main_v7 (((cfg0.win 2).blk t).view.emb y) = V c main_v7 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The block of the second layer's weights is the whole table of them. -/
private theorem iblk_w3 (c : Dev nD) (t : Fin cfg0.N) : (iblk0 V c 3 t : Vec 𝕀 S64x64 .f32) = V c main_arg6 := by
  obtain ⟨-, -, -, -, -, -, e0, e1, -⟩ := idx_facts t
  funext y
  show V c main_arg6 (((cfg0.win 3).blk t).view.emb y) = V c main_arg6 y
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The block of the second layer's biases is the whole one-row table of them. -/
private theorem iblk_w4 (c : Dev nD) (t : Fin cfg0.N) : (iblk0 V c 4 t : Vec 𝕀 S1x64 .f32) = V c main_v8 := by
  obtain ⟨-, -, -, -, -, -, -, -, e0, e1, -⟩ := idx_facts t
  funext y
  show V c main_v8 (((cfg0.win 4).blk t).view.emb y) = V c main_v8 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- Entry `(r, l)` of block `t` of a table shaped like the output is entry `(5000 t + r, l)` of that table. -/
private theorem read_w5 (c : Dev nD) (t : Fin cfg0.N) (T : S50000x64.Idx → EReal) (r : Fin 5000) (l : Fin 64)
    (h : t.val * 5000 + r.val < 50000) :
    (((cfg0.win 5).blk t).view.read (Elt 𝕀) T : Vec 𝕀 S5000x64 .f32) (ix2 r l) = T (ix2 ⟨t.val * 5000 + r.val, h⟩ l) := by
  obtain ⟨-, -, -, -, -, -, -, -, -, -, e0, e1⟩ := idx_facts t
  show T (((cfg0.win 5).blk t).view.emb (ix2 r l)) = T _
  congr 1
  funext a
  apply Fin.ext
  match a with
  | ⟨0, _⟩ => show win0_5.index t (0 : Fin 2) * 5000 + 1 * r.val = t.val * 5000 + r.val; rw [e0]; omega
  | ⟨1, _⟩ => show win0_5.index t (1 : Fin 2) * 64 + 1 * l.val = l.val; rw [e1]; omega

/-! ## What each block writes back, and the table after the last block -/

/-- What point `t` writes back is block `t` of the feed-forward row function applied to every row of the input table:
    row `r` of the stored block is the row function of row `r` of the loaded block, which is row `5000 t + r` of the
    input table, and the weights and biases loaded are the whole tables. -/
private theorem flushed_eq (c : Dev nD) (t : Fin cfg0.N) :
    (dat0 (F := 𝕀) V c).flushed 5 t = ((cfg0.win 5).blk t).view.read (Elt 𝕀)
      (rowsMap (R := 50000) (C := 64)
          (ffnRow (mat (A := 64) (B := 64) (V c main_arg4)) (vecRow (B := 64) (V c main_v7))
            (mat (A := 64) (B := 64) (V c main_arg6)) (vecRow (B := 64) (V c main_v8)))
          (V c main_arg0)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  refine (pay_eq (iblk0 V c 0 t) (iblk0 V c 1 t) (iblk0 V c 2 t) (iblk0 V c 3 t) (iblk0 V c 4 t)).trans ?_
  rw [iblk_w1 V c t, iblk_w2 V c t, iblk_w3 V c t, iblk_w4 V c t]
  refine table_ext fun r l => ?_
  have ht : t.val < 10 := lt_of_lt_of_eq t.isLt N_0
  have h : t.val * 5000 + r.val < 50000 := by have := r.isLt; omega
  rw [read_w5 c t _ r l h, rowsMap_apply, rowsMap_apply]
  -- the same row function on both sides; the two rows agree entry by entry
  congr 1
  funext k
  exact iblk_w0 V c t r k h

/-- An index of the output table is in point `t`'s block iff each coordinate is in the block's range on its axis. -/
private theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v9).slice (win0_5.rect t)).set ↔ _
  rw [View.set_slice_whole, Rect.mem_set_unit]
  exact Iff.rfl

/-- The region's output table after its last block: the feed-forward row function, with the weights and biases the
    region finds, applied to every row of the input table it finds. -/
theorem final (c : Dev nD) :
    (dat0 (F := 𝕀) V c).arrAt 5 cfg0.N
      = rowsMap (R := 50000) (C := 64)
          (ffnRow (mat (A := 64) (B := 64) (V c main_arg4)) (vecRow (B := 64) (V c main_v7))
            (mat (A := 64) (B := 64) (V c main_arg6)) (vecRow (B := 64) (V c main_v8)))
          (V c main_arg0) := by
  -- every point writes back its block of the one function; row `r` of the table lies in block `r / 5000`
  refine (dat0 V c).arrAt_eq_of_cover 5 _ (fun t _ => flushed_eq V c t) fun i => ?_
  have hi0 : (i 0).val < 50000 := (i 0).isLt
  have hi1 : (i 1).val < 64 := (i 1).isLt
  have hN : cfg0.N = 10 := N_0
  have hlt : (i 0).val / 5000 < cfg0.N := by rw [hN]; omega
  refine ⟨⟨(i 0).val / 5000, hlt⟩, flush0_5 _, ?_⟩
  rw [mem_blk]
  obtain ⟨-, -, -, -, -, -, -, -, -, -, e0, e1⟩ := idx_facts ⟨(i 0).val / 5000, hlt⟩
  have e0' : win0_5.index ⟨(i 0).val / 5000, hlt⟩ (0 : Fin 2) = (i 0).val / 5000 := e0
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0']; omega
  | ⟨1, _⟩ =>
    show win0_5.index ⟨(i 0).val / 5000, hlt⟩ (1 : Fin 2) * 64 ≤ (i 1).val
      ∧ (i 1).val < win0_5.index ⟨(i 0).val / 5000, hlt⟩ (1 : Fin 2) * 64 + 64
    rw [e1]; omega

end Cert.Gnn.K0

end
-- ==== Proof.Blocks1.lean ====
/-
  Region 1: a feed-forward block applied to a table in blocks of 5000 rows.

  The region sweeps its input table in 10 blocks of 5000 rows; at each block the body loads the block of rows and the whole weights and
  biases, and stores the feed-forward block of those rows. A feed-forward block acts on each row by itself, so what
  block `t` writes back is block `t` of the row function applied to every row of the whole input table; the blocks
  tile the output table, so after the last block the output table IS that function of the input table.
-/
import proofs.«408577_j31361851195877_2_alg».proof.Proof.Gen.KernelIdeal.Frame
import proofs.«408577_j31361851195877_2_alg».proof.Proof.Spec
import proofs.«408577_j31361851195877_2_alg».proof.Proof.RowsKer
import Idealize.ShloMosaic.Lib.Pipeline.Value

set_option maxRecDepth 16384

noncomputable section

namespace Cert.Gnn.K1

open Idealize.ShloMosaic Idealize.ShloMosaic.TcCoe Idealize.ShloMosaic.ValueIdx Idealize.SL.Sem
open Cert.KernelIdeal Cert.KernelIdeal.Gen Cert.Gnn

local notation "𝕀" => Idealize.ShloMosaic.Ideal

variable (V : (c : Dev nD) → (b : Ref sig .tc) → Buf (Elt 𝕀) ((c : Thread nD τ).loc b))

/-! ## The body's arithmetic on one block of rows -/

/-- The offsets of a whole-block access are all zero. -/
private theorem hz : (![0, 0] : Fin 2 → Nat) = fun _ => 0 := funext fun a => by fin_cases a <;> rfl

/-- What the body stores is two dense layers with GELU between them: product plus bias, GELU, product plus bias
    (the loaded rows first recast to their own shape, which changes nothing). -/
private theorem pay_unfold (x0 : Vec 𝕀 S5000x64 .f32) (x1 : Vec 𝕀 S64x64 .f32) (x2 : Vec 𝕀 S1x64 .f32) (x3 : Vec 𝕀 S64x64 .f32)
    (x4 : Vec 𝕀 S1x64 .f32) :
    k1_pay1 x0 x1 x2 x3 x4
      = addf (kerMm bitsLt_bf16_f32
            (kerGelu (addf (kerMm bitsLt_bf16_f32 (shapeCast S5000x64 x0 shapeCasts_S5000x64_S5000x64) x1) (kerBias shapeCasts_S1x64_S1x64 broadcasts_S1x64_S5000x64 x2))) x3)
          (kerBias shapeCasts_S1x64_S1x64 broadcasts_S1x64_S5000x64 x4) := rfl

/-- So it is the feed-forward row function, with the loaded weights and biases, on every row of the loaded block. -/
private theorem pay_eq (x0 : Vec 𝕀 S5000x64 .f32) (x1 : Vec 𝕀 S64x64 .f32) (x2 : Vec 𝕀 S1x64 .f32) (x3 : Vec 𝕀 S64x64 .f32)
    (x4 : Vec 𝕀 S1x64 .f32) :
    k1_pay1 x0 x1 x2 x3 x4
      = rowsMap (R := 5000) (C := 64)
          (ffnRow (mat (A := 64) (B := 64) x1) (vecRow (B := 64) x2) (mat (A := 64) (B := 64) x3) (vecRow (B := 64) x4)) x0 := by
  rw [pay_unfold, shapeCast_self, kerDense_eq, kerDense_eq]
  refine table_ext fun r j => ?_
  rw [rowsMap_apply, rowsMap_apply]
  -- the second layer's input row is GELU of the first layer's output row, entry by entry
  unfold ffnRow
  congr 1

/-! ## Where each window's block sits in its table -/

/-- The block index of every window at every point of the sweep: the row windows (input rows, output rows) are at
    block `t` along the rows and block 0 along the columns; the weight and bias windows stay at block 0. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry `(r, l)` of the block of input rows at point `t` is entry `(5000 t + r, l)` of the input table. -/
private theorem iblk_w0 (c : Dev nD) (t : Fin cfg1.N) (r : Fin 5000) (l : Fin 64) (h : t.val * 5000 + r.val < 50000) :
    (iblk1 V c 0 t : Vec 𝕀 S5000x64 .f32) (ix2 r l) = V c main_v9 (ix2 ⟨t.val * 5000 + r.val, h⟩ l) := by
  obtain ⟨e0, e1, -⟩ := idx_facts t
  show V c main_v9 (((cfg1.win 0).blk t).view.emb (ix2 r l)) = V c main_v9 _
  congr 1
  funext a
  apply Fin.ext
  match a with
  | ⟨0, _⟩ => show win1_0.index t (0 : Fin 2) * 5000 + 1 * r.val = t.val * 5000 + r.val; rw [e0]; omega
  | ⟨1, _⟩ => show win1_0.index t (1 : Fin 2) * 64 + 1 * l.val = l.val; rw [e1]; omega

/-- The block of the first layer's weights is the whole table of them, at every point. -/
private theorem iblk_w1 (c : Dev nD) (t : Fin cfg1.N) : (iblk1 V c 1 t : Vec 𝕀 S64x64 .f32) = V c main_arg8 := by
  obtain ⟨-, -, e0, e1, -⟩ := idx_facts t
  funext y
  show V c main_arg8 (((cfg1.win 1).blk t).view.emb y) = V c main_arg8 y
  congr 1
  funext a
  apply Fin.ext
  match a with
  | ⟨0, _⟩ => show win1_1.index t (0 : Fin 2) * 64 + 1 * (y 0).val = (y 0).val; rw [e0]; omega
  | ⟨1, _⟩ => show win1_1.index t (1 : Fin 2) * 64 + 1 * (y 1).val = (y 1).val; rw [e1]; omega

/-- The block of the first layer's biases is the whole one-row table of them. -/
private theorem iblk_w2 (c : Dev nD) (t : Fin cfg1.N) : (iblk1 V c 2 t : Vec 𝕀 S1x64 .f32) = V c main_v10 := by
  obtain ⟨-, -, -, -, e0, e1, -⟩ := idx_facts t
  funext y
  show V c main_v10 (((cfg1.win 2).blk t).view.emb y) = V c main_v10 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- The block of the second layer's weights is the whole table of them. -/
private theorem iblk_w3 (c : Dev nD) (t : Fin cfg1.N) : (iblk1 V c 3 t : Vec 𝕀 S64x64 .f32) = V c main_arg10 := by
  obtain ⟨-, -, -, -, -, -, e0, e1, -⟩ := idx_facts t
  funext y
  show V c main_arg10 (((cfg1.win 3).blk t).view.emb y) = V c main_arg10 y
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- The block of the second layer's biases is the whole one-row table of them. -/
private theorem iblk_w4 (c : Dev nD) (t : Fin cfg1.N) : (iblk1 V c 4 t : Vec 𝕀 S1x64 .f32) = V c main_v11 := by
  obtain ⟨-, -, -, -, -, -, -, -, e0, e1, -⟩ := idx_facts t
  funext y
  show V c main_v11 (((cfg1.win 4).blk t).view.emb y) = V c main_v11 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- Entry `(r, l)` of block `t` of a table shaped like the output is entry `(5000 t + r, l)` of that table. -/
private theorem read_w5 (c : Dev nD) (t : Fin cfg1.N) (T : S50000x64.Idx → EReal) (r : Fin 5000) (l : Fin 64)
    (h : t.val * 5000 + r.val < 50000) :
    (((cfg1.win 5).blk t).view.read (Elt 𝕀) T : Vec 𝕀 S5000x64 .f32) (ix2 r l) = T (ix2 ⟨t.val * 5000 + r.val, h⟩ l) := by
  obtain ⟨-, -, -, -, -, -, -, -, -, -, e0, e1⟩ := idx_facts t
  show T (((cfg1.win 5).blk t).view.emb (ix2 r l)) = T _
  congr 1
  funext a
  apply Fin.ext
  match a with
  | ⟨0, _⟩ => show win1_5.index t (0 : Fin 2) * 5000 + 1 * r.val = t.val * 5000 + r.val; rw [e0]; omega
  | ⟨1, _⟩ => show win1_5.index t (1 : Fin 2) * 64 + 1 * l.val = l.val; rw [e1]; omega

/-! ## What each block writes back, and the table after the last block -/

/-- What point `t` writes back is block `t` of the feed-forward row function applied to every row of the input table:
    row `r` of the stored block is the row function of row `r` of the loaded block, which is row `5000 t + r` of the
    input table, and the weights and biases loaded are the whole tables. -/
private theorem flushed_eq (c : Dev nD) (t : Fin cfg1.N) :
    (dat1 (F := 𝕀) V c).flushed 5 t = ((cfg1.win 5).blk t).view.read (Elt 𝕀)
      (rowsMap (R := 50000) (C := 64)
          (ffnRow (mat (A := 64) (B := 64) (V c main_arg8)) (vecRow (B := 64) (V c main_v10))
            (mat (A := 64) (B := 64) (V c main_arg10)) (vecRow (B := 64) (V c main_v11)))
          (V c main_v9)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  refine (pay_eq (iblk1 V c 0 t) (iblk1 V c 1 t) (iblk1 V c 2 t) (iblk1 V c 3 t) (iblk1 V c 4 t)).trans ?_
  rw [iblk_w1 V c t, iblk_w2 V c t, iblk_w3 V c t, iblk_w4 V c t]
  refine table_ext fun r l => ?_
  have ht : t.val < 10 := lt_of_lt_of_eq t.isLt N_1
  have h : t.val * 5000 + r.val < 50000 := by have := r.isLt; omega
  rw [read_w5 c t _ r l h, rowsMap_apply, rowsMap_apply]
  -- the same row function on both sides; the two rows agree entry by entry
  congr 1
  funext k
  exact iblk_w0 V c t r k h

/-- An index of the output table is in point `t`'s block iff each coordinate is in the block's range on its axis. -/
private theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v12).slice (win1_5.rect t)).set ↔ _
  rw [View.set_slice_whole, Rect.mem_set_unit]
  exact Iff.rfl

/-- The region's output table after its last block: the feed-forward row function, with the weights and biases the
    region finds, applied to every row of the input table it finds. -/
theorem final (c : Dev nD) :
    (dat1 (F := 𝕀) V c).arrAt 5 cfg1.N
      = rowsMap (R := 50000) (C := 64)
          (ffnRow (mat (A := 64) (B := 64) (V c main_arg8)) (vecRow (B := 64) (V c main_v10))
            (mat (A := 64) (B := 64) (V c main_arg10)) (vecRow (B := 64) (V c main_v11)))
          (V c main_v9) := by
  -- every point writes back its block of the one function; row `r` of the table lies in block `r / 5000`
  refine (dat1 V c).arrAt_eq_of_cover 5 _ (fun t _ => flushed_eq V c t) fun i => ?_
  have hi0 : (i 0).val < 50000 := (i 0).isLt
  have hi1 : (i 1).val < 64 := (i 1).isLt
  have hN : cfg1.N = 10 := N_1
  have hlt : (i 0).val / 5000 < cfg1.N := by rw [hN]; omega
  refine ⟨⟨(i 0).val / 5000, hlt⟩, flush1_5 _, ?_⟩
  rw [mem_blk]
  obtain ⟨-, -, -, -, -, -, -, -, -, -, e0, e1⟩ := idx_facts ⟨(i 0).val / 5000, hlt⟩
  have e0' : win1_5.index ⟨(i 0).val / 5000, hlt⟩ (0 : Fin 2) = (i 0).val / 5000 := e0
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0']; omega
  | ⟨1, _⟩ =>
    show win1_5.index ⟨(i 0).val / 5000, hlt⟩ (1 : Fin 2) * 64 ≤ (i 1).val
      ∧ (i 1).val < win1_5.index ⟨(i 0).val / 5000, hlt⟩ (1 : Fin 2) * 64 + 64
    rw [e1]; omega

end Cert.Gnn.K1

end
-- ==== Proof.Blocks2.lean ====
/-
  Region 2: the update block of a graph convolution applied to the node table in 10 blocks of 5000 rows.

  At each block the body loads the block of node rows, the block of aggregated-message rows, the two halves of the
  first layer's weights, the second layer's weights and the two bias rows, and stores the update block of those rows:
  the feed-forward block on the node row and the message row side by side, scaled to unit length, plus the node row.
  The update block acts on each pair of rows by itself, so what block `t` writes back is block `t` of the row function
  applied to every pair of rows of the two whole tables; the blocks tile the output table.
-/
import proofs.«408577_j31361851195877_2_alg».proof.Proof.Gen.KernelIdeal.Frame
import proofs.«408577_j31361851195877_2_alg».proof.Proof.Spec
import proofs.«408577_j31361851195877_2_alg».proof.Proof.RowsKer
import Idealize.ShloMosaic.Lib.Pipeline.Value

set_option maxRecDepth 16384

noncomputable section

namespace Cert.Gnn.K2

open Idealize.ShloMosaic Idealize.ShloMosaic.TcCoe Idealize.ShloMosaic.ValueIdx Idealize.SL.Sem
open Cert.KernelIdeal Cert.KernelIdeal.Gen Cert.Gnn

local notation "𝕀" => Idealize.ShloMosaic.Ideal

variable (V : (c : Dev nD) → (b : Ref sig .tc) → Buf (Elt 𝕀) ((c : Thread nD τ).loc b))

/-- The zero offsets of a whole-block access. -/
private theorem hz : (![0, 0] : Fin 2 → Nat) = fun _ => 0 := funext fun a => by fin_cases a <;> rfl

/-! ## The body on one block

The stored value, as a term of the seven loaded blocks, is the normalisation with residual of the second dense layer of
GELU of the first layer, the first layer being the sum of two products (node rows by the upper half of the weights,
message rows by the lower half) plus the bias. The loaded row blocks and weight halves pass through casts between
equal shapes, which are identities. -/

/-- The stored value is the kernel's layers composed, the casts between equal shapes still in place. -/
private theorem pay_cast (x0 x1 : Vec 𝕀 S5000x64 .f32) (x2 x3 : Vec 𝕀 S64x64 .f32) (x4 : Vec 𝕀 S1x64 .f32)
    (x5 : Vec 𝕀 S64x64 .f32) (x6 : Vec 𝕀 S1x64 .f32) :
    k2_pay1 (F := 𝕀) (k2_pay2 x0) (k2_pay3 x0 x1 x2 x3 x4 x5) (k2_pay4 x6)
      = kerL2 (R := 5000) reduces_S5000x64_S5000 (.inl rfl) rfl shapeCasts_S5000_S5000x1 broadcasts_S5000x1_S5000x64
          (addf (kerMm bitsLt_bf16_f32
            (kerGelu (addf (addf (kerMm bitsLt_bf16_f32 (shapeCast S5000x64 x0 shapeCasts_S5000x64_S5000x64) (shapeCast S64x64 x2 shapeCasts_S64x64_S64x64))
                                (kerMm bitsLt_bf16_f32 (shapeCast S5000x64 x1 shapeCasts_S5000x64_S5000x64) (shapeCast S64x64 x3 shapeCasts_S64x64_S64x64)))
                          (kerBias shapeCasts_S1x64_S1x64 broadcasts_S1x64_S5000x64 x4))) x5)
            (kerBias shapeCasts_S1x64_S1x64 broadcasts_S1x64_S5000x64 x6))
          (shapeCast S5000x64 x0 shapeCasts_S5000x64_S5000x64) := rfl

/-- At entry `(r, j)` the stored value is the update row function of row `r` of the node block and row `r` of the
    message block, the two weight halves being the upper and lower 64 rows of one `[128, 64]` matrix `W`. -/
private theorem pay_apply (W : (⟨2, ![128, 64]⟩ : Shape).Idx → EReal)
    (x0 x1 : Vec 𝕀 S5000x64 .f32) (x2 x3 : Vec 𝕀 S64x64 .f32) (x4 : Vec 𝕀 S1x64 .f32)
    (x5 : Vec 𝕀 S64x64 .f32) (x6 : Vec 𝕀 S1x64 .f32)
    (ha : ∀ (k j : Fin 64), x2 (ix2 k j) = W (ix2 (Fin.castAdd 64 k) j))
    (hb : ∀ (k j : Fin 64), x3 (ix2 k j) = W (ix2 (Fin.natAdd 64 k) j)) (r : Fin 5000) (j : Fin 64) :
    k2_pay1 (F := 𝕀) (k2_pay2 x0) (k2_pay3 x0 x1 x2 x3 x4 x5) (k2_pay4 x6) (ix2 r j)
      = updRow (mat (A := 128) (B := 64) W) (vecRow (B := 64) x4) (mat (A := 64) (B := 64) x5) (vecRow (B := 64) x6)
          (rowOf (R := 5000) (C := 64) x0 r) (rowOf (R := 5000) (C := 64) x1 r) j := by
  rw [pay_cast]
  -- a cast between equal shapes is the identity
  simp only [shapeCast_self]
  -- the normalisation with residual acts row by row; the second layer is the dense row function on every row
  refine (congrFun (kerL2_eq (R := 5000) _ _ _ _ _ _ _) (ix2 r j)).trans ?_
  rw [rowsMap2_apply, kerDense_eq]
  -- row r of the second layer's output is the feed-forward block on the node row and the message row side by side
  have hrow : rowOf (R := 5000) (C := 64) (rowsMap (dense (mat (A := 64) (B := 64) x5) (vecRow (B := 64) x6))
        (kerGelu (addf (addf (kerMm bitsLt_bf16_f32 x0 x2) (kerMm bitsLt_bf16_f32 x1 x3))
          (kerBias shapeCasts_S1x64_S1x64 broadcasts_S1x64_S5000x64 x4)))) r
      = ffnRow (mat (A := 128) (B := 64) W) (vecRow (B := 64) x4) (mat (A := 64) (B := 64) x5) (vecRow (B := 64) x6)
          (Fin.append (rowOf (R := 5000) (C := 64) x0 r) (rowOf (R := 5000) (C := 64) x1 r)) := by
    show dense (mat (A := 64) (B := 64) x5) (vecRow (B := 64) x6) (rowOf (R := 5000) (C := 64) (kerGelu _) r) = dense _ _ _
    congr 1
    funext k
    show kerGelu _ (ix2 r k) = _
    rw [kerGelu_apply, kerDense2_eq bitsLt_bf16_f32 shapeCasts_S1x64_S1x64 broadcasts_S1x64_S5000x64 x0 x1 x2 x3 W x4 ha hb r k]
  rw [hrow]
  rfl

/-! ## The blocks the windows read

The index maps, over the 10 points of the grid: the node window, the message window and the output window are at the
same block of rows (block index `(p, 0)` at point `p`, at most 9); the weight and bias windows stay at block `(0, 0)`,
which is their whole array. A block's entry `(r, k)` is the array's entry (block index × block size + `(r, k)`). -/

/-- The printed index maps, decided over the grid. -/
private theorem idx_facts : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) ≤ 9 ∧ win2_7.index t (1 : Fin 2) = 0 :=
  (by decide +kernel : ∀ t : Fin grid2.N, _)

/-- Every one of the 10 blocks of rows is some point's output block. -/
private theorem idx_onto : ∀ q : Fin 10, ∃ t : Fin cfg2.N, win2_7.index t (0 : Fin 2) = q.val :=
  (by decide +kernel : ∀ q : Fin 10, ∃ t : Fin grid2.N, win2_7.index t (0 : Fin 2) = q.val)

/-- Entry `(r, k)` of the node block at point `t` is entry `(5000 p + r, k)` of the node table, `p` the output's block
    of rows at `t`. -/
private theorem blk_node_apply (c : Dev nD) (t : Fin cfg2.N) (r : Fin 5000) (k : Fin 64) (R' : Fin 50000)
    (hR : R'.val = win2_7.index t (0 : Fin 2) * 5000 + r.val) :
    (iblk2 V c 0 t : Vec 𝕀 S5000x64 .f32) (ix2 r k) = (V c main_v9 : S50000x64.Idx → EReal) (ix2 R' k) := by
  obtain ⟨e0, e1, -⟩ := idx_facts t
  unfold iblk2
  rw [View.read_apply]
  show V c main_v9 _ = V c main_v9 _
  congr 1
  funext a
  apply Fin.ext
  match a with
  | ⟨0, _⟩ => show win2_0.index t (0 : Fin 2) * 5000 + 1 * r.val = R'.val; omega
  | ⟨1, _⟩ => show win2_0.index t (1 : Fin 2) * 64 + 1 * k.val = k.val; omega

/-- Entry `(r, k)` of the message block at point `t` is entry `(5000 p + r, k)` of the message table. -/
private theorem blk_msg_apply (c : Dev nD) (t : Fin cfg2.N) (r : Fin 5000) (k : Fin 64) (R' : Fin 50000)
    (hR : R'.val = win2_7.index t (0 : Fin 2) * 5000 + r.val) :
    (iblk2 V c 1 t : Vec 𝕀 S5000x64 .f32) (ix2 r k) = (V c main_v19 : S50000x64.Idx → EReal) (ix2 R' k) := by
  obtain ⟨-, -, e0, e1, -⟩ := idx_facts t
  unfold iblk2
  rw [View.read_apply]
  show V c main_v19 _ = V c main_v19 _
  congr 1
  funext a
  apply Fin.ext
  match a with
  | ⟨0, _⟩ => show win2_1.index t (0 : Fin 2) * 5000 + 1 * r.val = R'.val; omega
  | ⟨1, _⟩ => show win2_1.index t (1 : Fin 2) * 64 + 1 * k.val = k.val; omega

/-- The block of the upper half of the first weights is the whole array, at every point. -/
private theorem blk_wa_eq (c : Dev nD) (t : Fin cfg2.N) :
    (iblk2 V c 2 t : Vec 𝕀 S64x64 .f32) = (V c main_v20 : S64x64.Idx → EReal) := by
  obtain ⟨-, -, -, -, e0, e1, -⟩ := idx_facts t
  funext i
  unfold iblk2
  rw [View.read_apply]
  show V c main_v20 _ = V c main_v20 _
  congr 1
  funext a
  apply Fin.ext
  match a with
  | ⟨0, _⟩ => show win2_2.index t (0 : Fin 2) * 64 + 1 * (i 0).val = (i 0).val; omega
  | ⟨1, _⟩ => show win2_2.index t (1 : Fin 2) * 64 + 1 * (i 1).val = (i 1).val; omega

/-- The block of the lower half of the first weights is the whole array, at every point. -/
private theorem blk_wb_eq (c : Dev nD) (t : Fin cfg2.N) :
    (iblk2 V c 3 t : Vec 𝕀 S64x64 .f32) = (V c main_v21 : S64x64.Idx → EReal) := by
  obtain ⟨-, -, -, -, -, -, e0, e1, -⟩ := idx_facts t
  funext i
  unfold iblk2
  rw [View.read_apply]
  show V c main_v21 _ = V c main_v21 _
  congr 1
  funext a
  apply Fin.ext
  match a with
  | ⟨0, _⟩ => show win2_3.index t (0 : Fin 2) * 64 + 1 * (i 0).val = (i 0).val; omega
  | ⟨1, _⟩ => show win2_3.index t (1 : Fin 2) * 64 + 1 * (i 1).val = (i 1).val; omega

/-- The block of the first bias row is the whole array, at every point. -/
private theorem blk_b1_eq (c : Dev nD) (t : Fin cfg2.N) :
    (iblk2 V c 4 t : Vec 𝕀 S1x64 .f32) = (V c main_v22 : S1x64.Idx → EReal) := by
  obtain ⟨-, -, -, -, -, -, -, -, e0, e1, -⟩ := idx_facts t
  funext i
  unfold iblk2
  rw [View.read_apply]
  show V c main_v22 _ = V c main_v22 _
  congr 1
  funext a
  apply Fin.ext
  match a with
  | ⟨0, _⟩ => show win2_4.index t (0 : Fin 2) * 1 + 1 * (i 0).val = (i 0).val; omega
  | ⟨1, _⟩ => show win2_4.index t (1 : Fin 2) * 64 + 1 * (i 1).val = (i 1).val; omega

/-- The block of the second weights is the whole array, at every point. -/
private theorem blk_w2_eq (c : Dev nD) (t : Fin cfg2.N) :
    (iblk2 V c 5 t : Vec 𝕀 S64x64 .f32) = (V c main_arg14 : S64x64.Idx → EReal) := by
  obtain ⟨-, -, -, -, -, -, -, -, -, -, e0, e1, -⟩ := idx_facts t
  funext i
  unfold iblk2
  rw [View.read_apply]
  show V c main_arg14 _ = V c main_arg14 _
  congr 1
  funext a
  apply Fin.ext
  match a with
  | ⟨0, _⟩ => show win2_5.index t (0 : Fin 2) * 64 + 1 * (i 0).val = (i 0).val; omega
  | ⟨1, _⟩ => show win2_5.index t (1 : Fin 2) * 64 + 1 * (i 1).val = (i 1).val; omega

/-- The block of the second bias row is the whole array, at every point. -/
private theorem blk_b2_eq (c : Dev nD) (t : Fin cfg2.N) :
    (iblk2 V c 6 t : Vec 𝕀 S1x64 .f32) = (V c main_v23 : S1x64.Idx → EReal) := by
  obtain ⟨-, -, -, -, -, -, -, -, -, -, -, -, e0, e1, -⟩ := idx_facts t
  funext i
  unfold iblk2
  rw [View.read_apply]
  show V c main_v23 _ = V c main_v23 _
  congr 1
  funext a
  apply Fin.ext
  match a with
  | ⟨0, _⟩ => show win2_6.index t (0 : Fin 2) * 1 + 1 * (i 0).val = (i 0).val; omega
  | ⟨1, _⟩ => show win2_6.index t (1 : Fin 2) * 64 + 1 * (i 1).val = (i 1).val; omega

/-! ## What each point writes back, and the cover -/

/-- What point `t` writes back is block `t` of the update row function applied to every pair of rows of the two whole
    tables: entry `(r, j)` of the stored block is the row function of rows `r` of the two loaded blocks, which are rows
    `5000 p + r` of the tables, and `(5000 p + r, j)` is where the output block puts its entry `(r, j)`. -/
private theorem flushed_eq (c : Dev nD) (W : (⟨2, ![128, 64]⟩ : Shape).Idx → EReal)
    (ha : ∀ (k j : Fin 64), (V c main_v20 : (⟨2, ![64, 64]⟩ : Shape).Idx → EReal) (ix2 k j) = W (ix2 (Fin.castAdd 64 k) j))
    (hb : ∀ (k j : Fin 64), (V c main_v21 : (⟨2, ![64, 64]⟩ : Shape).Idx → EReal) (ix2 k j) = W (ix2 (Fin.natAdd 64 k) j))
    (t : Fin cfg2.N) :
    (dat2 (F := 𝕀) V c).flushed 7 t
      = ((cfg2.win 7).blk t).view.read (Elt 𝕀)
          (rowsMap2 (R := 50000)
            (updRow (mat (A := 128) (B := 64) W) (vecRow (B := 64) (V c main_v22))
              (mat (A := 64) (B := 64) (V c main_arg14)) (vecRow (B := 64) (V c main_v23)))
            (V c main_v9) (V c main_v19)) := by
  show (cfg2.win 7).cut (grid2.coords t) ((dat2 V c).after 7 t) = _
  rw [after2_7]
  unfold out2_7
  -- the one store covers the block; each load reads its whole block
  rw [View.canon_unit_zero hz]
  simp only [View.ld_unit_zero (S := S5000x64) hz, View.ld_unit_zero (S := S64x64) hz, View.ld_unit_zero (S := S1x64) hz]
  refine Cert.Gnn.table_ext (R := 5000) (C := 64) fun r j => ?_
  rw [View.read_apply]
  obtain ⟨-, -, -, -, -, -, -, -, -, -, -, -, -, -, e0, e1⟩ := idx_facts t
  have ha' : ∀ (k j : Fin 64), (iblk2 V c 2 t : Vec 𝕀 S64x64 .f32) (ix2 k j) = W (ix2 (Fin.castAdd 64 k) j) :=
    fun k j => by rw [blk_wa_eq]; exact ha k j
  have hb' : ∀ (k j : Fin 64), (iblk2 V c 3 t : Vec 𝕀 S64x64 .f32) (ix2 k j) = W (ix2 (Fin.natAdd 64 k) j) :=
    fun k j => by rw [blk_wb_eq]; exact hb k j
  refine (pay_apply W (iblk2 V c 0 t) (iblk2 V c 1 t) (iblk2 V c 2 t) (iblk2 V c 3 t) (iblk2 V c 4 t) (iblk2 V c 5 t)
    (iblk2 V c 6 t) ha' hb' r j).trans ?_
  -- the row of the tables under row r of the block
  have hlt : win2_7.index t (0 : Fin 2) * 5000 + r.val < 50000 := by have := r.isLt; omega
  have hemb : ((cfg2.win 7).blk t).view.emb (ix2 r j)
      = (ix2 (⟨win2_7.index t (0 : Fin 2) * 5000 + r.val, hlt⟩ : Fin 50000) j : S50000x64.Idx) := by
    funext a
    apply Fin.ext
    match a with
    | ⟨0, _⟩ => show win2_7.index t (0 : Fin 2) * 5000 + 1 * r.val = win2_7.index t (0 : Fin 2) * 5000 + r.val; omega
    | ⟨1, _⟩ => show win2_7.index t (1 : Fin 2) * 64 + 1 * j.val = j.val; omega
  have hx : rowOf (R := 5000) (C := 64) (iblk2 V c 0 t) r
      = rowOf (R := 50000) (C := 64) (V c main_v9) ⟨win2_7.index t (0 : Fin 2) * 5000 + r.val, hlt⟩ :=
    funext fun k => blk_node_apply V c t r k _ rfl
  have hy : rowOf (R := 5000) (C := 64) (iblk2 V c 1 t) r
      = rowOf (R := 50000) (C := 64) (V c main_v19) ⟨win2_7.index t (0 : Fin 2) * 5000 + r.val, hlt⟩ :=
    funext fun k => blk_msg_apply V c t r k _ rfl
  rw [hemb, rowsMap2_apply, hx, hy, blk_b1_eq, blk_w2_eq, blk_b2_eq]
  rfl

/-- An index of the output table is in point `t`'s block iff each coordinate is in the block's range on its axis. -/
private theorem mem_blk (t : Fin cfg2.N) (i : S50000x64.Idx) :
    i ∈ ((cfg2.win 7).blk t).view.set
      ↔ ∀ a : Fin 2, win2_7.index t a * S5000x64.size a ≤ (i a).val
          ∧ (i a).val < win2_7.index t a * S5000x64.size a + S5000x64.size a := by
  show i ∈ ((View.whole main_v24).slice (win2_7.rect t)).set ↔ _
  rw [View.set_slice_whole, Rect.mem_set_unit]
  exact Iff.rfl

/-- The blocks tile the output table: row `r` lies in block `r / 5000`. -/
private theorem cover (i : S50000x64.Idx) :
    ∃ t : Fin cfg2.N, (cfg2.win 7).flush t = true ∧ i ∈ ((cfg2.win 7).blk t).view.set := by
  have hi0 : (i 0).val < 50000 := (i 0).isLt
  have hi1 : (i 1).val < 64 := (i 1).isLt
  obtain ⟨t, ht⟩ := idx_onto ⟨(i 0).val / 5000, by omega⟩
  have q0 : win2_7.index t (0 : Fin 2) = (i 0).val / 5000 := ht
  obtain ⟨-, -, -, -, -, -, -, -, -, -, -, -, -, -, e0, e1⟩ := idx_facts t
  refine ⟨t, flush2_7 t, ?_⟩
  rw [mem_blk]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 64 ≤ (i 1).val ∧ (i 1).val < win2_7.index t (1 : Fin 2) * 64 + 64
    omega

/-- The region's output table after its last block: the update row function, with the weights and biases the region
    finds (the two halves of the first layer's weights being the upper and the lower 64 rows of one `[128, 64]` matrix
    `W`), applied to every pair of rows of the node table and the message table it finds. -/
theorem final (c : Dev nD) (W : (⟨2, ![128, 64]⟩ : Shape).Idx → EReal)
    (ha : ∀ (k j : Fin 64), (V c main_v20 : (⟨2, ![64, 64]⟩ : Shape).Idx → EReal) (ix2 k j) = W (ix2 (Fin.castAdd 64 k) j))
    (hb : ∀ (k j : Fin 64), (V c main_v21 : (⟨2, ![64, 64]⟩ : Shape).Idx → EReal) (ix2 k j) = W (ix2 (Fin.natAdd 64 k) j)) :
    (dat2 (F := 𝕀) V c).arrAt 7 cfg2.N
      = rowsMap2 (R := 50000)
          (updRow (mat (A := 128) (B := 64) W) (vecRow (B := 64) (V c main_v22))
            (mat (A := 64) (B := 64) (V c main_arg14)) (vecRow (B := 64) (V c main_v23)))
          (V c main_v9) (V c main_v19) :=
  -- every point writes back its block of one whole-table function, and the blocks cover the table
  (dat2 (F := 𝕀) V c).arrAt_eq_of_cover 7 _ (fun t _ => flushed_eq V c W ha hb t) cover

end Cert.Gnn.K2

end
-- ==== Proof.KernelValue1.lean ====
/-
  The kernel program's tables up to the end of the first graph convolution.

  The program's run is a fold of buffer contents through its segments: a stretch of host operations changes the
  buffers it writes and no other; a region changes its output table and no other. Followed from the launch, the
  buffers hold: after the first stretch the edge weights over their sum, the two rows of the edge list and two bias
  rows; after region 0 the node table through the first feed-forward block; after region 1 the message block's table;
  then the masked gather of the neighbours' rows, the messages scaled and added up at the target nodes, the two halves
  of the update block's first weights; and after region 2 the node table after the first convolution.
-/
import proofs.«408577_j31361851195877_2_alg».proof.Proof.Gen.KernelIdeal.Frame
import proofs.«408577_j31361851195877_2_alg».proof.Proof.NetSpec
import proofs.«408577_j31361851195877_2_alg».proof.Proof.Blocks0
import proofs.«408577_j31361851195877_2_alg».proof.Proof.Blocks1
import proofs.«408577_j31361851195877_2_alg».proof.Proof.Blocks2
import Idealize.ShloMosaic.Lib.StableHlo.Run
import Idealize.ShloMosaic.Lib.ValueLayout

set_option maxRecDepth 16384

noncomputable section

namespace Cert.Gnn.KV

open Idealize.ShloMosaic Idealize.ShloMosaic.TcCoe Idealize.ShloMosaic.ValueIdx Idealize.SL.Sem
open Cert.KernelIdeal Cert.KernelIdeal.Gen Cert.Gnn

local notation "𝕀" => Idealize.ShloMosaic.Ideal

variable (m : (ℓ : Loc nD τ sig) → Buf (Elt 𝕀) ℓ) (ρ : Dev nD → PrngReg)

/-- The argument arrays of core `c` at launch. -/
def kArgs (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29)⟩

/-! ## What each stretch of host operations writes -/

/-- The buffers the four stretches before region 2 write, in order. -/
private abbrev wr0 : List (Ref sig .tc) :=
  [main_cst, main_v0, main_v1, main_v2, main_v3, main_v4, main_v5, main_v6, main_v7, main_v8]
private abbrev wr1 : List (Ref sig .tc) := [main_v10, main_v11]
private abbrev wr2 : List (Ref sig .tc) :=
  [main_call0_c, main_call0_v0, main_call0_v1, main_call0_c_0, main_call0_v2, main_call0_v3, main_call0_v4, main_call0_v5,
    main_call0_c_1, main_call0_c_2, main_call0_v6, main_call0_v7, main_call0_v8, main_call0_v9, main_call0_v10, main_call0_v11,
    main_call0_c_3, main_call0_v12, main_call0_v13, main_call0_v14, main_call0_cst, main_call0_v15, main_v13]
private abbrev wr21 : List (Ref sig .tc) :=
  [main_v14, main_v15, main_v16, main_cst_0, main_v17, main_v18, main_v19, main_v20, main_v21, main_v22, main_v23]

private theorem wr0_writes : (hostOps0 : List (HloOp τ sig (Elt 𝕀))).Forall fun op =>
    op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
private theorem wr1_writes : (hostOps1 : List (HloOp τ sig (Elt 𝕀))).Forall fun op =>
    op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
private theorem wr2_writes : (hostOps2 : List (HloOp τ sig (Elt 𝕀))).Forall fun op =>
    op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
private theorem wr21_writes : (hostOps2_1 : List (HloOp τ sig (Elt 𝕀))).Forall fun op =>
    op.writes ⊆ (wr21.map (Proc.devRef (τ := τ) .tc)).toFinset := by
  simp only [hostOps2_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer a stretch does not write is, after the stretch, what it was before. -/
private theorem keep0 (V : Valuation τ sig (Elt 𝕀)) (r : Ref sig .tc) (h : r ∉ wr0) :
    StableHlo.after hostOps0 V (Proc.devRef .tc r) = V (Proc.devRef .tc r) :=
  StableHlo.after_of_writes_sub hostOps0 V wr0_writes h
private theorem keep1 (V : Valuation τ sig (Elt 𝕀)) (r : Ref sig .tc) (h : r ∉ wr1) :
    StableHlo.after hostOps1 V (Proc.devRef .tc r) = V (Proc.devRef .tc r) :=
  StableHlo.after_of_writes_sub hostOps1 V wr1_writes h
private theorem keep2 (V : Valuation τ sig (Elt 𝕀)) (r : Ref sig .tc) (h : r ∉ wr2) :
    StableHlo.after hostOps2 V (Proc.devRef .tc r) = V (Proc.devRef .tc r) :=
  StableHlo.after_of_writes_sub hostOps2 V wr2_writes h
private theorem keep21 (V : Valuation τ sig (Elt 𝕀)) (r : Ref sig .tc) (h : r ∉ wr21) :
    StableHlo.after hostOps2_1 V (Proc.devRef .tc r) = V (Proc.devRef .tc r) :=
  StableHlo.after_of_writes_sub hostOps2_1 V wr21_writes h

/-! ## A buffer followed back through the segments -/

/-- A buffer that no stretch after the first writes and that is no window array of regions 0, 1, 2 holds, at the
    boundary after region 2, what it held after the first stretch. -/
private theorem W7_eq_W1 (c : Dev nD) (b : Ref sig .tc) (h1 : b ∉ wr1) (h2 : b ∉ wr2) (h21 : b ∉ wr21)
    (r0 : ∀ w, Pipeline.arrRef spec0 w ≠ b) (r1 : ∀ w, Pipeline.arrRef spec1 w ≠ b) (r2 : ∀ w, Pipeline.arrRef spec2 w ≠ b) :
    W7 (F := 𝕀) m ρ c (Proc.devRef .tc b) = W1 (F := 𝕀) m ρ c (Proc.devRef .tc b) :=
  (W7_of_ne m ρ c b r2).trans ((keep21 _ b h21).trans ((keep2 _ b h2).trans
    ((W4_of_ne m ρ c b r1).trans ((keep1 _ b h1).trans (W2_of_ne m ρ c b r0)))))

/-- The same, to the boundaries after region 1 and after the gather's stretch. -/
private theorem W4_eq_W1 (c : Dev nD) (b : Ref sig .tc) (h1 : b ∉ wr1)
    (r0 : ∀ w, Pipeline.arrRef spec0 w ≠ b) (r1 : ∀ w, Pipeline.arrRef spec1 w ≠ b) :
    W4 (F := 𝕀) m ρ c (Proc.devRef .tc b) = W1 (F := 𝕀) m ρ c (Proc.devRef .tc b) :=
  (W4_of_ne m ρ c b r1).trans ((keep1 _ b h1).trans (W2_of_ne m ρ c b r0))
private theorem W5_eq_W1 (c : Dev nD) (b : Ref sig .tc) (h1 : b ∉ wr1) (h2 : b ∉ wr2)
    (r0 : ∀ w, Pipeline.arrRef spec0 w ≠ b) (r1 : ∀ w, Pipeline.arrRef spec1 w ≠ b) :
    W5 (F := 𝕀) m ρ c (Proc.devRef .tc b) = W1 (F := 𝕀) m ρ c (Proc.devRef .tc b) :=
  (keep2 _ b h2).trans (W4_eq_W1 m ρ c b h1 r0 r1)

/-- An argument that nothing up to a boundary writes is there as launched. -/
private theorem W2_eq_W0 (c : Dev nD) (b : Ref sig .tc) (h0 : b ∉ wr0) (r0 : ∀ w, Pipeline.arrRef spec0 w ≠ b) :
    W2 (F := 𝕀) m ρ c (Proc.devRef .tc b) = W0 (F := 𝕀) m ρ c (Proc.devRef .tc b) :=
  (W2_of_ne m ρ c b r0).trans (keep0 _ b h0)
private theorem W3_eq_W0 (c : Dev nD) (b : Ref sig .tc) (h0 : b ∉ wr0) (h1 : b ∉ wr1) (r0 : ∀ w, Pipeline.arrRef spec0 w ≠ b) :
    W3 (F := 𝕀) m ρ c (Proc.devRef .tc b) = W0 (F := 𝕀) m ρ c (Proc.devRef .tc b) :=
  (keep1 _ b h1).trans (W2_eq_W0 m ρ c b h0 r0)
private theorem W5_eq_W0 (c : Dev nD) (b : Ref sig .tc) (h0 : b ∉ wr0) (h1 : b ∉ wr1) (h2 : b ∉ wr2)
    (r0 : ∀ w, Pipeline.arrRef spec0 w ≠ b) (r1 : ∀ w, Pipeline.arrRef spec1 w ≠ b) :
    W5 (F := 𝕀) m ρ c (Proc.devRef .tc b) = W0 (F := 𝕀) m ρ c (Proc.devRef .tc b) :=
  (W5_eq_W1 m ρ c b h1 h2 r0 r1).trans (keep0 _ b h0)
private theorem W6_eq_W0 (c : Dev nD) (b : Ref sig .tc) (h0 : b ∉ wr0) (h1 : b ∉ wr1) (h2 : b ∉ wr2) (h21 : b ∉ wr21)
    (r0 : ∀ w, Pipeline.arrRef spec0 w ≠ b) (r1 : ∀ w, Pipeline.arrRef spec1 w ≠ b) :
    W6 (F := 𝕀) m ρ c (Proc.devRef .tc b) = W0 (F := 𝕀) m ρ c (Proc.devRef .tc b) :=
  (keep21 _ b h21).trans (W5_eq_W0 m ρ c b h0 h1 h2 r0 r1)

/-- The arguments the second half of the program still reads are, at the boundary after region 2, as launched. -/
theorem W7_args (c : Dev nD) :
    ∀ b ∈ ([main_arg3, main_arg16, main_arg17, main_arg18, main_arg19, main_arg20, main_arg21, main_arg22, main_arg23,
        main_arg24, main_arg25, main_arg26, main_arg27, main_arg28, main_arg29] : List (Ref sig .tc)),
      W7 (F := 𝕀) m ρ c (Proc.devRef .tc b) = W0 (F := 𝕀) m ρ c (Proc.devRef .tc b) := by
  intro b hb
  -- None of these is written by a stretch or is a window array of a region before that boundary.
  have key : b ∉ wr0 ∧ b ∉ wr1 ∧ b ∉ wr2 ∧ b ∉ wr21 ∧ (∀ w, Pipeline.arrRef spec0 w ≠ b)
      ∧ (∀ w, Pipeline.arrRef spec1 w ≠ b) ∧ (∀ w, Pipeline.arrRef spec2 w ≠ b) := by
    revert b; decide
  obtain ⟨k0, k1, k2, k21, r0, r1, r2⟩ := key
  exact (W7_eq_W1 m ρ c b k1 k2 k21 r0 r1 r2).trans (keep0 _ b k0)

/-! ## What the first stretch computes -/

private theorem W1_v2 (c : Dev nD) : W1 (F := 𝕀) m ρ c (Proc.devRef .tc main_v2) = K.ew (kArgs m c) := by
  show StableHlo.after hostOps0 (W0 (F := 𝕀) m ρ c) (Proc.devRef .tc main_v2) = _
  after_results
  rfl
private theorem W1_v4 (c : Dev nD) : W1 (F := 𝕀) m ρ c (Proc.devRef .tc main_v4) = K.node (kArgs m c) := by
  show StableHlo.after hostOps0 (W0 (F := 𝕀) m ρ c) (Proc.devRef .tc main_v4) = _
  after_results
  rfl
private theorem W1_v6 (c : Dev nD) : W1 (F := 𝕀) m ρ c (Proc.devRef .tc main_v6) = K.nbr (kArgs m c) := by
  show StableHlo.after hostOps0 (W0 (F := 𝕀) m ρ c) (Proc.devRef .tc main_v6) = _
  after_results
  rfl

/-- At that boundary: the edge weights over their sum, the two rows of the edge list, … -/
theorem W7_ew (c : Dev nD) : W7 (F := 𝕀) m ρ c (Proc.devRef .tc main_v2) = K.ew (kArgs m c) :=
  (W7_eq_W1 m ρ c main_v2 (by decide) (by decide) (by decide) (by decide) (by decide) (by decide)).trans (W1_v2 m ρ c)
theorem W7_node (c : Dev nD) : W7 (F := 𝕀) m ρ c (Proc.devRef .tc main_v4) = K.node (kArgs m c) :=
  (W7_eq_W1 m ρ c main_v4 (by decide) (by decide) (by decide) (by decide) (by decide) (by decide)).trans (W1_v4 m ρ c)
theorem W7_nbr (c : Dev nD) : W7 (F := 𝕀) m ρ c (Proc.devRef .tc main_v6) = K.nbr (kArgs m c) :=
  (W7_eq_W1 m ρ c main_v6 (by decide) (by decide) (by decide) (by decide) (by decide) (by decide)).trans (W1_v6 m ρ c)

/-! ## The node table through region 0, the message table through region 1 -/

/-- A bias vector reshaped to a one-row table reads, as a row, as the vector. -/
private theorem vecRow_shapeCast {B : Nat} (b : (⟨1, ![B]⟩ : Shape).Idx → EReal)
    (h : (⟨1, ![B]⟩ : Shape).ShapeCasts ⟨2, ![1, B]⟩) : vecRow (shapeCast ⟨2, ![1, B]⟩ b h) = vec1 b := by
  funext j
  exact shapeCast_a_1a_apply b h 0 j

private theorem W1_v7 (c : Dev nD) : vecRow (B := 64) (W1 (F := 𝕀) m ρ c (Proc.devRef .tc main_v7)) = vec1 (kArgs m c).a5 := by
  have e : W1 (F := 𝕀) m ρ c (Proc.devRef .tc main_v7) = shapeCast S1x64 (kArgs m c).a5 shapeCasts_S64_S1x64 := by
    show StableHlo.after hostOps0 (W0 (F := 𝕀) m ρ c) (Proc.devRef .tc main_v7) = _
    after_results
    rfl
  exact (congrArg (vecRow (B := 64)) e).trans (vecRow_shapeCast _ _)
private theorem W1_v8 (c : Dev nD) : vecRow (B := 64) (W1 (F := 𝕀) m ρ c (Proc.devRef .tc main_v8)) = vec1 (kArgs m c).a7 := by
  have e : W1 (F := 𝕀) m ρ c (Proc.devRef .tc main_v8) = shapeCast S1x64 (kArgs m c).a7 shapeCasts_S64_S1x64 := by
    show StableHlo.after hostOps0 (W0 (F := 𝕀) m ρ c) (Proc.devRef .tc main_v8) = _
    after_results
    rfl
  exact (congrArg (vecRow (B := 64)) e).trans (vecRow_shapeCast _ _)

/-- After region 0: the node table through the first feed-forward block. -/
private theorem W2_v9 (c : Dev nD) : W2 (F := 𝕀) m ρ c (Proc.devRef .tc main_v9) = K.x0 (kArgs m c) := by
  refine ((W2_arr (F := 𝕀) m ρ c 5).trans (Cert.Gnn.K0.final (V1 (F := 𝕀) m ρ) c)).trans ?_
  have e0 : V1 (F := 𝕀) m ρ c main_arg0 = (kArgs m c).a0 := keep0 _ main_arg0 (by decide)
  have e4 : V1 (F := 𝕀) m ρ c main_arg4 = (kArgs m c).a4 := keep0 _ main_arg4 (by decide)
  have e6 : V1 (F := 𝕀) m ρ c main_arg6 = (kArgs m c).a6 := keep0 _ main_arg6 (by decide)
  have e7 : vecRow (B := 64) (V1 (F := 𝕀) m ρ c main_v7) = vec1 (kArgs m c).a5 := W1_v7 m ρ c
  have e8 : vecRow (B := 64) (V1 (F := 𝕀) m ρ c main_v8) = vec1 (kArgs m c).a7 := W1_v8 m ρ c
  rw [e0, e4, e6, e7, e8]
  rfl

/-! ## Typed references -/

/-- Contents moved to a typed reference's buffer type and back are the contents. -/
private theorem ofBuf_toBuf {T : BufTy} (x : StableHlo.TRef sig T) (v : T.Contents (Elt 𝕀)) : x.ofBuf (x.toBuf v) = v := by
  obtain ⟨r, rfl, _, _⟩ := x
  rfl

/-- Contents read through a typed reference are the buffer's contents; contents stored through one are the contents. -/
private theorem ofBuf_eq {T : BufTy} (x : StableHlo.TRef sig T) (w : x.ref.ty.Contents (Elt 𝕀)) (w' : T.Contents (Elt 𝕀))
    (h : HEq w w') : x.ofBuf w = w' := eq_of_heq ((cast_heq _ w).trans h)
private theorem toBuf_eq {T : BufTy} (x : StableHlo.TRef sig T) (v : T.Contents (Elt 𝕀)) (v' : x.ref.ty.Contents (Elt 𝕀))
    (h : HEq v v') : x.toBuf v = v' := eq_of_heq ((cast_heq _ v).trans h)

private theorem W3_v10 (c : Dev nD) : vecRow (B := 64) (W3 (F := 𝕀) m ρ c (Proc.devRef .tc main_v10)) = vec1 (kArgs m c).a9 := by
  have e : W3 (F := 𝕀) m ρ c (Proc.devRef .tc main_v10)
      = shapeCast S1x64 (W2 (F := 𝕀) m ρ c (Proc.devRef .tc main_arg9)) shapeCasts_S64_S1x64 := by
    show StableHlo.after hostOps1 (W2 (F := 𝕀) m ρ c) (Proc.devRef .tc main_v10) = _
    after_results
    rfl
  rw [e, W2_eq_W0 m ρ c main_arg9 (by decide) (by decide)]
  exact vecRow_shapeCast _ _
private theorem W3_v11 (c : Dev nD) : vecRow (B := 64) (W3 (F := 𝕀) m ρ c (Proc.devRef .tc main_v11)) = vec1 (kArgs m c).a11 := by
  have e : W3 (F := 𝕀) m ρ c (Proc.devRef .tc main_v11)
      = shapeCast S1x64 (W2 (F := 𝕀) m ρ c (Proc.devRef .tc main_arg11)) shapeCasts_S64_S1x64 := by
    show StableHlo.after hostOps1 (W2 (F := 𝕀) m ρ c) (Proc.devRef .tc main_v11) = _
    after_results
    rfl
  rw [e, W2_eq_W0 m ρ c main_arg11 (by decide) (by decide)]
  exact vecRow_shapeCast _ _

private theorem W3_v9 (c : Dev nD) : W3 (F := 𝕀) m ρ c (Proc.devRef .tc main_v9) = K.x0 (kArgs m c) :=
  (keep1 _ main_v9 (by decide)).trans (W2_v9 m ρ c)

/-- After region 1: the message block's table. -/
private theorem W4_v12 (c : Dev nD) : W4 (F := 𝕀) m ρ c (Proc.devRef .tc main_v12)
    = ffn (kArgs m c).a8 (kArgs m c).a9 (kArgs m c).a10 (kArgs m c).a11 (K.x0 (kArgs m c)) := by
  refine ((W4_arr (F := 𝕀) m ρ c 5).trans (Cert.Gnn.K1.final (V3 (F := 𝕀) m ρ) c)).trans ?_
  have e9 : V3 (F := 𝕀) m ρ c main_v9 = K.x0 (kArgs m c) := W3_v9 m ρ c
  have e8 : V3 (F := 𝕀) m ρ c main_arg8 = (kArgs m c).a8 := W3_eq_W0 m ρ c main_arg8 (by decide) (by decide) (by decide)
  have e10 : V3 (F := 𝕀) m ρ c main_arg10 = (kArgs m c).a10 := W3_eq_W0 m ρ c main_arg10 (by decide) (by decide) (by decide)
  have e10' : vecRow (B := 64) (V3 (F := 𝕀) m ρ c main_v10) = vec1 (kArgs m c).a9 := W3_v10 m ρ c
  have e11 : vecRow (B := 64) (V3 (F := 𝕀) m ρ c main_v11) = vec1 (kArgs m c).a11 := W3_v11 m ρ c
  rw [e9, e8, e10, e10', e11]
  rfl

/-- Region 1 reads the node table and leaves it as it was. -/
private theorem W4_v9 (c : Dev nD) : W4 (F := 𝕀) m ρ c (Proc.devRef .tc main_v9) = K.x0 (kArgs m c) :=
  ((W4_arr (F := 𝕀) m ρ c 0).trans (((dat1 (V3 (F := 𝕀) m ρ) c).arrAt_in 0 rfl _).trans (A_eq1 (V3 (F := 𝕀) m ρ) c 0))).trans
    (W3_v9 m ρ c)

/-! ## The masked gather, the messages added up, the halves of the update block's weights -/

/-- After the gather's stretch: the masked gather of the message table at the neighbour row. -/
private theorem W5_v13 (c : Dev nD) : W5 (F := 𝕀) m ρ c (Proc.devRef .tc main_v13)
    = K.takeE (kArgs m c) (ffn (kArgs m c).a8 (kArgs m c).a9 (kArgs m c).a10 (kArgs m c).a11 (K.x0 (kArgs m c))) := by
  have e : W5 (F := 𝕀) m ρ c (Proc.devRef .tc main_v13)
      = takeRows 49999#32 gather_S50000x64_S800000x1_S800000x64_1_0_n_n_0_1_164 bcast_S_S800000x1 bcast_S1_S1x1_1
          bcast_S1x1_S800000x1_0_1 reducesTo_S800000x1_S800000_d1 h_S_ bcast_S800000_S800000x64_0 bcast_S_S800000x64
          (W4 (F := 𝕀) m ρ c (Proc.devRef .tc main_v12))
          (startCol 50000#32 bcast_S_S800000 bcast_S800000_S800000x1_0 (W4 (F := 𝕀) m ρ c (Proc.devRef .tc main_v6))) := by
    show StableHlo.after hostOps2 (W4 (F := 𝕀) m ρ c) (Proc.devRef .tc main_v13) = _
    after_results
    -- The typed references' moves to and from their buffers' types cancel, or are the identity at the two buffers read.
    simp only [ofBuf_toBuf]
    have h6 : (StableHlo.TRef.of main_v6 : StableHlo.TRef sig ⟨S800000, .i32⟩).ofBuf (W4 (F := 𝕀) m ρ c (Proc.devRef .tc main_v6))
        = W4 (F := 𝕀) m ρ c (Proc.devRef .tc main_v6) := ofBuf_eq _ _ _ HEq.rfl
    have h12 : (StableHlo.TRef.of main_v12 : StableHlo.TRef sig ⟨S50000x64, .f32⟩).ofBuf (W4 (F := 𝕀) m ρ c (Proc.devRef .tc main_v12))
        = W4 (F := 𝕀) m ρ c (Proc.devRef .tc main_v12) := ofBuf_eq _ _ _ HEq.rfl
    rw [h6, h12]
    refine toBuf_eq _ _ _ (heq_of_eq ?_)
    rfl
  rw [e, W4_v12, (W4_eq_W1 m ρ c main_v6 (by decide) (by decide) (by decide)).trans (W1_v6 m ρ c)]
  rfl

/-- After the next stretch: the messages scaled by the edge weights and added up at the target nodes. -/
private theorem W6_v19 (c : Dev nD) : W6 (F := 𝕀) m ρ c (Proc.devRef .tc main_v19)
    = K.agg (kArgs m c) (K.takeE (kArgs m c)
        (ffn (kArgs m c).a8 (kArgs m c).a9 (kArgs m c).a10 (kArgs m c).a11 (K.x0 (kArgs m c)))) := by
  have e : W6 (F := 𝕀) m ρ c (Proc.devRef .tc main_v19)
      = Host.scatterAdd (F := 𝕀) scatter_S50000x64_S800000x1_S800000x64_1_0_0_1
          (broadcastInDim S50000x64 ![] bcast_S_S50000x64 (constant S_ .f32 0x00000000#32))
          (broadcastInDim S800000x1 ![0] bcast_S800000_S800000x1_0 (W5 (F := 𝕀) m ρ c (Proc.devRef .tc main_v4)))
          (mulf (W5 (F := 𝕀) m ρ c (Proc.devRef .tc main_v13))
            (broadcastInDim S800000x64 ![0, 1] bcast_S800000x1_S800000x64_0_1
              (broadcastInDim S800000x1 ![0] bcast_S800000_S800000x1_0 (W5 (F := 𝕀) m ρ c (Proc.devRef .tc main_v2))))) := by
    show StableHlo.after hostOps2_1 (W5 (F := 𝕀) m ρ c) (Proc.devRef .tc main_v19) = _
    after_results_simp
  rw [e, W5_v13, (W5_eq_W1 m ρ c main_v4 (by decide) (by decide) (by decide) (by decide)).trans (W1_v4 m ρ c),
    (W5_eq_W1 m ρ c main_v2 (by decide) (by decide) (by decide) (by decide)).trans (W1_v2 m ρ c)]
  rfl

private theorem W6_v20 (c : Dev nD) : W6 (F := 𝕀) m ρ c (Proc.devRef .tc main_v20)
    = extractStridedSlice S64x64 ![0, 0] (kArgs m c).a12 slices_S128x64_S64x64_0_0 := by
  have e : W6 (F := 𝕀) m ρ c (Proc.devRef .tc main_v20)
      = extractStridedSlice S64x64 ![0, 0] (W5 (F := 𝕀) m ρ c (Proc.devRef .tc main_arg12)) slices_S128x64_S64x64_0_0 := by
    show StableHlo.after hostOps2_1 (W5 (F := 𝕀) m ρ c) (Proc.devRef .tc main_v20) = _
    after_results
  rw [e, W5_eq_W0 m ρ c main_arg12 (by decide) (by decide) (by decide) (by decide) (by decide)]
  rfl
private theorem W6_v21 (c : Dev nD) : W6 (F := 𝕀) m ρ c (Proc.devRef .tc main_v21)
    = extractStridedSlice S64x64 ![64, 0] (kArgs m c).a12 slices_S128x64_S64x64_64_0 := by
  have e : W6 (F := 𝕀) m ρ c (Proc.devRef .tc main_v21)
      = extractStridedSlice S64x64 ![64, 0] (W5 (F := 𝕀) m ρ c (Proc.devRef .tc main_arg12)) slices_S128x64_S64x64_64_0 := by
    show StableHlo.after hostOps2_1 (W5 (F := 𝕀) m ρ c) (Proc.devRef .tc main_v21) = _
    after_results
  rw [e, W5_eq_W0 m ρ c main_arg12 (by decide) (by decide) (by decide) (by decide) (by decide)]
  rfl
private theorem W6_v22 (c : Dev nD) : vecRow (B := 64) (W6 (F := 𝕀) m ρ c (Proc.devRef .tc main_v22)) = vec1 (kArgs m c).a13 := by
  have e : W6 (F := 𝕀) m ρ c (Proc.devRef .tc main_v22)
      = shapeCast S1x64 (W5 (F := 𝕀) m ρ c (Proc.devRef .tc main_arg13)) shapeCasts_S64_S1x64 := by
    show StableHlo.after hostOps2_1 (W5 (F := 𝕀) m ρ c) (Proc.devRef .tc main_v22) = _
    after_results
    rfl
  rw [e, W5_eq_W0 m ρ c main_arg13 (by decide) (by decide) (by decide) (by decide) (by decide)]
  exact vecRow_shapeCast _ _
private theorem W6_v23 (c : Dev nD) : vecRow (B := 64) (W6 (F := 𝕀) m ρ c (Proc.devRef .tc main_v23)) = vec1 (kArgs m c).a15 := by
  have e : W6 (F := 𝕀) m ρ c (Proc.devRef .tc main_v23)
      = shapeCast S1x64 (W5 (F := 𝕀) m ρ c (Proc.devRef .tc main_arg15)) shapeCasts_S64_S1x64 := by
    show StableHlo.after hostOps2_1 (W5 (F := 𝕀) m ρ c) (Proc.devRef .tc main_v23) = _
    after_results
    rfl
  rw [e, W5_eq_W0 m ρ c main_arg15 (by decide) (by decide) (by decide) (by decide) (by decide)]
  exact vecRow_shapeCast _ _
private theorem W6_v9 (c : Dev nD) : W6 (F := 𝕀) m ρ c (Proc.devRef .tc main_v9) = K.x0 (kArgs m c) :=
  (keep21 _ main_v9 (by decide)).trans ((keep2 _ main_v9 (by decide)).trans (W4_v9 m ρ c))

/-- … and the node table after the first convolution. -/
theorem W7_x1 (c : Dev nD) : W7 (F := 𝕀) m ρ c (Proc.devRef .tc main_v24) = K.x1 (kArgs m c) := by
  -- The two host-side cuts of the update block's first weights are its rows 0–63 and 64–127.
  have ha : ∀ (k j : Fin 64), (V6 (F := 𝕀) m ρ c main_v20 : (⟨2, ![64, 64]⟩ : Shape).Idx → EReal) (ix2 k j)
      = (kArgs m c).a12 (ix2 (Fin.castAdd 64 k) j) := fun k j => by
    rw [show V6 (F := 𝕀) m ρ c main_v20 = _ from W6_v20 m ρ c]
    exact slice2_axis0_apply 0 _ _ k j (Fin.castAdd 64 k) (by rw [Fin.coe_castAdd, Nat.zero_add])
  have hb : ∀ (k j : Fin 64), (V6 (F := 𝕀) m ρ c main_v21 : (⟨2, ![64, 64]⟩ : Shape).Idx → EReal) (ix2 k j)
      = (kArgs m c).a12 (ix2 (Fin.natAdd 64 k) j) := fun k j => by
    rw [show V6 (F := 𝕀) m ρ c main_v21 = _ from W6_v21 m ρ c]
    exact slice2_axis0_apply 64 _ _ k j (Fin.natAdd 64 k) (by rw [Fin.coe_natAdd])
  refine ((W7_arr (F := 𝕀) m ρ c 7).trans (Cert.Gnn.K2.final (V6 (F := 𝕀) m ρ) c (kArgs m c).a12 ha hb)).trans ?_
  have e9 : V6 (F := 𝕀) m ρ c main_v9 = K.x0 (kArgs m c) := W6_v9 m ρ c
  have e19 : V6 (F := 𝕀) m ρ c main_v19 = _ := W6_v19 m ρ c
  have e14 : V6 (F := 𝕀) m ρ c main_arg14 = (kArgs m c).a14 :=
    W6_eq_W0 m ρ c main_arg14 (by decide) (by decide) (by decide) (by decide) (by decide) (by decide)
  have e22 : vecRow (B := 64) (V6 (F := 𝕀) m ρ c main_v22) = vec1 (kArgs m c).a13 := W6_v22 m ρ c
  have e23 : vecRow (B := 64) (V6 (F := 𝕀) m ρ c main_v23) = vec1 (kArgs m c).a15 := W6_v23 m ρ c
  rw [e9, e19, e14, e22, e23]
  rfl

end Cert.Gnn.KV

end
-- ==== Proof.Blocks3.lean ====
/-
  Region 3: a feed-forward block applied to a table in blocks of 5000 rows.

  The region sweeps its input table in 10 blocks of 5000 rows; at each block the body loads the block of rows and the whole weights and
  biases, and stores the feed-forward block of those rows. A feed-forward block acts on each row by itself, so what
  block `t` writes back is block `t` of the row function applied to every row of the whole input table; the blocks
  tile the output table, so after the last block the output table IS that function of the input table.
-/
import proofs.«408577_j31361851195877_2_alg».proof.Proof.Gen.KernelIdeal.Frame
import proofs.«408577_j31361851195877_2_alg».proof.Proof.Spec
import proofs.«408577_j31361851195877_2_alg».proof.Proof.RowsKer
import Idealize.ShloMosaic.Lib.Pipeline.Value

set_option maxRecDepth 16384

noncomputable section

namespace Cert.Gnn.K3

open Idealize.ShloMosaic Idealize.ShloMosaic.TcCoe Idealize.ShloMosaic.ValueIdx Idealize.SL.Sem
open Cert.KernelIdeal Cert.KernelIdeal.Gen Cert.Gnn

local notation "𝕀" => Idealize.ShloMosaic.Ideal

variable (V : (c : Dev nD) → (b : Ref sig .tc) → Buf (Elt 𝕀) ((c : Thread nD τ).loc b))

/-! ## The body's arithmetic on one block of rows -/

/-- The offsets of a whole-block access are all zero. -/
private theorem hz : (![0, 0] : Fin 2 → Nat) = fun _ => 0 := funext fun a => by fin_cases a <;> rfl

/-- What the body stores is two dense layers with GELU between them: product plus bias, GELU, product plus bias
    (the loaded rows first recast to their own shape, which changes nothing). -/
private theorem pay_unfold (x0 : Vec 𝕀 S5000x64 .f32) (x1 : Vec 𝕀 S64x64 .f32) (x2 : Vec 𝕀 S1x64 .f32) (x3 : Vec 𝕀 S64x64 .f32)
    (x4 : Vec 𝕀 S1x64 .f32) :
    k3_pay1 x0 x1 x2 x3 x4
      = addf (kerMm bitsLt_bf16_f32
            (kerGelu (addf (kerMm bitsLt_bf16_f32 (shapeCast S5000x64 x0 shapeCasts_S5000x64_S5000x64) x1) (kerBias shapeCasts_S1x64_S1x64 broadcasts_S1x64_S5000x64 x2))) x3)
          (kerBias shapeCasts_S1x64_S1x64 broadcasts_S1x64_S5000x64 x4) := rfl

/-- So it is the feed-forward row function, with the loaded weights and biases, on every row of the loaded block. -/
private theorem pay_eq (x0 : Vec 𝕀 S5000x64 .f32) (x1 : Vec 𝕀 S64x64 .f32) (x2 : Vec 𝕀 S1x64 .f32) (x3 : Vec 𝕀 S64x64 .f32)
    (x4 : Vec 𝕀 S1x64 .f32) :
    k3_pay1 x0 x1 x2 x3 x4
      = rowsMap (R := 5000) (C := 64)
          (ffnRow (mat (A := 64) (B := 64) x1) (vecRow (B := 64) x2) (mat (A := 64) (B := 64) x3) (vecRow (B := 64) x4)) x0 := by
  rw [pay_unfold, shapeCast_self, kerDense_eq, kerDense_eq]
  refine table_ext fun r j => ?_
  rw [rowsMap_apply, rowsMap_apply]
  -- the second layer's input row is GELU of the first layer's output row, entry by entry
  unfold ffnRow
  congr 1

/-! ## Where each window's block sits in its table -/

/-- The block index of every window at every point of the sweep: the row windows (input rows, output rows) are at
    block `t` along the rows and block 0 along the columns; the weight and bias windows stay at block 0. -/
private theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry `(r, l)` of the block of input rows at point `t` is entry `(5000 t + r, l)` of the input table. -/
private theorem iblk_w0 (c : Dev nD) (t : Fin cfg3.N) (r : Fin 5000) (l : Fin 64) (h : t.val * 5000 + r.val < 50000) :
    (iblk3 V c 0 t : Vec 𝕀 S5000x64 .f32) (ix2 r l) = V c main_v24 (ix2 ⟨t.val * 5000 + r.val, h⟩ l) := by
  obtain ⟨e0, e1, -⟩ := idx_facts t
  show V c main_v24 (((cfg3.win 0).blk t).view.emb (ix2 r l)) = V c main_v24 _
  congr 1
  funext a
  apply Fin.ext
  match a with
  | ⟨0, _⟩ => show win3_0.index t (0 : Fin 2) * 5000 + 1 * r.val = t.val * 5000 + r.val; rw [e0]; omega
  | ⟨1, _⟩ => show win3_0.index t (1 : Fin 2) * 64 + 1 * l.val = l.val; rw [e1]; omega

/-- The block of the first layer's weights is the whole table of them, at every point. -/
private theorem iblk_w1 (c : Dev nD) (t : Fin cfg3.N) : (iblk3 V c 1 t : Vec 𝕀 S64x64 .f32) = V c main_arg16 := by
  obtain ⟨-, -, e0, e1, -⟩ := idx_facts t
  funext y
  show V c main_arg16 (((cfg3.win 1).blk t).view.emb y) = V c main_arg16 y
  congr 1
  funext a
  apply Fin.ext
  match a with
  | ⟨0, _⟩ => show win3_1.index t (0 : Fin 2) * 64 + 1 * (y 0).val = (y 0).val; rw [e0]; omega
  | ⟨1, _⟩ => show win3_1.index t (1 : Fin 2) * 64 + 1 * (y 1).val = (y 1).val; rw [e1]; omega

/-- The block of the first layer's biases is the whole one-row table of them. -/
private theorem iblk_w2 (c : Dev nD) (t : Fin cfg3.N) : (iblk3 V c 2 t : Vec 𝕀 S1x64 .f32) = V c main_v25 := by
  obtain ⟨-, -, -, -, e0, e1, -⟩ := idx_facts t
  funext y
  show V c main_v25 (((cfg3.win 2).blk t).view.emb y) = V c main_v25 y
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega

/-- The block of the second layer's weights is the whole table of them. -/
private theorem iblk_w3 (c : Dev nD) (t : Fin cfg3.N) : (iblk3 V c 3 t : Vec 𝕀 S64x64 .f32) = V c main_arg18 := by
  obtain ⟨-, -, -, -, -, -, e0, e1, -⟩ := idx_facts t
  funext y
  show V c main_arg18 (((cfg3.win 3).blk t).view.emb y) = V c main_arg18 y
  congr 1
  funext a
  apply Fin.ext
  match a with
  | ⟨0, _⟩ => show win3_3.index t (0 : Fin 2) * 64 + 1 * (y 0).val = (y 0).val; rw [e0]; omega
  | ⟨1, _⟩ => show win3_3.index t (1 : Fin 2) * 64 + 1 * (y 1).val = (y 1).val; rw [e1]; omega

/-- The block of the second layer's biases is the whole one-row table of them. -/
private theorem iblk_w4 (c : Dev nD) (t : Fin cfg3.N) : (iblk3 V c 4 t : Vec 𝕀 S1x64 .f32) = V c main_v26 := by
  obtain ⟨-, -, -, -, -, -, -, -, e0, e1, -⟩ := idx_facts t
  funext y
  show V c main_v26 (((cfg3.win 4).blk t).view.emb y) = V c main_v26 y
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

/-- Entry `(r, l)` of block `t` of a table shaped like the output is entry `(5000 t + r, l)` of that table. -/
private theorem read_w5 (c : Dev nD) (t : Fin cfg3.N) (T : S50000x64.Idx → EReal) (r : Fin 5000) (l : Fin 64)
    (h : t.val * 5000 + r.val < 50000) :
    (((cfg3.win 5).blk t).view.read (Elt 𝕀) T : Vec 𝕀 S5000x64 .f32) (ix2 r l) = T (ix2 ⟨t.val * 5000 + r.val, h⟩ l) := by
  obtain ⟨-, -, -, -, -, -, -, -, -, -, e0, e1⟩ := idx_facts t
  show T (((cfg3.win 5).blk t).view.emb (ix2 r l)) = T _
  congr 1
  funext a
  apply Fin.ext
  match a with
  | ⟨0, _⟩ => show win3_5.index t (0 : Fin 2) * 5000 + 1 * r.val = t.val * 5000 + r.val; rw [e0]; omega
  | ⟨1, _⟩ => show win3_5.index t (1 : Fin 2) * 64 + 1 * l.val = l.val; rw [e1]; omega

/-! ## What each block writes back, and the table after the last block -/

/-- What point `t` writes back is block `t` of the feed-forward row function applied to every row of the input table:
    row `r` of the stored block is the row function of row `r` of the loaded block, which is row `5000 t + r` of the
    input table, and the weights and biases loaded are the whole tables. -/
private theorem flushed_eq (c : Dev nD) (t : Fin cfg3.N) :
    (dat3 (F := 𝕀) V c).flushed 5 t = ((cfg3.win 5).blk t).view.read (Elt 𝕀)
      (rowsMap (R := 50000) (C := 64)
          (ffnRow (mat (A := 64) (B := 64) (V c main_arg16)) (vecRow (B := 64) (V c main_v25))
            (mat (A := 64) (B := 64) (V c main_arg18)) (vecRow (B := 64) (V c main_v26)))
          (V c main_v24)) := by
  show (cfg3.win 5).cut (grid3.coords t) ((dat3 V c).after 5 t) = _
  rw [after3_5]
  unfold out3_5
  rw [View.canon_unit_zero hz]
  simp only [View.ld_unit_zero (S := S5000x64) hz, View.ld_unit_zero (S := S64x64) hz, View.ld_unit_zero (S := S1x64) hz]
  refine (pay_eq (iblk3 V c 0 t) (iblk3 V c 1 t) (iblk3 V c 2 t) (iblk3 V c 3 t) (iblk3 V c 4 t)).trans ?_
  rw [iblk_w1 V c t, iblk_w2 V c t, iblk_w3 V c t, iblk_w4 V c t]
  refine table_ext fun r l => ?_
  have ht : t.val < 10 := lt_of_lt_of_eq t.isLt N_3
  have h : t.val * 5000 + r.val < 50000 := by have := r.isLt; omega
  rw [read_w5 c t _ r l h, rowsMap_apply, rowsMap_apply]
  -- the same row function on both sides; the two rows agree entry by entry
  congr 1
  funext k
  exact iblk_w0 V c t r k h

/-- An index of the output table is in point `t`'s block iff each coordinate is in the block's range on its axis. -/
private theorem mem_blk (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v27).slice (win3_5.rect t)).set ↔ _
  rw [View.set_slice_whole, Rect.mem_set_unit]
  exact Iff.rfl

/-- The region's output table after its last block: the feed-forward row function, with the weights and biases the
    region finds, applied to every row of the input table it finds. -/
theorem final (c : Dev nD) :
    (dat3 (F := 𝕀) V c).arrAt 5 cfg3.N
      = rowsMap (R := 50000) (C := 64)
          (ffnRow (mat (A := 64) (B := 64) (V c main_arg16)) (vecRow (B := 64) (V c main_v25))
            (mat (A := 64) (B := 64) (V c main_arg18)) (vecRow (B := 64) (V c main_v26)))
          (V c main_v24) := by
  -- every point writes back its block of the one function; row `r` of the table lies in block `r / 5000`
  refine (dat3 V c).arrAt_eq_of_cover 5 _ (fun t _ => flushed_eq V c t) fun i => ?_
  have hi0 : (i 0).val < 50000 := (i 0).isLt
  have hi1 : (i 1).val < 64 := (i 1).isLt
  have hN : cfg3.N = 10 := N_3
  have hlt : (i 0).val / 5000 < cfg3.N := by rw [hN]; omega
  refine ⟨⟨(i 0).val / 5000, hlt⟩, flush3_5 _, ?_⟩
  rw [mem_blk]
  obtain ⟨-, -, -, -, -, -, -, -, -, -, e0, e1⟩ := idx_facts ⟨(i 0).val / 5000, hlt⟩
  have e0' : win3_5.index ⟨(i 0).val / 5000, hlt⟩ (0 : Fin 2) = (i 0).val / 5000 := e0
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    rw [e0']; omega
  | ⟨1, _⟩ =>
    show win3_5.index ⟨(i 0).val / 5000, hlt⟩ (1 : Fin 2) * 64 ≤ (i 1).val
      ∧ (i 1).val < win3_5.index ⟨(i 0).val / 5000, hlt⟩ (1 : Fin 2) * 64 + 64
    rw [e1]; omega

end Cert.Gnn.K3

end
-- ==== Proof.Blocks4.lean ====
/-
  Region 4: the update block of a graph convolution applied to the node table in 10 blocks of 5000 rows.

  At each block the body loads the block of node rows, the block of aggregated-message rows, the two halves of the
  first layer's weights, the second layer's weights and the two bias rows, and stores the update block of those rows:
  the feed-forward block on the node row and the message row side by side, scaled to unit length, plus the node row.
  The update block acts on each pair of rows by itself, so what block `t` writes back is block `t` of the row function
  applied to every pair of rows of the two whole tables; the blocks tile the output table.
-/
import proofs.«408577_j31361851195877_2_alg».proof.Proof.Gen.KernelIdeal.Frame
import proofs.«408577_j31361851195877_2_alg».proof.Proof.Spec
import proofs.«408577_j31361851195877_2_alg».proof.Proof.RowsKer
import Idealize.ShloMosaic.Lib.Pipeline.Value

set_option maxRecDepth 16384

noncomputable section

namespace Cert.Gnn.K4

open Idealize.ShloMosaic Idealize.ShloMosaic.TcCoe Idealize.ShloMosaic.ValueIdx Idealize.SL.Sem
open Cert.KernelIdeal Cert.KernelIdeal.Gen Cert.Gnn

local notation "𝕀" => Idealize.ShloMosaic.Ideal

variable (V : (c : Dev nD) → (b : Ref sig .tc) → Buf (Elt 𝕀) ((c : Thread nD τ).loc b))

/-- The zero offsets of a whole-block access. -/
private theorem hz : (![0, 0] : Fin 2 → Nat) = fun _ => 0 := funext fun a => by fin_cases a <;> rfl

/-! ## The body on one block

The stored value, as a term of the seven loaded blocks, is the normalisation with residual of the second dense layer of
GELU of the first layer, the first layer being the sum of two products (node rows by the upper half of the weights,
message rows by the lower half) plus the bias. The loaded row blocks and weight halves pass through casts between
equal shapes, which are identities. -/

/-- The stored value is the kernel's layers composed, the casts between equal shapes still in place. -/
private theorem pay_cast (x0 x1 : Vec 𝕀 S5000x64 .f32) (x2 x3 : Vec 𝕀 S64x64 .f32) (x4 : Vec 𝕀 S1x64 .f32)
    (x5 : Vec 𝕀 S64x64 .f32) (x6 : Vec 𝕀 S1x64 .f32) :
    k4_pay1 (F := 𝕀) (k4_pay2 x0) (k4_pay3 x0 x1 x2 x3 x4 x5) (k4_pay4 x6)
      = kerL2 (R := 5000) reduces_S5000x64_S5000 (.inl rfl) rfl shapeCasts_S5000_S5000x1 broadcasts_S5000x1_S5000x64
          (addf (kerMm bitsLt_bf16_f32
            (kerGelu (addf (addf (kerMm bitsLt_bf16_f32 (shapeCast S5000x64 x0 shapeCasts_S5000x64_S5000x64) (shapeCast S64x64 x2 shapeCasts_S64x64_S64x64))
                                (kerMm bitsLt_bf16_f32 (shapeCast S5000x64 x1 shapeCasts_S5000x64_S5000x64) (shapeCast S64x64 x3 shapeCasts_S64x64_S64x64)))
                          (kerBias shapeCasts_S1x64_S1x64 broadcasts_S1x64_S5000x64 x4))) x5)
            (kerBias shapeCasts_S1x64_S1x64 broadcasts_S1x64_S5000x64 x6))
          (shapeCast S5000x64 x0 shapeCasts_S5000x64_S5000x64) := rfl

/-- At entry `(r, j)` the stored value is the update row function of row `r` of the node block and row `r` of the
    message block, the two weight halves being the upper and lower 64 rows of one `[128, 64]` matrix `W`. -/
private theorem pay_apply (W : (⟨2, ![128, 64]⟩ : Shape).Idx → EReal)
    (x0 x1 : Vec 𝕀 S5000x64 .f32) (x2 x3 : Vec 𝕀 S64x64 .f32) (x4 : Vec 𝕀 S1x64 .f32)
    (x5 : Vec 𝕀 S64x64 .f32) (x6 : Vec 𝕀 S1x64 .f32)
    (ha : ∀ (k j : Fin 64), x2 (ix2 k j) = W (ix2 (Fin.castAdd 64 k) j))
    (hb : ∀ (k j : Fin 64), x3 (ix2 k j) = W (ix2 (Fin.natAdd 64 k) j)) (r : Fin 5000) (j : Fin 64) :
    k4_pay1 (F := 𝕀) (k4_pay2 x0) (k4_pay3 x0 x1 x2 x3 x4 x5) (k4_pay4 x6) (ix2 r j)
      = updRow (mat (A := 128) (B := 64) W) (vecRow (B := 64) x4) (mat (A := 64) (B := 64) x5) (vecRow (B := 64) x6)
          (rowOf (R := 5000) (C := 64) x0 r) (rowOf (R := 5000) (C := 64) x1 r) j := by
  rw [pay_cast]
  -- a cast between equal shapes is the identity
  simp only [shapeCast_self]
  -- the normalisation with residual acts row by row; the second layer is the dense row function on every row
  refine (congrFun (kerL2_eq (R := 5000) _ _ _ _ _ _ _) (ix2 r j)).trans ?_
  rw [rowsMap2_apply, kerDense_eq]
  -- row r of the second layer's output is the feed-forward block on the node row and the message row side by side
  have hrow : rowOf (R := 5000) (C := 64) (rowsMap (dense (mat (A := 64) (B := 64) x5) (vecRow (B := 64) x6))
        (kerGelu (addf (addf (kerMm bitsLt_bf16_f32 x0 x2) (kerMm bitsLt_bf16_f32 x1 x3))
          (kerBias shapeCasts_S1x64_S1x64 broadcasts_S1x64_S5000x64 x4)))) r
      = ffnRow (mat (A := 128) (B := 64) W) (vecRow (B := 64) x4) (mat (A := 64) (B := 64) x5) (vecRow (B := 64) x6)
          (Fin.append (rowOf (R := 5000) (C := 64) x0 r) (rowOf (R := 5000) (C := 64) x1 r)) := by
    show dense (mat (A := 64) (B := 64) x5) (vecRow (B := 64) x6) (rowOf (R := 5000) (C := 64) (kerGelu _) r) = dense _ _ _
    congr 1
    funext k
    show kerGelu _ (ix2 r k) = _
    rw [kerGelu_apply, kerDense2_eq bitsLt_bf16_f32 shapeCasts_S1x64_S1x64 broadcasts_S1x64_S5000x64 x0 x1 x2 x3 W x4 ha hb r k]
  rw [hrow]
  rfl

/-! ## The blocks the windows read

The index maps, over the 10 points of the grid: the node window, the message window and the output window are at the
same block of rows (block index `(p, 0)` at point `p`, at most 9); the weight and bias windows stay at block `(0, 0)`,
which is their whole array. A block's entry `(r, k)` is the array's entry (block index × block size + `(r, k)`). -/

/-- The printed index maps, decided over the grid. -/
private theorem idx_facts : ∀ t : Fin cfg4.N,
    win4_0.index t (0 : Fin 2) = win4_7.index t (0 : Fin 2) ∧ win4_0.index t (1 : Fin 2) = 0
    ∧ win4_1.index t (0 : Fin 2) = win4_7.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) ≤ 9 ∧ win4_7.index t (1 : Fin 2) = 0 :=
  (by decide +kernel : ∀ t : Fin grid4.N, _)

/-- Every one of the 10 blocks of rows is some point's output block. -/
private theorem idx_onto : ∀ q : Fin 10, ∃ t : Fin cfg4.N, win4_7.index t (0 : Fin 2) = q.val :=
  (by decide +kernel : ∀ q : Fin 10, ∃ t : Fin grid4.N, win4_7.index t (0 : Fin 2) = q.val)

/-- Entry `(r, k)` of the node block at point `t` is entry `(5000 p + r, k)` of the node table, `p` the output's block
    of rows at `t`. -/
private theorem blk_node_apply (c : Dev nD) (t : Fin cfg4.N) (r : Fin 5000) (k : Fin 64) (R' : Fin 50000)
    (hR : R'.val = win4_7.index t (0 : Fin 2) * 5000 + r.val) :
    (iblk4 V c 0 t : Vec 𝕀 S5000x64 .f32) (ix2 r k) = (V c main_v24 : S50000x64.Idx → EReal) (ix2 R' k) := by
  obtain ⟨e0, e1, -⟩ := idx_facts t
  unfold iblk4
  rw [View.read_apply]
  show V c main_v24 _ = V c main_v24 _
  congr 1
  funext a
  apply Fin.ext
  match a with
  | ⟨0, _⟩ => show win4_0.index t (0 : Fin 2) * 5000 + 1 * r.val = R'.val; omega
  | ⟨1, _⟩ => show win4_0.index t (1 : Fin 2) * 64 + 1 * k.val = k.val; omega

/-- Entry `(r, k)` of the message block at point `t` is entry `(5000 p + r, k)` of the message table. -/
private theorem blk_msg_apply (c : Dev nD) (t : Fin cfg4.N) (r : Fin 5000) (k : Fin 64) (R' : Fin 50000)
    (hR : R'.val = win4_7.index t (0 : Fin 2) * 5000 + r.val) :
    (iblk4 V c 1 t : Vec 𝕀 S5000x64 .f32) (ix2 r k) = (V c main_v34 : S50000x64.Idx → EReal) (ix2 R' k) := by
  obtain ⟨-, -, e0, e1, -⟩ := idx_facts t
  unfold iblk4
  rw [View.read_apply]
  show V c main_v34 _ = V c main_v34 _
  congr 1
  funext a
  apply Fin.ext
  match a with
  | ⟨0, _⟩ => show win4_1.index t (0 : Fin 2) * 5000 + 1 * r.val = R'.val; omega
  | ⟨1, _⟩ => show win4_1.index t (1 : Fin 2) * 64 + 1 * k.val = k.val; omega

/-- The block of the upper half of the first weights is the whole array, at every point. -/
private theorem blk_wa_eq (c : Dev nD) (t : Fin cfg4.N) :
    (iblk4 V c 2 t : Vec 𝕀 S64x64 .f32) = (V c main_v35 : S64x64.Idx → EReal) := by
  obtain ⟨-, -, -, -, e0, e1, -⟩ := idx_facts t
  funext i
  unfold iblk4
  rw [View.read_apply]
  show V c main_v35 _ = V c main_v35 _
  congr 1
  funext a
  apply Fin.ext
  match a with
  | ⟨0, _⟩ => show win4_2.index t (0 : Fin 2) * 64 + 1 * (i 0).val = (i 0).val; omega
  | ⟨1, _⟩ => show win4_2.index t (1 : Fin 2) * 64 + 1 * (i 1).val = (i 1).val; omega

/-- The block of the lower half of the first weights is the whole array, at every point. -/
private theorem blk_wb_eq (c : Dev nD) (t : Fin cfg4.N) :
    (iblk4 V c 3 t : Vec 𝕀 S64x64 .f32) = (V c main_v36 : S64x64.Idx → EReal) := by
  obtain ⟨-, -, -, -, -, -, e0, e1, -⟩ := idx_facts t
  funext i
  unfold iblk4
  rw [View.read_apply]
  show V c main_v36 _ = V c main_v36 _
  congr 1
  funext a
  apply Fin.ext
  match a with
  | ⟨0, _⟩ => show win4_3.index t (0 : Fin 2) * 64 + 1 * (i 0).val = (i 0).val; omega
  | ⟨1, _⟩ => show win4_3.index t (1 : Fin 2) * 64 + 1 * (i 1).val = (i 1).val; omega

/-- The block of the first bias row is the whole array, at every point. -/
private theorem blk_b1_eq (c : Dev nD) (t : Fin cfg4.N) :
    (iblk4 V c 4 t : Vec 𝕀 S1x64 .f32) = (V c main_v37 : S1x64.Idx → EReal) := by
  obtain ⟨-, -, -, -, -, -, -, -, e0, e1, -⟩ := idx_facts t
  funext i
  unfold iblk4
  rw [View.read_apply]
  show V c main_v37 _ = V c main_v37 _
  congr 1
  funext a
  apply Fin.ext
  match a with
  | ⟨0, _⟩ => show win4_4.index t (0 : Fin 2) * 1 + 1 * (i 0).val = (i 0).val; omega
  | ⟨1, _⟩ => show win4_4.index t (1 : Fin 2) * 64 + 1 * (i 1).val = (i 1).val; omega

/-- The block of the second weights is the whole array, at every point. -/
private theorem blk_w2_eq (c : Dev nD) (t : Fin cfg4.N) :
    (iblk4 V c 5 t : Vec 𝕀 S64x64 .f32) = (V c main_arg22 : S64x64.Idx → EReal) := by
  obtain ⟨-, -, -, -, -, -, -, -, -, -, e0, e1, -⟩ := idx_facts t
  funext i
  unfold iblk4
  rw [View.read_apply]
  show V c main_arg22 _ = V c main_arg22 _
  congr 1
  funext a
  apply Fin.ext
  match a with
  | ⟨0, _⟩ => show win4_5.index t (0 : Fin 2) * 64 + 1 * (i 0).val = (i 0).val; omega
  | ⟨1, _⟩ => show win4_5.index t (1 : Fin 2) * 64 + 1 * (i 1).val = (i 1).val; omega

/-- The block of the second bias row is the whole array, at every point. -/
private theorem blk_b2_eq (c : Dev nD) (t : Fin cfg4.N) :
    (iblk4 V c 6 t : Vec 𝕀 S1x64 .f32) = (V c main_v38 : S1x64.Idx → EReal) := by
  obtain ⟨-, -, -, -, -, -, -, -, -, -, -, -, e0, e1, -⟩ := idx_facts t
  funext i
  unfold iblk4
  rw [View.read_apply]
  show V c main_v38 _ = V c main_v38 _
  congr 1
  funext a
  apply Fin.ext
  match a with
  | ⟨0, _⟩ => show win4_6.index t (0 : Fin 2) * 1 + 1 * (i 0).val = (i 0).val; omega
  | ⟨1, _⟩ => show win4_6.index t (1 : Fin 2) * 64 + 1 * (i 1).val = (i 1).val; omega

/-! ## What each point writes back, and the cover -/

/-- What point `t` writes back is block `t` of the update row function applied to every pair of rows of the two whole
    tables: entry `(r, j)` of the stored block is the row function of rows `r` of the two loaded blocks, which are rows
    `5000 p + r` of the tables, and `(5000 p + r, j)` is where the output block puts its entry `(r, j)`. -/
private theorem flushed_eq (c : Dev nD) (W : (⟨2, ![128, 64]⟩ : Shape).Idx → EReal)
    (ha : ∀ (k j : Fin 64), (V c main_v35 : (⟨2, ![64, 64]⟩ : Shape).Idx → EReal) (ix2 k j) = W (ix2 (Fin.castAdd 64 k) j))
    (hb : ∀ (k j : Fin 64), (V c main_v36 : (⟨2, ![64, 64]⟩ : Shape).Idx → EReal) (ix2 k j) = W (ix2 (Fin.natAdd 64 k) j))
    (t : Fin cfg4.N) :
    (dat4 (F := 𝕀) V c).flushed 7 t
      = ((cfg4.win 7).blk t).view.read (Elt 𝕀)
          (rowsMap2 (R := 50000)
            (updRow (mat (A := 128) (B := 64) W) (vecRow (B := 64) (V c main_v37))
              (mat (A := 64) (B := 64) (V c main_arg22)) (vecRow (B := 64) (V c main_v38)))
            (V c main_v24) (V c main_v34)) := by
  show (cfg4.win 7).cut (grid4.coords t) ((dat4 V c).after 7 t) = _
  rw [after4_7]
  unfold out4_7
  -- the one store covers the block; each load reads its whole block
  rw [View.canon_unit_zero hz]
  simp only [View.ld_unit_zero (S := S5000x64) hz, View.ld_unit_zero (S := S64x64) hz, View.ld_unit_zero (S := S1x64) hz]
  refine Cert.Gnn.table_ext (R := 5000) (C := 64) fun r j => ?_
  rw [View.read_apply]
  obtain ⟨-, -, -, -, -, -, -, -, -, -, -, -, -, -, e0, e1⟩ := idx_facts t
  have ha' : ∀ (k j : Fin 64), (iblk4 V c 2 t : Vec 𝕀 S64x64 .f32) (ix2 k j) = W (ix2 (Fin.castAdd 64 k) j) :=
    fun k j => by rw [blk_wa_eq]; exact ha k j
  have hb' : ∀ (k j : Fin 64), (iblk4 V c 3 t : Vec 𝕀 S64x64 .f32) (ix2 k j) = W (ix2 (Fin.natAdd 64 k) j) :=
    fun k j => by rw [blk_wb_eq]; exact hb k j
  refine (pay_apply W (iblk4 V c 0 t) (iblk4 V c 1 t) (iblk4 V c 2 t) (iblk4 V c 3 t) (iblk4 V c 4 t) (iblk4 V c 5 t)
    (iblk4 V c 6 t) ha' hb' r j).trans ?_
  -- the row of the tables under row r of the block
  have hlt : win4_7.index t (0 : Fin 2) * 5000 + r.val < 50000 := by have := r.isLt; omega
  have hemb : ((cfg4.win 7).blk t).view.emb (ix2 r j)
      = (ix2 (⟨win4_7.index t (0 : Fin 2) * 5000 + r.val, hlt⟩ : Fin 50000) j : S50000x64.Idx) := by
    funext a
    apply Fin.ext
    match a with
    | ⟨0, _⟩ => show win4_7.index t (0 : Fin 2) * 5000 + 1 * r.val = win4_7.index t (0 : Fin 2) * 5000 + r.val; omega
    | ⟨1, _⟩ => show win4_7.index t (1 : Fin 2) * 64 + 1 * j.val = j.val; omega
  have hx : rowOf (R := 5000) (C := 64) (iblk4 V c 0 t) r
      = rowOf (R := 50000) (C := 64) (V c main_v24) ⟨win4_7.index t (0 : Fin 2) * 5000 + r.val, hlt⟩ :=
    funext fun k => blk_node_apply V c t r k _ rfl
  have hy : rowOf (R := 5000) (C := 64) (iblk4 V c 1 t) r
      = rowOf (R := 50000) (C := 64) (V c main_v34) ⟨win4_7.index t (0 : Fin 2) * 5000 + r.val, hlt⟩ :=
    funext fun k => blk_msg_apply V c t r k _ rfl
  rw [hemb, rowsMap2_apply, hx, hy, blk_b1_eq, blk_w2_eq, blk_b2_eq]
  rfl

/-- An index of the output table is in point `t`'s block iff each coordinate is in the block's range on its axis. -/
private theorem mem_blk (t : Fin cfg4.N) (i : S50000x64.Idx) :
    i ∈ ((cfg4.win 7).blk t).view.set
      ↔ ∀ a : Fin 2, win4_7.index t a * S5000x64.size a ≤ (i a).val
          ∧ (i a).val < win4_7.index t a * S5000x64.size a + S5000x64.size a := by
  show i ∈ ((View.whole main_v39).slice (win4_7.rect t)).set ↔ _
  rw [View.set_slice_whole, Rect.mem_set_unit]
  exact Iff.rfl

/-- The blocks tile the output table: row `r` lies in block `r / 5000`. -/
private theorem cover (i : S50000x64.Idx) :
    ∃ t : Fin cfg4.N, (cfg4.win 7).flush t = true ∧ i ∈ ((cfg4.win 7).blk t).view.set := by
  have hi0 : (i 0).val < 50000 := (i 0).isLt
  have hi1 : (i 1).val < 64 := (i 1).isLt
  obtain ⟨t, ht⟩ := idx_onto ⟨(i 0).val / 5000, by omega⟩
  have q0 : win4_7.index t (0 : Fin 2) = (i 0).val / 5000 := ht
  obtain ⟨-, -, -, -, -, -, -, -, -, -, -, -, -, -, e0, e1⟩ := idx_facts t
  refine ⟨t, flush4_7 t, ?_⟩
  rw [mem_blk]
  intro a
  match a with
  | ⟨0, _⟩ =>
    show win4_7.index t (0 : Fin 2) * 5000 ≤ (i 0).val ∧ (i 0).val < win4_7.index t (0 : Fin 2) * 5000 + 5000
    omega
  | ⟨1, _⟩ =>
    show win4_7.index t (1 : Fin 2) * 64 ≤ (i 1).val ∧ (i 1).val < win4_7.index t (1 : Fin 2) * 64 + 64
    omega

/-- The region's output table after its last block: the update row function, with the weights and biases the region
    finds (the two halves of the first layer's weights being the upper and the lower 64 rows of one `[128, 64]` matrix
    `W`), applied to every pair of rows of the node table and the message table it finds. -/
theorem final (c : Dev nD) (W : (⟨2, ![128, 64]⟩ : Shape).Idx → EReal)
    (ha : ∀ (k j : Fin 64), (V c main_v35 : (⟨2, ![64, 64]⟩ : Shape).Idx → EReal) (ix2 k j) = W (ix2 (Fin.castAdd 64 k) j))
    (hb : ∀ (k j : Fin 64), (V c main_v36 : (⟨2, ![64, 64]⟩ : Shape).Idx → EReal) (ix2 k j) = W (ix2 (Fin.natAdd 64 k) j)) :
    (dat4 (F := 𝕀) V c).arrAt 7 cfg4.N
      = rowsMap2 (R := 50000)
          (updRow (mat (A := 128) (B := 64) W) (vecRow (B := 64) (V c main_v37))
            (mat (A := 64) (B := 64) (V c main_arg22)) (vecRow (B := 64) (V c main_v38)))
          (V c main_v24) (V c main_v34) :=
  -- every point writes back its block of one whole-table function, and the blocks cover the table
  (dat4 (F := 𝕀) V c).arrAt_eq_of_cover 7 _ (fun t _ => flushed_eq V c W ha hb t) cover

end Cert.Gnn.K4

end
-- ==== Proof.KernelValue2.lean ====
/-
  The kernel program's tables from the first graph convolution to the second.

  From the boundary after region 2 the fold goes on: region 3 leaves the second message block's table; the masked
  gather, the scaled messages added up at the target nodes and the halves of the second update block's weights
  follow; region 4 leaves the node table after the second convolution.
-/
import proofs.«408577_j31361851195877_2_alg».proof.Proof.KernelValue1
import proofs.«408577_j31361851195877_2_alg».proof.Proof.Blocks3
import proofs.«408577_j31361851195877_2_alg».proof.Proof.Blocks4

set_option maxRecDepth 16384

noncomputable section

namespace Cert.Gnn.KV

open Idealize.ShloMosaic Idealize.ShloMosaic.TcCoe Idealize.ShloMosaic.ValueIdx Idealize.SL.Sem
open Cert.KernelIdeal Cert.KernelIdeal.Gen Cert.Gnn

local notation "𝕀" => Idealize.ShloMosaic.Ideal

variable (m : (ℓ : Loc nD τ sig) → Buf (Elt 𝕀) ℓ) (ρ : Dev nD → PrngReg)

/-! ## Reading a typed reference

A module-local function's operations name their buffers by references that carry the tensor type, and move the
contents to and from the buffer's own type. Read back at the carried type the moves cancel: the read of the result of
an operation is its function of the reads of its operands, and the read of any other reference is unchanged. -/

section Typed
variable {T Ta Tb Tc Ty : BufTy}

/-- A typed reference's buffer read at the carried type. -/
private def rd (x : StableHlo.TRef sig T) (V : Valuation τ sig (Elt 𝕀)) : T.Contents (Elt 𝕀) :=
  x.ofBuf (V (Proc.devRef .tc x.ref))

/-- Moving contents to the buffer's type and back is the identity. -/
private theorem ofBuf_toBuf (x : StableHlo.TRef sig T) (v : T.Contents (Elt 𝕀)) : x.ofBuf (x.toBuf v) = v := by
  obtain ⟨r, h, h1, h2⟩ := x
  subst h
  rfl

private theorem rd_nullary (y : StableHlo.TRef sig Ty) (v : Ty.Contents (Elt 𝕀)) (F : Valuation τ sig (Elt 𝕀)) :
    rd y ((StableHlo.TRef.nullary (τ := τ) y v).result F) = v :=
  (congrArg y.ofBuf (StableHlo.nullary_result y.ref (y.toBuf v) y.dev F)).trans (ofBuf_toBuf y v)

private theorem rd_unary (a : StableHlo.TRef sig Ta) (y : StableHlo.TRef sig Ty) (f : Ta.Contents (Elt 𝕀) → Ty.Contents (Elt 𝕀))
    (F : Valuation τ sig (Elt 𝕀)) : rd y ((StableHlo.TRef.unary (τ := τ) a y f).result F) = f (rd a F) :=
  (congrArg y.ofBuf (StableHlo.unary_result a.ref y.ref _ a.dev y.dev F)).trans (ofBuf_toBuf y _)

private theorem rd_binary (a : StableHlo.TRef sig Ta) (b : StableHlo.TRef sig Tb) (y : StableHlo.TRef sig Ty)
    (f : Ta.Contents (Elt 𝕀) → Tb.Contents (Elt 𝕀) → Ty.Contents (Elt 𝕀)) (F : Valuation τ sig (Elt 𝕀)) :
    rd y ((StableHlo.TRef.binary (τ := τ) a b y f).result F) = f (rd a F) (rd b F) :=
  (congrArg y.ofBuf (StableHlo.binary_result a.ref b.ref y.ref _ a.dev b.dev y.dev F)).trans (ofBuf_toBuf y _)

private theorem rd_ternary (c : StableHlo.TRef sig Tc) (a : StableHlo.TRef sig Ta) (b : StableHlo.TRef sig Tb) (y : StableHlo.TRef sig Ty)
    (f : Tc.Contents (Elt 𝕀) → Ta.Contents (Elt 𝕀) → Tb.Contents (Elt 𝕀) → Ty.Contents (Elt 𝕀)) (F : Valuation τ sig (Elt 𝕀)) :
    rd y ((StableHlo.TRef.ternary (τ := τ) c a b y f).result F) = f (rd c F) (rd a F) (rd b F) :=
  (congrArg y.ofBuf (StableHlo.ternary_result c.ref a.ref b.ref y.ref _ c.dev a.dev b.dev y.dev F)).trans (ofBuf_toBuf y _)

private theorem rd_nullary_ne (y : StableHlo.TRef sig Ty) (v : Ty.Contents (Elt 𝕀)) (F : Valuation τ sig (Elt 𝕀))
    (x : StableHlo.TRef sig T) (h : x.ref ≠ y.ref) : rd x ((StableHlo.TRef.nullary (τ := τ) y v).result F) = rd x F :=
  congrArg x.ofBuf (StableHlo.nullary_result_ne y.ref _ y.dev F h)

private theorem rd_unary_ne (a : StableHlo.TRef sig Ta) (y : StableHlo.TRef sig Ty) (f : Ta.Contents (Elt 𝕀) → Ty.Contents (Elt 𝕀))
    (F : Valuation τ sig (Elt 𝕀)) (x : StableHlo.TRef sig T) (h : x.ref ≠ y.ref) :
    rd x ((StableHlo.TRef.unary (τ := τ) a y f).result F) = rd x F :=
  congrArg x.ofBuf (StableHlo.unary_result_ne a.ref y.ref _ a.dev y.dev F h)

private theorem rd_binary_ne (a : StableHlo.TRef sig Ta) (b : StableHlo.TRef sig Tb) (y : StableHlo.TRef sig Ty)
    (f : Ta.Contents (Elt 𝕀) → Tb.Contents (Elt 𝕀) → Ty.Contents (Elt 𝕀)) (F : Valuation τ sig (Elt 𝕀))
    (x : StableHlo.TRef sig T) (h : x.ref ≠ y.ref) : rd x ((StableHlo.TRef.binary (τ := τ) a b y f).result F) = rd x F :=
  congrArg x.ofBuf (StableHlo.binary_result_ne a.ref b.ref y.ref _ a.dev b.dev y.dev F h)

private theorem rd_ternary_ne (c : StableHlo.TRef sig Tc) (a : StableHlo.TRef sig Ta) (b : StableHlo.TRef sig Tb) (y : StableHlo.TRef sig Ty)
    (f : Tc.Contents (Elt 𝕀) → Ta.Contents (Elt 𝕀) → Tb.Contents (Elt 𝕀) → Ty.Contents (Elt 𝕀)) (F : Valuation τ sig (Elt 𝕀))
    (x : StableHlo.TRef sig T) (h : x.ref ≠ y.ref) : rd x ((StableHlo.TRef.ternary (τ := τ) c a b y f).result F) = rd x F :=
  congrArg x.ofBuf (StableHlo.ternary_result_ne a.ref b.ref c.ref y.ref _ c.dev a.dev b.dev y.dev F h)

end Typed

/-- Follows the read of a typed reference back through a literal stretch of typed operations, outermost operation
    first: the stretch's own result by its function, any other reference unchanged. -/
local macro "rd_results" : tactic =>
  `(tactic| (simp only [StableHlo.after_cons, StableHlo.after_nil]
             repeat (first
               | rw [rd_nullary] | rw [rd_unary] | rw [rd_binary] | rw [rd_ternary]
               | (rw [rd_nullary_ne]; rotate_left; decide)
               | (rw [rd_unary_ne]; rotate_left; decide)
               | (rw [rd_binary_ne]; rotate_left; decide)
               | (rw [rd_ternary_ne]; rotate_left; decide))))
/-! ## The stretch before region 3: two bias rows -/

/-- The references the stretch before region 3 writes. -/
private abbrev ops3W : List (Ref sig .tc) := [main_v25, main_v26]

private theorem ops3_writes : (hostOps3 : List (HloOp τ sig (Elt 𝕀))).Forall fun op =>
    op.writes ⊆ (ops3W.map (Proc.devRef (τ := τ) .tc)).toFinset := by
  simp only [hostOps3, List.Forall, StableHlo.reshape_writes, Finset.singleton_subset_iff, List.mem_toFinset]
  repeat' apply And.intro
  all_goals exact List.mem_map_of_mem (by decide)

/-- A buffer the stretch does not write is as it was after region 2. -/
private theorem W8_keep (c : Dev nD) (r : Ref sig .tc) (h : r ∉ ops3W) :
    W8 (F := 𝕀) m ρ c (Proc.devRef .tc r) = W7 (F := 𝕀) m ρ c (Proc.devRef .tc r) :=
  StableHlo.after_of_writes_sub hostOps3 _ ops3_writes h

private theorem W8_v25 (c : Dev nD) :
    W8 (F := 𝕀) m ρ c (Proc.devRef .tc main_v25) = shapeCast S1x64 (kArgs m c).a17 shapeCasts_S64_S1x64 := by
  show StableHlo.after hostOps3 _ (Proc.devRef .tc main_v25) = _
  after_results
  rw [W7_args m ρ c main_arg17 (by decide)]
  rfl

private theorem W8_v26 (c : Dev nD) :
    W8 (F := 𝕀) m ρ c (Proc.devRef .tc main_v26) = shapeCast S1x64 (kArgs m c).a19 shapeCasts_S64_S1x64 := by
  show StableHlo.after hostOps3 _ (Proc.devRef .tc main_v26) = _
  after_results
  rw [W7_args m ρ c main_arg19 (by decide)]
  rfl

/-- A bias vector seen as a one-row table has the vector as its row. -/
private theorem vecRow_cast (b : FVec 𝕀 S64 .f32) (h : S64.ShapeCasts S1x64) :
    vecRow (B := 64) (shapeCast S1x64 b h) = vec1 b := by
  funext j
  exact shapeCast_a_1a_apply b h 0 j

private theorem W8_x1 (c : Dev nD) : W8 (F := 𝕀) m ρ c (Proc.devRef .tc main_v24) = K.x1 (kArgs m c) :=
  (W8_keep m ρ c main_v24 (by decide)).trans (W7_x1 m ρ c)

private theorem W8_arg (c : Dev nD) : ∀ b ∈ ([main_arg3, main_arg16, main_arg18, main_arg20, main_arg21, main_arg22, main_arg23,
      main_arg24, main_arg25, main_arg26, main_arg27, main_arg28, main_arg29] : List (Ref sig .tc)),
    W8 (F := 𝕀) m ρ c (Proc.devRef .tc b) = W0 (F := 𝕀) m ρ c (Proc.devRef .tc b) := fun b hb =>
  (W8_keep m ρ c b ((by decide : ∀ b ∈ ([main_arg3, main_arg16, main_arg18, main_arg20, main_arg21, main_arg22, main_arg23,
      main_arg24, main_arg25, main_arg26, main_arg27, main_arg28, main_arg29] : List (Ref sig .tc)), b ∉ ops3W) b hb)).trans
    (W7_args m ρ c b ((by decide : ∀ b ∈ ([main_arg3, main_arg16, main_arg18, main_arg20, main_arg21, main_arg22, main_arg23,
      main_arg24, main_arg25, main_arg26, main_arg27, main_arg28, main_arg29] : List (Ref sig .tc)),
      b ∈ ([main_arg3, main_arg16, main_arg17, main_arg18, main_arg19, main_arg20, main_arg21, main_arg22, main_arg23,
        main_arg24, main_arg25, main_arg26, main_arg27, main_arg28, main_arg29] : List (Ref sig .tc))) b hb))

/-! ## Region 3: the second message block -/

/-- The second message block's table. -/
private theorem W9_msg (c : Dev nD) : W9 (F := 𝕀) m ρ c (Proc.devRef .tc main_v27)
    = ffn (kArgs m c).a16 (kArgs m c).a17 (kArgs m c).a18 (kArgs m c).a19 (K.x1 (kArgs m c)) := by
  refine (W9_arr m ρ c 5).trans ((K3.final (V8 m ρ) c).trans ?_)
  dsimp only [V8]
  rw [W8_v25 m ρ c, W8_v26 m ρ c, W8_x1 m ρ c, W8_arg m ρ c main_arg16 (by decide), W8_arg m ρ c main_arg18 (by decide),
    vecRow_cast, vecRow_cast]
  rfl

/-- Region 3 writes its output table only: the neighbour row, the edge weights, the target-node row, the node table
    (which it reads) and the arguments are as at its entry. -/
private theorem W9_nbr (c : Dev nD) : W9 (F := 𝕀) m ρ c (Proc.devRef .tc main_v6) = K.nbr (kArgs m c) :=
  (W9_of_ne m ρ c main_v6 (by decide)).trans ((W8_keep m ρ c main_v6 (by decide)).trans (W7_nbr m ρ c))
private theorem W9_ew (c : Dev nD) : W9 (F := 𝕀) m ρ c (Proc.devRef .tc main_v2) = K.ew (kArgs m c) :=
  (W9_of_ne m ρ c main_v2 (by decide)).trans ((W8_keep m ρ c main_v2 (by decide)).trans (W7_ew m ρ c))
private theorem W9_node (c : Dev nD) : W9 (F := 𝕀) m ρ c (Proc.devRef .tc main_v4) = K.node (kArgs m c) :=
  (W9_of_ne m ρ c main_v4 (by decide)).trans ((W8_keep m ρ c main_v4 (by decide)).trans (W7_node m ρ c))
private theorem W9_x1 (c : Dev nD) : W9 (F := 𝕀) m ρ c (Proc.devRef .tc main_v24) = K.x1 (kArgs m c) :=
  (W9_arr m ρ c 0).trans (((dat3 (V8 m ρ) c).arrAt_in 0 rfl _).trans ((A_eq3 (V8 m ρ) c 0).trans (W8_x1 m ρ c)))
private theorem W9_arg (c : Dev nD) : ∀ b ∈ ([main_arg3, main_arg20, main_arg21, main_arg22, main_arg23, main_arg24, main_arg25, main_arg26, main_arg27, main_arg28, main_arg29] : List (Ref sig .tc)),
    W9 (F := 𝕀) m ρ c (Proc.devRef .tc b) = W0 (F := 𝕀) m ρ c (Proc.devRef .tc b) := fun b hb =>
  (W9_of_ne m ρ c b ((by decide : ∀ b ∈ ([main_arg3, main_arg20, main_arg21, main_arg22, main_arg23, main_arg24, main_arg25, main_arg26, main_arg27, main_arg28, main_arg29] : List (Ref sig .tc)), ∀ w, Pipeline.arrRef spec3 w ≠ b) b hb)).trans
    (W8_arg m ρ c b ((by decide : ∀ b ∈ ([main_arg3, main_arg20, main_arg21, main_arg22, main_arg23, main_arg24, main_arg25, main_arg26, main_arg27, main_arg28, main_arg29] : List (Ref sig .tc)), b ∈ ([main_arg3, main_arg16, main_arg18, main_arg20, main_arg21, main_arg22, main_arg23,
      main_arg24, main_arg25, main_arg26, main_arg27, main_arg28, main_arg29] : List (Ref sig .tc))) b hb))

/-! ## The masked gather of the neighbours' rows -/

/-- The references the gather's stretch writes. -/
private abbrev ops4W : List (Ref sig .tc) := [main_call1_c, main_call1_v0, main_call1_v1, main_call1_c_0, main_call1_v2,
  main_call1_v3, main_call1_v4, main_call1_v5, main_call1_c_1, main_call1_c_2, main_call1_v6, main_call1_v7, main_call1_v8,
  main_call1_v9, main_call1_v10, main_call1_v11, main_call1_c_3, main_call1_v12, main_call1_v13, main_call1_v14,
  main_call1_cst, main_call1_v15, main_v28]

private theorem ops4_writes : (hostOps4 : List (HloOp τ sig (Elt 𝕀))).Forall fun op =>
    op.writes ⊆ (ops4W.map (Proc.devRef (τ := τ) .tc)).toFinset := by
  simp only [hostOps4, List.Forall, StableHlo.nullary_writes, StableHlo.unary_writes, StableHlo.binary_writes,
    StableHlo.ternary_writes, Finset.singleton_subset_iff, List.mem_toFinset]
  repeat' apply And.intro
  all_goals exact List.mem_map_of_mem (by decide)

private theorem W10_keep (c : Dev nD) (r : Ref sig .tc) (h : r ∉ ops4W) :
    W10 (F := 𝕀) m ρ c (Proc.devRef .tc r) = W9 (F := 𝕀) m ρ c (Proc.devRef .tc r) :=
  StableHlo.after_of_writes_sub hostOps4 _ ops4_writes h

/-- The gathered rows of the second message block's table. -/
private theorem W10_take (c : Dev nD) : W10 (F := 𝕀) m ρ c (Proc.devRef .tc main_v28)
    = K.takeE (kArgs m c) (ffn (kArgs m c).a16 (kArgs m c).a17 (kArgs m c).a18 (kArgs m c).a19 (K.x1 (kArgs m c))) := by
  show rd (.of main_v28 : StableHlo.TRef sig ⟨S800000x64, .f32⟩) (StableHlo.after hostOps4 (W9 (F := 𝕀) m ρ c)) = _
  rd_results
  have e6 : rd (.of main_v6 : StableHlo.TRef sig ⟨S800000, .i32⟩) (W9 (F := 𝕀) m ρ c) = K.nbr (kArgs m c) := W9_nbr m ρ c
  have e27 : rd (.of main_v27 : StableHlo.TRef sig ⟨S50000x64, .f32⟩) (W9 (F := 𝕀) m ρ c)
      = ffn (kArgs m c).a16 (kArgs m c).a17 (kArgs m c).a18 (kArgs m c).a19 (K.x1 (kArgs m c)) := W9_msg m ρ c
  rw [e6, e27]
  rfl

/-- The gather's stretch leaves the edge weights, the target-node row, the node table and the arguments alone. -/
private theorem W10_ew (c : Dev nD) : W10 (F := 𝕀) m ρ c (Proc.devRef .tc main_v2) = K.ew (kArgs m c) :=
  (W10_keep m ρ c main_v2 (by decide)).trans (W9_ew m ρ c)
private theorem W10_node (c : Dev nD) : W10 (F := 𝕀) m ρ c (Proc.devRef .tc main_v4) = K.node (kArgs m c) :=
  (W10_keep m ρ c main_v4 (by decide)).trans (W9_node m ρ c)
private theorem W10_x1 (c : Dev nD) : W10 (F := 𝕀) m ρ c (Proc.devRef .tc main_v24) = K.x1 (kArgs m c) :=
  (W10_keep m ρ c main_v24 (by decide)).trans (W9_x1 m ρ c)
private theorem W10_arg (c : Dev nD) : ∀ b ∈ ([main_arg3, main_arg20, main_arg21, main_arg22, main_arg23, main_arg24, main_arg25, main_arg26, main_arg27, main_arg28, main_arg29] : List (Ref sig .tc)),
    W10 (F := 𝕀) m ρ c (Proc.devRef .tc b) = W0 (F := 𝕀) m ρ c (Proc.devRef .tc b) := fun b hb =>
  (W10_keep m ρ c b ((by decide : ∀ b ∈ ([main_arg3, main_arg20, main_arg21, main_arg22, main_arg23, main_arg24, main_arg25, main_arg26, main_arg27, main_arg28, main_arg29] : List (Ref sig .tc)), b ∉ ops4W) b hb)).trans (W9_arg m ρ c b hb)

/-! ## The messages added up at the target nodes; the second update block's weights and bias rows -/

/-- The references the stretch before region 4 writes. -/
private abbrev ops41W : List (Ref sig .tc) := [main_v29, main_v30, main_v31, main_cst_1, main_v32, main_v33, main_v34, main_v35,
  main_v36, main_v37, main_v38]

private theorem ops41_writes : (hostOps4_1 : List (HloOp τ sig (Elt 𝕀))).Forall fun op =>
    op.writes ⊆ (ops41W.map (Proc.devRef (τ := τ) .tc)).toFinset := by
  simp only [hostOps4_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

private theorem W11_keep (c : Dev nD) (r : Ref sig .tc) (h : r ∉ ops41W) :
    W11 (F := 𝕀) m ρ c (Proc.devRef .tc r) = W10 (F := 𝕀) m ρ c (Proc.devRef .tc r) :=
  StableHlo.after_of_writes_sub hostOps4_1 _ ops41_writes h

/-- The gathered rows scaled by the edge weights and added up at the target nodes. -/
private theorem W11_agg (c : Dev nD) : W11 (F := 𝕀) m ρ c (Proc.devRef .tc main_v34)
    = K.agg (kArgs m c) (K.takeE (kArgs m c) (ffn (kArgs m c).a16 (kArgs m c).a17 (kArgs m c).a18 (kArgs m c).a19 (K.x1 (kArgs m c)))) := by
  have h2 := W10_ew m ρ c
  have h4 := W10_node m ρ c
  have h28 := W10_take m ρ c
  show StableHlo.after hostOps4_1 (W10 (F := 𝕀) m ρ c) (Proc.devRef .tc main_v34) = _
  generalize W10 (F := 𝕀) m ρ c = V at h2 h4 h28 ⊢
  after_results_simp
  rw [h2, h4, h28]
  rfl

/-- The two halves of the second update block's first weights. -/
private theorem W11_v35 (c : Dev nD) : W11 (F := 𝕀) m ρ c (Proc.devRef .tc main_v35)
    = extractStridedSlice S64x64 ![0, 0] (kArgs m c).a20 slices_S128x64_S64x64_0_0 := by
  have h := W10_arg m ρ c main_arg20 (by decide)
  show StableHlo.after hostOps4_1 (W10 (F := 𝕀) m ρ c) (Proc.devRef .tc main_v35) = _
  generalize W10 (F := 𝕀) m ρ c = V at h ⊢
  after_results
  rw [h]
  rfl
private theorem W11_v36 (c : Dev nD) : W11 (F := 𝕀) m ρ c (Proc.devRef .tc main_v36)
    = extractStridedSlice S64x64 ![64, 0] (kArgs m c).a20 slices_S128x64_S64x64_64_0 := by
  have h := W10_arg m ρ c main_arg20 (by decide)
  show StableHlo.after hostOps4_1 (W10 (F := 𝕀) m ρ c) (Proc.devRef .tc main_v36) = _
  generalize W10 (F := 𝕀) m ρ c = V at h ⊢
  after_results
  rw [h]
  rfl

/-- Its two bias rows. -/
private theorem W11_v37 (c : Dev nD) : W11 (F := 𝕀) m ρ c (Proc.devRef .tc main_v37)
    = shapeCast S1x64 (kArgs m c).a21 shapeCasts_S64_S1x64 := by
  have h := W10_arg m ρ c main_arg21 (by decide)
  show StableHlo.after hostOps4_1 (W10 (F := 𝕀) m ρ c) (Proc.devRef .tc main_v37) = _
  generalize W10 (F := 𝕀) m ρ c = V at h ⊢
  after_results
  rw [h]
  rfl
private theorem W11_v38 (c : Dev nD) : W11 (F := 𝕀) m ρ c (Proc.devRef .tc main_v38)
    = shapeCast S1x64 (kArgs m c).a23 shapeCasts_S64_S1x64 := by
  have h := W10_arg m ρ c main_arg23 (by decide)
  show StableHlo.after hostOps4_1 (W10 (F := 𝕀) m ρ c) (Proc.devRef .tc main_v38) = _
  generalize W10 (F := 𝕀) m ρ c = V at h ⊢
  after_results
  rw [h]
  rfl

private theorem W11_x1 (c : Dev nD) : W11 (F := 𝕀) m ρ c (Proc.devRef .tc main_v24) = K.x1 (kArgs m c) :=
  (W11_keep m ρ c main_v24 (by decide)).trans (W10_x1 m ρ c)
private theorem W11_arg22 (c : Dev nD) : W11 (F := 𝕀) m ρ c (Proc.devRef .tc main_arg22) = (kArgs m c).a22 :=
  (W11_keep m ρ c main_arg22 (by decide)).trans (W10_arg m ρ c main_arg22 (by decide))
private theorem W11_arg (c : Dev nD) : ∀ b ∈ ([main_arg3, main_arg24, main_arg25, main_arg26, main_arg27, main_arg28, main_arg29] : List (Ref sig .tc)),
    W11 (F := 𝕀) m ρ c (Proc.devRef .tc b) = W0 (F := 𝕀) m ρ c (Proc.devRef .tc b) := fun b hb =>
  (W11_keep m ρ c b ((by decide : ∀ b ∈ ([main_arg3, main_arg24, main_arg25, main_arg26, main_arg27, main_arg28, main_arg29] : List (Ref sig .tc)), b ∉ ops41W) b hb)).trans
    (W10_arg m ρ c b ((by decide : ∀ b ∈ ([main_arg3, main_arg24, main_arg25, main_arg26, main_arg27, main_arg28, main_arg29] : List (Ref sig .tc)), b ∈ ([main_arg3, main_arg20, main_arg21, main_arg22, main_arg23, main_arg24, main_arg25, main_arg26, main_arg27, main_arg28, main_arg29] : List (Ref sig .tc))) b hb))

/-! ## Region 4: the second update block -/

/-- The arguments the tail of the program still reads are, at the boundary after region 4, as launched. -/
theorem W12_args (c : Dev nD) :
    ∀ b ∈ ([main_arg3, main_arg24, main_arg25, main_arg26, main_arg27, main_arg28, main_arg29] : List (Ref sig .tc)),
      W12 (F := 𝕀) m ρ c (Proc.devRef .tc b) = W0 (F := 𝕀) m ρ c (Proc.devRef .tc b) := fun b hb =>
  (W12_of_ne m ρ c b ((by decide : ∀ b ∈ ([main_arg3, main_arg24, main_arg25, main_arg26, main_arg27, main_arg28, main_arg29] : List (Ref sig .tc)), ∀ w, Pipeline.arrRef spec4 w ≠ b) b hb)).trans
    (W11_arg m ρ c b hb)

/-- The node table after the second convolution, at the boundary after region 4. -/
theorem W12_x2 (c : Dev nD) : W12 (F := 𝕀) m ρ c (Proc.devRef .tc main_v39) = K.x2 (kArgs m c) := by
  -- the two halves the region reads are rows 0–63 and 64–127 of the launch's [128, 64] weights
  have ha : ∀ (k j : Fin 64), (V11 (F := 𝕀) m ρ c main_v35 : (⟨2, ![64, 64]⟩ : Shape).Idx → EReal) (ix2 k j)
      = (kArgs m c).a20 (ix2 (Fin.castAdd 64 k) j) := by
    intro k j
    show W11 (F := 𝕀) m ρ c (Proc.devRef .tc main_v35) (ix2 k j) = _
    rw [W11_v35 m ρ c]
    exact slice2_axis0_apply 0 _ _ k j (Fin.castAdd 64 k) (Nat.zero_add _).symm
  have hb : ∀ (k j : Fin 64), (V11 (F := 𝕀) m ρ c main_v36 : (⟨2, ![64, 64]⟩ : Shape).Idx → EReal) (ix2 k j)
      = (kArgs m c).a20 (ix2 (Fin.natAdd 64 k) j) := by
    intro k j
    show W11 (F := 𝕀) m ρ c (Proc.devRef .tc main_v36) (ix2 k j) = _
    rw [W11_v36 m ρ c]
    exact slice2_axis0_apply 64 _ _ k j (Fin.natAdd 64 k) rfl
  refine (W12_arr m ρ c 7).trans ((K4.final (V11 m ρ) c (kArgs m c).a20 ha hb).trans ?_)
  dsimp only [V11]
  rw [W11_v37 m ρ c, W11_v38 m ρ c, W11_x1 m ρ c, W11_agg m ρ c, W11_arg22 m ρ c, vecRow_cast, vecRow_cast]
  rfl

end Cert.Gnn.KV

end
-- ==== Proof.Blocks5.lean ====
/-
  Region 5: a feed-forward block applied to a table in blocks of one block of 4096 rows.

  The region sweeps its input table in a single block; at each block the body loads the block of rows and the whole weights and
  biases, and stores the feed-forward block of those rows. A feed-forward block acts on each row by itself, so what
  block `t` writes back is block `t` of the row function applied to every row of the whole input table; the blocks
  tile the output table, so after the last block the output table IS that function of the input table.
-/
import proofs.«408577_j31361851195877_2_alg».proof.Proof.Gen.KernelIdeal.Frame
import proofs.«408577_j31361851195877_2_alg».proof.Proof.Spec
import proofs.«408577_j31361851195877_2_alg».proof.Proof.RowsKer
import Idealize.ShloMosaic.Lib.Pipeline.Value

set_option maxRecDepth 16384

noncomputable section

namespace Cert.Gnn.K5

open Idealize.ShloMosaic Idealize.ShloMosaic.TcCoe Idealize.ShloMosaic.ValueIdx Idealize.SL.Sem
open Cert.KernelIdeal Cert.KernelIdeal.Gen Cert.Gnn

local notation "𝕀" => Idealize.ShloMosaic.Ideal

variable (V : (c : Dev nD) → (b : Ref sig .tc) → Buf (Elt 𝕀) ((c : Thread nD τ).loc b))

/-! ## The body's arithmetic on one block of rows -/

/-- The offsets of a whole-block access are all zero. -/
private theorem hz : (![0, 0] : Fin 2 → Nat) = fun _ => 0 := funext fun a => by fin_cases a <;> rfl

/-- What the body stores is two dense layers with GELU between them: product plus bias, GELU, product plus bias
    (the loaded rows first recast to their own shape, which changes nothing). -/
private theorem pay_unfold (x0 : Vec 𝕀 S4096x64 .f32) (x1 : Vec 𝕀 S64x64 .f32) (x2 : Vec 𝕀 S1x64 .f32) (x3 : Vec 𝕀 S64x64 .f32)
    (x4 : Vec 𝕀 S1x64 .f32) :
    k5_pay1 x0 x1 x2 x3 x4
      = addf (kerMm bitsLt_bf16_f32
            (kerGelu (addf (kerMm bitsLt_bf16_f32 (shapeCast S4096x64 x0 shapeCasts_S4096x64_S4096x64) x1) (kerBias shapeCasts_S1x64_S1x64 broadcasts_S1x64_S4096x64 x2))) x3)
          (kerBias shapeCasts_S1x64_S1x64 broadcasts_S1x64_S4096x64 x4) := rfl

/-- So it is the feed-forward row function, with the loaded weights and biases, on every row of the loaded block. -/
private theorem pay_eq (x0 : Vec 𝕀 S4096x64 .f32) (x1 : Vec 𝕀 S64x64 .f32) (x2 : Vec 𝕀 S1x64 .f32) (x3 : Vec 𝕀 S64x64 .f32)
    (x4 : Vec 𝕀 S1x64 .f32) :
    k5_pay1 x0 x1 x2 x3 x4
      = rowsMap (R := 4096) (C := 64)
          (ffnRow (mat (A := 64) (B := 64) x1) (vecRow (B := 64) x2) (mat (A := 64) (B := 64) x3) (vecRow (B := 64) x4)) x0 := by
  rw [pay_unfold, shapeCast_self, kerDense_eq, kerDense_eq]
  refine table_ext fun r j => ?_
  rw [rowsMap_apply, rowsMap_apply]
  -- the second layer's input row is GELU of the first layer's output row, entry by entry
  unfold ffnRow
  congr 1

/-! ## Where each window's block sits in its table -/

/-- The block index of every window at the region's one point: the row windows (input rows, output rows) are at
    block `t` along the rows and block 0 along the columns; the weight and bias windows stay at block 0. -/
private theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry `(r, l)` of the block of input rows at point `t` is entry `(4096 t + r, l)` of the input table. -/
private theorem iblk_w0 (c : Dev nD) (t : Fin cfg5.N) (r : Fin 4096) (l : Fin 64) (h : t.val * 4096 + r.val < 4096) :
    (iblk5 V c 0 t : Vec 𝕀 S4096x64 .f32) (ix2 r l) = V c main_v40 (ix2 ⟨t.val * 4096 + r.val, h⟩ l) := by
  obtain ⟨e0, e1, -⟩ := idx_facts t
  show V c main_v40 (((cfg5.win 0).blk t).view.emb (ix2 r l)) = V c main_v40 _
  congr 1
  funext a
  apply Fin.ext
  match a with
  | ⟨0, _⟩ => show win5_0.index t (0 : Fin 2) * 4096 + 1 * r.val = t.val * 4096 + r.val; rw [e0]; omega
  | ⟨1, _⟩ => show win5_0.index t (1 : Fin 2) * 64 + 1 * l.val = l.val; rw [e1]; omega

/-- The block of the first layer's weights is the whole table of them, at every point. -/
private theorem iblk_w1 (c : Dev nD) (t : Fin cfg5.N) : (iblk5 V c 1 t : Vec 𝕀 S64x64 .f32) = V c main_arg24 := by
  obtain ⟨-, -, e0, e1, -⟩ := idx_facts t
  funext y
  show V c main_arg24 (((cfg5.win 1).blk t).view.emb y) = V c main_arg24 y
  congr 1
  funext a
  apply Fin.ext
  match a with
  | ⟨0, _⟩ => show win5_1.index t (0 : Fin 2) * 64 + 1 * (y 0).val = (y 0).val; rw [e0]; omega
  | ⟨1, _⟩ => show win5_1.index t (1 : Fin 2) * 64 + 1 * (y 1).val = (y 1).val; rw [e1]; omega

/-- The block of the first layer's biases is the whole one-row table of them. -/
private theorem iblk_w2 (c : Dev nD) (t : Fin cfg5.N) : (iblk5 V c 2 t : Vec 𝕀 S1x64 .f32) = V c main_v41 := by
  obtain ⟨-, -, -, -, e0, e1, -⟩ := idx_facts t
  funext y
  show V c main_v41 (((cfg5.win 2).blk t).view.emb y) = V c main_v41 y
  congr 1
  funext a
  apply Fin.ext
  match a with
  | ⟨0, _⟩ => show win5_2.index t (0 : Fin 2) * 1 + 1 * (y 0).val = (y 0).val; rw [e0]; omega
  | ⟨1, _⟩ => show win5_2.index t (1 : Fin 2) * 64 + 1 * (y 1).val = (y 1).val; rw [e1]; omega

/-- The block of the second layer's weights is the whole table of them. -/
private theorem iblk_w3 (c : Dev nD) (t : Fin cfg5.N) : (iblk5 V c 3 t : Vec 𝕀 S64x64 .f32) = V c main_arg26 := by
  obtain ⟨-, -, -, -, -, -, e0, e1, -⟩ := idx_facts t
  funext y
  show V c main_arg26 (((cfg5.win 3).blk t).view.emb y) = V c main_arg26 y
  congr 1
  funext a
  apply Fin.ext
  match a with
  | ⟨0, _⟩ => show win5_3.index t (0 : Fin 2) * 64 + 1 * (y 0).val = (y 0).val; rw [e0]; omega
  | ⟨1, _⟩ => show win5_3.index t (1 : Fin 2) * 64 + 1 * (y 1).val = (y 1).val; rw [e1]; omega

/-- The block of the second layer's biases is the whole one-row table of them. -/
private theorem iblk_w4 (c : Dev nD) (t : Fin cfg5.N) : (iblk5 V c 4 t : Vec 𝕀 S1x64 .f32) = V c main_v42 := by
  obtain ⟨-, -, -, -, -, -, -, -, e0, e1, -⟩ := idx_facts t
  funext y
  show V c main_v42 (((cfg5.win 4).blk t).view.emb y) = V c main_v42 y
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 64 + 1 * (y 1).val = (y 1).val; rw [e1]; omega

/-- Entry `(r, l)` of block `t` of a table shaped like the output is entry `(4096 t + r, l)` of that table. -/
private theorem read_w5 (c : Dev nD) (t : Fin cfg5.N) (T : S4096x64.Idx → EReal) (r : Fin 4096) (l : Fin 64)
    (h : t.val * 4096 + r.val < 4096) :
    (((cfg5.win 5).blk t).view.read (Elt 𝕀) T : Vec 𝕀 S4096x64 .f32) (ix2 r l) = T (ix2 ⟨t.val * 4096 + r.val, h⟩ l) := by
  obtain ⟨-, -, -, -, -, -, -, -, -, -, e0, e1⟩ := idx_facts t
  show T (((cfg5.win 5).blk t).view.emb (ix2 r l)) = T _
  congr 1
  funext a
  apply Fin.ext
  match a with
  | ⟨0, _⟩ => show win5_5.index t (0 : Fin 2) * 4096 + 1 * r.val = t.val * 4096 + r.val; rw [e0]; omega
  | ⟨1, _⟩ => show win5_5.index t (1 : Fin 2) * 64 + 1 * l.val = l.val; rw [e1]; omega

/-! ## What each block writes back, and the table after the last block -/

/-- What point `t` writes back is block `t` of the feed-forward row function applied to every row of the input table:
    row `r` of the stored block is the row function of row `r` of the loaded block, which is row `4096 t + r` of the
    input table, and the weights and biases loaded are the whole tables. -/
private theorem flushed_eq (c : Dev nD) (t : Fin cfg5.N) :
    (dat5 (F := 𝕀) V c).flushed 5 t = ((cfg5.win 5).blk t).view.read (Elt 𝕀)
      (rowsMap (R := 4096) (C := 64)
          (ffnRow (mat (A := 64) (B := 64) (V c main_arg24)) (vecRow (B := 64) (V c main_v41))
            (mat (A := 64) (B := 64) (V c main_arg26)) (vecRow (B := 64) (V c main_v42)))
          (V c main_v40)) := by
  show (cfg5.win 5).cut (grid5.coords t) ((dat5 V c).after 5 t) = _
  rw [after5_5]
  unfold out5_5
  rw [View.canon_unit_zero hz]
  simp only [View.ld_unit_zero (S := S4096x64) hz, View.ld_unit_zero (S := S64x64) hz, View.ld_unit_zero (S := S1x64) hz]
  refine (pay_eq (iblk5 V c 0 t) (iblk5 V c 1 t) (iblk5 V c 2 t) (iblk5 V c 3 t) (iblk5 V c 4 t)).trans ?_
  rw [iblk_w1 V c t, iblk_w2 V c t, iblk_w3 V c t, iblk_w4 V c t]
  refine table_ext fun r l => ?_
  have ht : t.val < 1 := lt_of_lt_of_eq t.isLt N_5
  have h : t.val * 4096 + r.val < 4096 := by have := r.isLt; omega
  rw [read_w5 c t _ r l h, rowsMap_apply, rowsMap_apply]
  -- the same row function on both sides; the two rows agree entry by entry
  congr 1
  funext k
  exact iblk_w0 V c t r k h

/-- An index of the output table is in point `t`'s block iff each coordinate is in the block's range on its axis. -/
private theorem mem_blk (t : Fin cfg5.N) (i : S4096x64.Idx) :
    i ∈ ((cfg5.win 5).blk t).view.set ↔ ∀ a : Fin 2, win5_5.index t a * S4096x64.size a ≤ (i a).val
      ∧ (i a).val < win5_5.index t a * S4096x64.size a + S4096x64.size a := by
  show i ∈ ((View.whole main_v43).slice (win5_5.rect t)).set ↔ _
  rw [View.set_slice_whole, Rect.mem_set_unit]
  exact Iff.rfl

/-- The region's output table after its last block: the feed-forward row function, with the weights and biases the
    region finds, applied to every row of the input table it finds. -/
theorem final (c : Dev nD) :
    (dat5 (F := 𝕀) V c).arrAt 5 cfg5.N
      = rowsMap (R := 4096) (C := 64)
          (ffnRow (mat (A := 64) (B := 64) (V c main_arg24)) (vecRow (B := 64) (V c main_v41))
            (mat (A := 64) (B := 64) (V c main_arg26)) (vecRow (B := 64) (V c main_v42)))
          (V c main_v40) := by
  -- every point writes back its block of the one function; row `r` of the table lies in block `r / 4096`
  refine (dat5 V c).arrAt_eq_of_cover 5 _ (fun t _ => flushed_eq V c t) fun i => ?_
  have hi0 : (i 0).val < 4096 := (i 0).isLt
  have hi1 : (i 1).val < 64 := (i 1).isLt
  have hN : cfg5.N = 1 := N_5
  have hlt : (i 0).val / 4096 < cfg5.N := by rw [hN]; omega
  refine ⟨⟨(i 0).val / 4096, hlt⟩, flush5_5 _, ?_⟩
  rw [mem_blk]
  obtain ⟨-, -, -, -, -, -, -, -, -, -, e0, e1⟩ := idx_facts ⟨(i 0).val / 4096, hlt⟩
  have e0' : win5_5.index ⟨(i 0).val / 4096, hlt⟩ (0 : Fin 2) = (i 0).val / 4096 := e0
  intro a
  match a with
  | ⟨0, _⟩ =>
    show win5_5.index ⟨(i 0).val / 4096, hlt⟩ (0 : Fin 2) * 4096 ≤ (i 0).val
      ∧ (i 0).val < win5_5.index ⟨(i 0).val / 4096, hlt⟩ (0 : Fin 2) * 4096 + 4096
    rw [e0']; omega
  | ⟨1, _⟩ =>
    show win5_5.index ⟨(i 0).val / 4096, hlt⟩ (1 : Fin 2) * 64 ≤ (i 1).val
      ∧ (i 1).val < win5_5.index ⟨(i 0).val / 4096, hlt⟩ (1 : Fin 2) * 64 + 64
    rw [e1]; omega

end Cert.Gnn.K5

end
-- ==== Proof.KernelValue3.lean ====
/-
  The kernel program's tables from the second graph convolution to the result.

  Given the node table after the second convolution at the boundary after region 4, and the late arguments there as
  launched, the fold goes on: the masked gather of the query rows, the two bias rows of the last block, region 5 (the
  last feed-forward block on the gathered rows), and the last stretch (the small matrix product with the logits
  weights plus the broadcast logits bias).
-/
import proofs.«408577_j31361851195877_2_alg».proof.Proof.KernelValue1
import proofs.«408577_j31361851195877_2_alg».proof.Proof.Blocks5

set_option maxRecDepth 16384

noncomputable section

namespace Cert.Gnn.KV

open Idealize.ShloMosaic Idealize.ShloMosaic.TcCoe Idealize.ShloMosaic.ValueIdx Idealize.SL.Sem
open Cert.KernelIdeal Cert.KernelIdeal.Gen Cert.Gnn

local notation "𝕀" => Idealize.ShloMosaic.Ideal

variable (m : (ℓ : Loc nD τ sig) → Buf (Elt 𝕀) ℓ) (ρ : Dev nD → PrngReg)

/-! ## What the gather's stretch and the bias rows' stretch write -/

private abbrev wr5 : List (Ref sig .tc) :=
  [main_call2_c, main_call2_v0, main_call2_v1, main_call2_c_0, main_call2_v2, main_call2_v3, main_call2_v4, main_call2_v5,
    main_call2_c_1, main_call2_c_2, main_call2_v6, main_call2_v7, main_call2_v8, main_call2_v9, main_call2_v10, main_call2_v11,
    main_call2_c_3, main_call2_v12, main_call2_v13, main_call2_v14, main_call2_cst, main_call2_v15, main_v40]
private abbrev wr51 : List (Ref sig .tc) := [main_v41, main_v42]

private theorem wr5_writes : (hostOps5 : List (HloOp τ sig (Elt 𝕀))).Forall fun op =>
    op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
private theorem wr51_writes : (hostOps5_1 : List (HloOp τ sig (Elt 𝕀))).Forall fun op =>
    op.writes ⊆ (wr51.map (Proc.devRef (τ := τ) .tc)).toFinset := by
  simp only [hostOps5_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer a stretch does not write is, after the stretch, what it was before. -/
private theorem keep5 (V : Valuation τ sig (Elt 𝕀)) (r : Ref sig .tc) (h : r ∉ wr5) :
    StableHlo.after hostOps5 V (Proc.devRef .tc r) = V (Proc.devRef .tc r) :=
  StableHlo.after_of_writes_sub hostOps5 V wr5_writes h
private theorem keep51 (V : Valuation τ sig (Elt 𝕀)) (r : Ref sig .tc) (h : r ∉ wr51) :
    StableHlo.after hostOps5_1 V (Proc.devRef .tc r) = V (Proc.devRef .tc r) :=
  StableHlo.after_of_writes_sub hostOps5_1 V wr51_writes h

/-! ## Typed references, and a bias vector as a one-row table -/

/-- Contents moved to a typed reference's buffer type and back are the contents. -/
private theorem ofBuf_toBuf {T : BufTy} (x : StableHlo.TRef sig T) (v : T.Contents (Elt 𝕀)) : x.ofBuf (x.toBuf v) = v := by
  obtain ⟨r, rfl, _, _⟩ := x
  rfl
/-- Contents read through a typed reference are the buffer's contents; contents stored through one are the contents. -/
private theorem ofBuf_eq {T : BufTy} (x : StableHlo.TRef sig T) (w : x.ref.ty.Contents (Elt 𝕀)) (w' : T.Contents (Elt 𝕀))
    (h : HEq w w') : x.ofBuf w = w' := eq_of_heq ((cast_heq _ w).trans h)
private theorem toBuf_eq {T : BufTy} (x : StableHlo.TRef sig T) (v : T.Contents (Elt 𝕀)) (v' : x.ref.ty.Contents (Elt 𝕀))
    (h : HEq v v') : x.toBuf v = v' := eq_of_heq ((cast_heq _ v).trans h)

/-- A bias vector reshaped to a one-row table reads, as a row, as the vector. -/
private theorem vecRow_shapeCast {B : Nat} (b : (⟨1, ![B]⟩ : Shape).Idx → EReal)
    (h : (⟨1, ![B]⟩ : Shape).ShapeCasts ⟨2, ![1, B]⟩) : vecRow (shapeCast ⟨2, ![1, B]⟩ b h) = vec1 b := by
  funext j
  exact shapeCast_a_1a_apply b h 0 j

/-! ## The segments after region 4 -/

/-- After the gather's stretch: the masked gather of the node table's rows at the queries. -/
private theorem W13_v40 (c : Dev nD) :
    W13 (F := 𝕀) m ρ c (Proc.devRef .tc main_v40)
      = takeRows 49999#32 gather_S50000x64_S4096x1_S4096x64_1_0_n_n_0_1_164 bcast_S_S4096x1 bcast_S1_S1x1_1
          bcast_S1x1_S4096x1_0_1 reducesTo_S4096x1_S4096_d1 h_S_ bcast_S4096_S4096x64_0 bcast_S_S4096x64
          (W12 (F := 𝕀) m ρ c (Proc.devRef .tc main_v39))
          (startCol 50000#32 bcast_S_S4096 bcast_S4096_S4096x1_0 (W12 (F := 𝕀) m ρ c (Proc.devRef .tc main_arg3))) := by
  show StableHlo.after hostOps5 (W12 (F := 𝕀) m ρ c) (Proc.devRef .tc main_v40) = _
  after_results_simp
  -- The typed references' moves to and from their buffers' types cancel, or are the identity at the two buffers read.
  simp only [ofBuf_toBuf]
  have h3 : (StableHlo.TRef.of main_arg3 : StableHlo.TRef sig ⟨S4096, .i32⟩).ofBuf (W12 (F := 𝕀) m ρ c (Proc.devRef .tc main_arg3))
      = W12 (F := 𝕀) m ρ c (Proc.devRef .tc main_arg3) := ofBuf_eq _ _ _ HEq.rfl
  have h39 : (StableHlo.TRef.of main_v39 : StableHlo.TRef sig ⟨S50000x64, .f32⟩).ofBuf (W12 (F := 𝕀) m ρ c (Proc.devRef .tc main_v39))
      = W12 (F := 𝕀) m ρ c (Proc.devRef .tc main_v39) := ofBuf_eq _ _ _ HEq.rfl
  rw [h3, h39]
  refine toBuf_eq _ _ _ (heq_of_eq ?_)
  rfl

/-- After the next stretch a bias row is the reshaped bias vector, read at the boundary after region 4. -/
private theorem W14_v41 (c : Dev nD) : W14 (F := 𝕀) m ρ c (Proc.devRef .tc main_v41)
    = shapeCast S1x64 (W12 (F := 𝕀) m ρ c (Proc.devRef .tc main_arg25)) shapeCasts_S64_S1x64 := by
  have e : W14 (F := 𝕀) m ρ c (Proc.devRef .tc main_v41)
      = shapeCast S1x64 (W13 (F := 𝕀) m ρ c (Proc.devRef .tc main_arg25)) shapeCasts_S64_S1x64 := by
    show StableHlo.after hostOps5_1 (W13 (F := 𝕀) m ρ c) (Proc.devRef .tc main_v41) = _
    after_results
    first | done | rfl
  have k : W13 (F := 𝕀) m ρ c (Proc.devRef .tc main_arg25) = W12 (F := 𝕀) m ρ c (Proc.devRef .tc main_arg25) :=
    keep5 _ main_arg25 (by decide)
  rw [e, k]
private theorem W14_v42 (c : Dev nD) : W14 (F := 𝕀) m ρ c (Proc.devRef .tc main_v42)
    = shapeCast S1x64 (W12 (F := 𝕀) m ρ c (Proc.devRef .tc main_arg27)) shapeCasts_S64_S1x64 := by
  have e : W14 (F := 𝕀) m ρ c (Proc.devRef .tc main_v42)
      = shapeCast S1x64 (W13 (F := 𝕀) m ρ c (Proc.devRef .tc main_arg27)) shapeCasts_S64_S1x64 := by
    show StableHlo.after hostOps5_1 (W13 (F := 𝕀) m ρ c) (Proc.devRef .tc main_v42) = _
    after_results
    first | done | rfl
  have k : W13 (F := 𝕀) m ρ c (Proc.devRef .tc main_arg27) = W12 (F := 𝕀) m ρ c (Proc.devRef .tc main_arg27) :=
    keep5 _ main_arg27 (by decide)
  rw [e, k]

/-- A buffer neither of the two stretches writes is, at region 5's entry, what it was after region 4. -/
private theorem W14_eq_W12 (c : Dev nD) (b : Ref sig .tc) (h5 : b ∉ wr5) (h51 : b ∉ wr51) :
    W14 (F := 𝕀) m ρ c (Proc.devRef .tc b) = W12 (F := 𝕀) m ρ c (Proc.devRef .tc b) :=
  (keep51 _ b h51).trans (keep5 _ b h5)

/-- The last stretch: the small matrix product with the logits weights plus the broadcast logits bias. -/
private theorem W16_v47 (c : Dev nD) : W16 (F := 𝕀) m ρ c (Proc.devRef .tc main_v47)
    = addf (Host.dotGeneral (F := 𝕀) (φ₁ := .f32) (φ₂ := .f32) dot_S4096x64_S64x2_S4096x2_1_0_0_1_n_n none
          (W15 (F := 𝕀) m ρ c (Proc.devRef .tc main_v43)) (W15 (F := 𝕀) m ρ c (Proc.devRef .tc main_arg28)))
        (broadcastInDim S4096x2 ![0, 1] bcast_S1x2_S4096x2_0_1
          (broadcastInDim S1x2 ![1] bcast_S2_S1x2_1 (W15 (F := 𝕀) m ρ c (Proc.devRef .tc main_arg29)))) := by
  show StableHlo.after hostOps6 (W15 (F := 𝕀) m ρ c) (Proc.devRef .tc main_v47) = _
  after_results
  first | done | rfl

/-- From the node table after the second convolution and the late arguments at the boundary after region 4, the
    result buffer at the last boundary is the specification's result of the launch arguments. -/
theorem W16_out_of (c : Dev nD)
    (hx2 : W12 (F := 𝕀) m ρ c (Proc.devRef .tc main_v39) = K.x2 (kArgs m c))
    (hargs : ∀ b ∈ ([main_arg3, main_arg24, main_arg25, main_arg26, main_arg27, main_arg28, main_arg29] : List (Ref sig .tc)),
      W12 (F := 𝕀) m ρ c (Proc.devRef .tc b) = W0 (F := 𝕀) m ρ c (Proc.devRef .tc b)) :
    W16 (F := 𝕀) m ρ c (Proc.devRef .tc main_v47) = K.out (kArgs m c) := by
  -- The late arguments at the boundary after region 4, as launched.
  have a3 := hargs main_arg3 (by decide)
  have a24 := hargs main_arg24 (by decide)
  have a25 := hargs main_arg25 (by decide)
  have a26 := hargs main_arg26 (by decide)
  have a27 := hargs main_arg27 (by decide)
  have a28 := hargs main_arg28 (by decide)
  have a29 := hargs main_arg29 (by decide)
  -- Region 5's output: the last feed-forward block on the gathered query rows.
  have h43 : W15 (F := 𝕀) m ρ c (Proc.devRef .tc main_v43)
      = ffn (kArgs m c).a24 (kArgs m c).a25 (kArgs m c).a26 (kArgs m c).a27 (K.takeQ (kArgs m c) (K.x2 (kArgs m c))) := by
    refine ((W15_arr (F := 𝕀) m ρ c 5).trans (Cert.Gnn.K5.final (V14 (F := 𝕀) m ρ) c)).trans ?_
    have e40 : V14 (F := 𝕀) m ρ c main_v40 = K.takeQ (kArgs m c) (K.x2 (kArgs m c)) := by
      refine (keep51 _ main_v40 (by decide)).trans ?_
      rw [W13_v40 m ρ c, hx2, a3]
      rfl
    have e24 : V14 (F := 𝕀) m ρ c main_arg24 = (kArgs m c).a24 :=
      (W14_eq_W12 m ρ c main_arg24 (by decide) (by decide)).trans a24
    have e26 : V14 (F := 𝕀) m ρ c main_arg26 = (kArgs m c).a26 :=
      (W14_eq_W12 m ρ c main_arg26 (by decide) (by decide)).trans a26
    have e41 : vecRow (B := 64) (V14 (F := 𝕀) m ρ c main_v41) = vec1 (kArgs m c).a25 := by
      rw [show V14 (F := 𝕀) m ρ c main_v41 = _ from W14_v41 m ρ c, a25]
      exact vecRow_shapeCast _ _
    have e42 : vecRow (B := 64) (V14 (F := 𝕀) m ρ c main_v42) = vec1 (kArgs m c).a27 := by
      rw [show V14 (F := 𝕀) m ρ c main_v42 = _ from W14_v42 m ρ c, a27]
      exact vecRow_shapeCast _ _
    rw [e40, e24, e26, e41, e42]
    rfl
  -- The logits weights and bias at the last stretch's entry: no window of region 5, written by neither stretch.
  have h28 : W15 (F := 𝕀) m ρ c (Proc.devRef .tc main_arg28) = (kArgs m c).a28 :=
    (W15_of_ne m ρ c main_arg28 (by decide)).trans ((W14_eq_W12 m ρ c main_arg28 (by decide) (by decide)).trans a28)
  have h29 : W15 (F := 𝕀) m ρ c (Proc.devRef .tc main_arg29) = (kArgs m c).a29 :=
    (W15_of_ne m ρ c main_arg29 (by decide)).trans ((W14_eq_W12 m ρ c main_arg29 (by decide) (by decide)).trans a29)
  rw [W16_v47 m ρ c, h43, h28, h29]
  rfl

end Cert.Gnn.KV

end
-- ==== Proof.RowsRef.lean ====
/-
  The reference's layers, each as a function of rows.

  The reference computes on whole tables with host operations: a dense layer is a dot product plus a bias vector
  broadcast over the rows, GELU is a chain of pointwise operations, the update block joins two tables column-wise
  before its first dense layer, and the normalisation sums each row's squares. Read at one entry, each is the row
  function of Spec applied to that entry's row.
-/
import proofs.«408577_j31361851195877_2_alg».proof.Proof.Spec
import proofs.«408577_j31361851195877_2_alg».proof.Proof.Dense
import Idealize.ShloMosaic.Lib.Pipeline.Value
import Idealize.ShloMosaic.Lib.ValueLayout

noncomputable section

open scoped BigOperators

namespace Cert.Gnn

open Idealize.ShloMosaic Idealize.ShloMosaic.ValueIdx

local notation "𝕀" => Idealize.ShloMosaic.Ideal

/-- A host dense layer on a table of `R` rows of width `K`: the dot product with the weights, plus the bias vector
    made a one-row table and repeated down the rows. -/
def refDense {R K : Nat} (h1 : (⟨1, ![64]⟩ : Shape).BroadcastsInDim ⟨2, ![1, 64]⟩ (![1] : Fin 1 → Fin 2))
    (h2 : (⟨2, ![1, 64]⟩ : Shape).BroadcastsInDim ⟨2, ![R, 64]⟩ (![0, 1] : Fin 2 → Fin 2))
    (x : FVec 𝕀 ⟨2, ![R, K]⟩ .f32) (W : FVec 𝕀 ⟨2, ![K, 64]⟩ .f32) (b : FVec 𝕀 ⟨1, ![64]⟩ .f32) :
    FVec 𝕀 ⟨2, ![R, 64]⟩ .f32 :=
  addf (Host.dotGeneral (DotDims.plain R K 64) none x W)
    (broadcastInDim (⟨2, ![R, 64]⟩ : Shape) ![0, 1] h2 (broadcastInDim (⟨2, ![1, 64]⟩ : Shape) ![1] h1 b))

/-- It is the dense row function on every row. -/
theorem refDense_eq {R K : Nat} (h1 : (⟨1, ![64]⟩ : Shape).BroadcastsInDim ⟨2, ![1, 64]⟩ (![1] : Fin 1 → Fin 2))
    (h2 : (⟨2, ![1, 64]⟩ : Shape).BroadcastsInDim ⟨2, ![R, 64]⟩ (![0, 1] : Fin 2 → Fin 2))
    (x : FVec 𝕀 ⟨2, ![R, K]⟩ .f32) (W : FVec 𝕀 ⟨2, ![K, 64]⟩ .f32) (b : FVec 𝕀 ⟨1, ![64]⟩ .f32) :
    refDense h1 h2 x W b = rowsMap (dense (mat W) (vec1 b)) x := by
  apply table_ext
  intro r j
  rw [rowsMap_apply]
  unfold refDense
  rw [addf_apply, dotGeneral_plain_apply]
  rw [broadcastInDim_apply (![0, 1] : Fin 2 → Fin 2) h2 _ (ix2 r j) (ix2 0 j)
    (by intro a; match a with | ⟨0, _⟩ => rfl | ⟨1, _⟩ => rfl)]
  rw [broadcastInDim_apply (![1] : Fin 1 → Fin 2) h1 b (ix2 0 j) (ix1 j)
    (by intro a; match a with | ⟨0, _⟩ => rfl)]
  rfl

/-- The host's GELU chain on a table. -/
def refGelu {s : Shape} (h0 : (⟨0, ![]⟩ : Shape).BroadcastsInDim s (![] : Fin 0 → Fin s.rank)) (h : FVec 𝕀 s .f32) : FVec 𝕀 s .f32 :=
  mulf h (mulf (broadcastInDim s ![] h0 (constant (⟨0, ![]⟩ : Shape) .f32 0x3F000000#32))
    (addf (broadcastInDim s ![] h0 (constant (⟨0, ![]⟩ : Shape) .f32 0x3F800000#32))
      (Host.tanh (mulf (broadcastInDim s ![] h0 (constant (⟨0, ![]⟩ : Shape) .f32 0x3F4C422A#32))
        (addf h (mulf (broadcastInDim s ![] h0 (constant (⟨0, ![]⟩ : Shape) .f32 0x3D372713#32)) (mulf (mulf h h) h)))))))

/-- It is GELU at every entry. -/
theorem refGelu_apply {s : Shape} (h0 : (⟨0, ![]⟩ : Shape).BroadcastsInDim s (![] : Fin 0 → Fin s.rank)) (h : FVec 𝕀 s .f32)
    (i : s.Idx) : refGelu h0 h i = gelu (h i) := by
  have hc : ∀ c : BitVec 32,
      broadcastInDim s (![] : Fin 0 → Fin s.rank) h0 (constant (F := 𝕀) (⟨0, ![]⟩ : Shape) .f32 c) i
        = Ideal.ofBits .f32 c := by
    intro c
    rw [broadcastInDim_apply (![] : Fin 0 → Fin s.rank) h0 _ i ix0 (fun a => a.elim0)]
    rfl
  unfold refGelu gelu Host.tanh
  simp only [mulf_apply, addf_apply, hc, Ideal.hostUnary_tanh_def]
  rw [mul_comm (h i * h i) (h i)]

/-- Two tables of width 64 joined column-wise into one of width 128, read as rows: the two rows side by side. -/
theorem concat_rowOf {R : Nat} (hc : Shape.Concatenates [(⟨2, ![R, 64]⟩ : Shape), ⟨2, ![R, 64]⟩] ⟨2, ![R, 128]⟩ 1)
    (x y : FVec 𝕀 ⟨2, ![R, 64]⟩ .f32) (r : Fin R) :
    rowOf (concatenate (⟨2, ![R, 128]⟩ : Shape) 1 [⟨(⟨2, ![R, 64]⟩ : Shape), x⟩, ⟨(⟨2, ![R, 64]⟩ : Shape), y⟩] hc) r
      = Fin.append (rowOf x r) (rowOf y r) := by
  have key : ∀ k : Fin (64 + 64),
      concatenate (⟨2, ![R, 128]⟩ : Shape) 1 [⟨(⟨2, ![R, 64]⟩ : Shape), x⟩, ⟨(⟨2, ![R, 64]⟩ : Shape), y⟩] hc (ix2 r k)
        = Fin.append (rowOf x r) (rowOf y r) k := by
    intro k
    refine Fin.addCases (fun l => ?_) (fun l => ?_) k
    · rw [Fin.append_left]
      exact concatenate_pair_apply_left (1 : Fin 2) x y hc (ix2 r (Fin.castAdd 64 l)) rfl (ix2 r l)
        (by intro b; match b with | ⟨0, _⟩ => rfl | ⟨1, _⟩ => rfl)
    · rw [Fin.append_right]
      exact concatenate_pair_apply_right (1 : Fin 2) x y hc (ix2 r (Fin.natAdd 64 l)) rfl rfl (ix2 r l)
        (by intro b; match b with | ⟨0, _⟩ => (intro _; rfl) | ⟨1, _⟩ => (intro hb; exact absurd rfl hb))
        (Nat.add_comm _ _)
  funext k
  exact key k

/-- The host's normalisation with the residual: every row of `o` scaled by the reciprocal square root of its sum of
    squares (started from the zero word, bounded below by the small constant), plus the same row of `x`. -/
def refL2 {R : Nat} (hr : (⟨2, ![R, 64]⟩ : Shape).ReducesTo [1] ⟨1, ![R]⟩) (h_S_ : 0 < (⟨0, ![]⟩ : Shape).numel)
    (hb0 : (⟨1, ![R]⟩ : Shape).BroadcastsInDim ⟨2, ![R, 1]⟩ (![0] : Fin 1 → Fin 2))
    (hbe : (⟨0, ![]⟩ : Shape).BroadcastsInDim ⟨2, ![R, 1]⟩ (![] : Fin 0 → Fin 2))
    (hb1 : (⟨2, ![R, 1]⟩ : Shape).BroadcastsInDim ⟨2, ![R, 64]⟩ (![0, 1] : Fin 2 → Fin 2))
    (o x : FVec 𝕀 ⟨2, ![R, 64]⟩ .f32) : FVec 𝕀 ⟨2, ![R, 64]⟩ .f32 :=
  addf (mulf o (broadcastInDim (⟨2, ![R, 64]⟩ : Shape) ![0, 1] hb1
    (Host.rsqrt (maximumf (broadcastInDim (⟨2, ![R, 1]⟩ : Shape) ![0] hb0
        (Host.reduceAdd (mulf o o) (constant (⟨0, ![]⟩ : Shape) .f32 0x00000000#32) hr h_S_))
      (broadcastInDim (⟨2, ![R, 1]⟩ : Shape) ![] hbe (constant (⟨0, ![]⟩ : Shape) .f32 0x2B8CBCCC#32)))))) x

/-- It is the scaled row plus the residual row, at every entry. -/
theorem refL2_eq {R : Nat} (hr : (⟨2, ![R, 64]⟩ : Shape).ReducesTo [1] ⟨1, ![R]⟩) (h_S_ : 0 < (⟨0, ![]⟩ : Shape).numel)
    (hb0 : (⟨1, ![R]⟩ : Shape).BroadcastsInDim ⟨2, ![R, 1]⟩ (![0] : Fin 1 → Fin 2))
    (hbe : (⟨0, ![]⟩ : Shape).BroadcastsInDim ⟨2, ![R, 1]⟩ (![] : Fin 0 → Fin 2))
    (hb1 : (⟨2, ![R, 1]⟩ : Shape).BroadcastsInDim ⟨2, ![R, 64]⟩ (![0, 1] : Fin 2 → Fin 2))
    (o x : FVec 𝕀 ⟨2, ![R, 64]⟩ .f32) :
    refL2 hr h_S_ hb0 hbe hb1 o x
      = rowsMap2 (fun orow xrow j => scaleRow orow (sumSq orow) j + xrow j) o x := by
  have hR : (⟨2, ![R, 64]⟩ : Shape).Reduces [1] ⟨1, ![R]⟩ := ⟨hr.1, Nat.one_pos, hr.2⟩
  apply table_ext
  intro r j
  rw [rowsMap2_apply]
  -- a row number below 1 is 0
  have hr0 : r.val = if R = 1 then 0 else r.val := by
    split
    · have := r.isLt; omega
    · rfl
  -- the host's sum of the squares along row r
  have hsum : Host.reduceAdd (mulf o o) (constant (F := 𝕀) (⟨0, ![]⟩ : Shape) .f32 0x00000000#32) hr h_S_ (ix1 r)
      = ∑ l : Fin 64, o (ix2 r l) * o (ix2 r l) := by
    show Ideal.hostReduceAdd hr (mulf o o) _ (ix1 r) = _
    rw [Ideal.hostReduceAdd_single hr hR, constant_apply, Ideal.ofBits_zero_f32, zero_add]
    refine Finset.sum_congr rfl fun k _ => ?_
    have hl : hR.lift (ix1 r) k = ix2 r k := by
      funext c; apply Fin.ext
      match c with
      | ⟨0, _⟩ => rfl
      | ⟨1, _⟩ => rfl
    rw [mulf_apply, hl]
    rfl
  unfold refL2 scaleRow sumSq rowOf
  rw [addf_apply, mulf_apply,
    broadcastInDim_apply (![0, 1] : Fin 2 → Fin 2) hb1 _ (ix2 r j) (ix2 r 0)
      (by intro a; match a with | ⟨0, _⟩ => exact hr0 | ⟨1, _⟩ => rfl)]
  simp only [Host.rsqrt, Ideal.hostUnary_rsqrt_def, maximumf_apply]
  rw [broadcastInDim_apply (![0] : Fin 1 → Fin 2) hb0 _ (ix2 r 0) (ix1 r)
      (by intro a; match a with | ⟨0, _⟩ => exact hr0),
    broadcastInDim_apply (![] : Fin 0 → Fin 2) hbe _ (ix2 r 0) ix0 (fun a => a.elim0), hsum, constant_apply]

end Cert.Gnn

end
-- ==== Proof.RefValue.lean ====
/-
  The reference's result as a composition of tables.

  The reference's run ends with its result buffer at one long term of host operations of the argument arrays.
  Layer by layer that term is the composition of Spec's row functions: each dense layer with its bias, each GELU
  chain, the column-wise join before an update block's first layer, and each normalisation with its residual are read
  as functions of rows; the gathers, the scatter-add and the last small matrix product stay as they are.
-/
import proofs.«408577_j31361851195877_2_alg».proof.Proof.Gen.ReferenceIdeal.Run
import proofs.«408577_j31361851195877_2_alg».proof.Proof.NetSpec
import proofs.«408577_j31361851195877_2_alg».proof.Proof.RowsRef

set_option maxRecDepth 8192

noncomputable section

namespace Cert.Gnn

open Idealize.ShloMosaic Idealize.ShloMosaic.TcCoe Idealize.ShloMosaic.ValueIdx Idealize.ShloMosaic.StableHlo
open Cert.ReferenceIdeal Cert.ReferenceIdeal.Gen Cert.ReferenceIdeal.Value

local notation "𝕀" => Idealize.ShloMosaic.Ideal

/-! ## Layers composed, over any tables -/

/-- A dense layer on every row, GELU at every entry, a dense layer on every row: the feed-forward row function on
    every row. -/
private theorem rowsMap_dense_gelu_dense {R K : Nat} (w1 : Fin K → Fin 64 → EReal) (b1 : Row)
    (w2 : Fin 64 → Fin 64 → EReal) (b2 : Row) (x : (⟨2, ![R, K]⟩ : Shape).Idx → EReal)
    (g : (⟨2, ![R, 64]⟩ : Shape).Idx → EReal) (hg : ∀ i, g i = gelu (rowsMap (dense w1 b1) x i)) :
    rowsMap (dense w2 b2) g = rowsMap (ffnRow w1 b1 w2 b2) x := by
  apply table_ext
  intro r j
  rw [rowsMap_apply, rowsMap_apply]
  unfold ffnRow
  refine congrArg (fun y => dense w2 b2 y j) (funext fun k => ?_)
  show g (ix2 r k) = _
  rw [hg, rowsMap_apply]

/-- The host's feed-forward block (dense, GELU chain, dense) is the feed-forward block on every row. -/
private theorem refFfn_eq {R K : Nat} (h1 : (⟨1, ![64]⟩ : Shape).BroadcastsInDim ⟨2, ![1, 64]⟩ (![1] : Fin 1 → Fin 2))
    (h2 : (⟨2, ![1, 64]⟩ : Shape).BroadcastsInDim ⟨2, ![R, 64]⟩ (![0, 1] : Fin 2 → Fin 2))
    (h0 : (⟨0, ![]⟩ : Shape).BroadcastsInDim ⟨2, ![R, 64]⟩ (![] : Fin 0 → Fin 2))
    (x : FVec 𝕀 ⟨2, ![R, K]⟩ .f32) (W1 : FVec 𝕀 ⟨2, ![K, 64]⟩ .f32) (b1 : FVec 𝕀 ⟨1, ![64]⟩ .f32)
    (W2 : FVec 𝕀 ⟨2, ![64, 64]⟩ .f32) (b2 : FVec 𝕀 ⟨1, ![64]⟩ .f32) :
    refDense h1 h2 (refGelu h0 (refDense h1 h2 x W1 b1)) W2 b2 = ffn W1 b1 W2 b2 x := by
  rw [refDense_eq h1 h2 (refGelu h0 (refDense h1 h2 x W1 b1)) W2 b2]
  unfold ffn
  refine rowsMap_dense_gelu_dense _ _ _ _ x _ (fun i => ?_)
  rw [refGelu_apply, refDense_eq]

/-- The host's update block (the two tables joined column-wise, the feed-forward block, the normalisation with the
    residual) is the update row function on every pair of rows. -/
private theorem refUpd_eq {R : Nat} (h1 : (⟨1, ![64]⟩ : Shape).BroadcastsInDim ⟨2, ![1, 64]⟩ (![1] : Fin 1 → Fin 2))
    (h2 : (⟨2, ![1, 64]⟩ : Shape).BroadcastsInDim ⟨2, ![R, 64]⟩ (![0, 1] : Fin 2 → Fin 2))
    (h0 : (⟨0, ![]⟩ : Shape).BroadcastsInDim ⟨2, ![R, 64]⟩ (![] : Fin 0 → Fin 2))
    (hc : Shape.Concatenates [(⟨2, ![R, 64]⟩ : Shape), ⟨2, ![R, 64]⟩] ⟨2, ![R, 128]⟩ 1)
    (hr : (⟨2, ![R, 64]⟩ : Shape).ReducesTo [1] ⟨1, ![R]⟩) (h_S_ : 0 < (⟨0, ![]⟩ : Shape).numel)
    (hb0 : (⟨1, ![R]⟩ : Shape).BroadcastsInDim ⟨2, ![R, 1]⟩ (![0] : Fin 1 → Fin 2))
    (hbe : (⟨0, ![]⟩ : Shape).BroadcastsInDim ⟨2, ![R, 1]⟩ (![] : Fin 0 → Fin 2))
    (hb1 : (⟨2, ![R, 1]⟩ : Shape).BroadcastsInDim ⟨2, ![R, 64]⟩ (![0, 1] : Fin 2 → Fin 2))
    (x agg : FVec 𝕀 ⟨2, ![R, 64]⟩ .f32) (W1 : FVec 𝕀 ⟨2, ![128, 64]⟩ .f32) (b1 : FVec 𝕀 ⟨1, ![64]⟩ .f32)
    (W2 : FVec 𝕀 ⟨2, ![64, 64]⟩ .f32) (b2 : FVec 𝕀 ⟨1, ![64]⟩ .f32) :
    refL2 hr h_S_ hb0 hbe hb1
        (refDense h1 h2 (refGelu h0 (refDense h1 h2
          (concatenate (⟨2, ![R, 128]⟩ : Shape) 1 [⟨(⟨2, ![R, 64]⟩ : Shape), x⟩, ⟨(⟨2, ![R, 64]⟩ : Shape), agg⟩] hc) W1 b1)) W2 b2) x
      = upd W1 b1 W2 b2 x agg := by
  rw [refL2_eq, refFfn_eq]
  unfold upd ffn
  apply table_ext
  intro r j
  rw [rowsMap2_apply, rowsMap2_apply]
  -- row r of the feed-forward table is the feed-forward row function at row r of the joined table
  have hrow : rowOf (rowsMap (ffnRow (mat W1) (vec1 b1) (mat W2) (vec1 b2))
        (concatenate (⟨2, ![R, 128]⟩ : Shape) 1 [⟨(⟨2, ![R, 64]⟩ : Shape), x⟩, ⟨(⟨2, ![R, 64]⟩ : Shape), agg⟩] hc)) r
      = ffnRow (mat W1) (vec1 b1) (mat W2) (vec1 b2) (Fin.append (rowOf x r) (rowOf agg r)) := by
    rw [← concat_rowOf hc x agg r]
    rfl
  rw [hrow]
  rfl

/-- The argument arrays as a buffer valuation holds them. -/
def rArgs (V0 : Valuation τ sig (Elt 𝕀)) : Args :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14), V0 (Proc.devRef .tc main_arg15), V0 (Proc.devRef .tc main_arg16), V0 (Proc.devRef .tc main_arg17), V0 (Proc.devRef .tc main_arg18), V0 (Proc.devRef .tc main_arg19), V0 (Proc.devRef .tc main_arg20), V0 (Proc.devRef .tc main_arg21), V0 (Proc.devRef .tc main_arg22), V0 (Proc.devRef .tc main_arg23), V0 (Proc.devRef .tc main_arg24), V0 (Proc.devRef .tc main_arg25), V0 (Proc.devRef .tc main_arg26), V0 (Proc.devRef .tc main_arg27), V0 (Proc.devRef .tc main_arg28), V0 (Proc.devRef .tc main_arg29)⟩

/-- One graph convolution of the reference, from a node table `x`: the message block on the neighbours' rows, the
    weighted sum at the target nodes, the update block. -/
private theorem refConv_eq (a : Args) (x : FVec 𝕀 S50000x64 .f32)
    (Wm1 : FVec 𝕀 S64x64 .f32) (bm1 : FVec 𝕀 S64 .f32) (Wm2 : FVec 𝕀 S64x64 .f32) (bm2 : FVec 𝕀 S64 .f32)
    (Wu1 : FVec 𝕀 S128x64 .f32) (bu1 : FVec 𝕀 S64 .f32) (Wu2 : FVec 𝕀 S64x64 .f32) (bu2 : FVec 𝕀 S64 .f32) :
    refL2 reducesTo_S50000x64_S50000_d1 h_S_ bcast_S50000_S50000x1_0 bcast_S_S50000x1 bcast_S50000x1_S50000x64_0_1
        (refDense bcast_S64_S1x64_1 bcast_S1x64_S50000x64_0_1 (refGelu bcast_S_S50000x64
          (refDense bcast_S64_S1x64_1 bcast_S1x64_S50000x64_0_1
            (concatenate S50000x128 1 [⟨S50000x64, x⟩, ⟨S50000x64,
              R.agg a (refDense bcast_S64_S1x64_1 bcast_S1x64_S800000x64_0_1 (refGelu bcast_S_S800000x64
                (refDense bcast_S64_S1x64_1 bcast_S1x64_S800000x64_0_1 (R.gatherE a x) Wm1 bm1)) Wm2 bm2)⟩]
              concatenates_S50000x64_S50000x64_S50000x128_d1) Wu1 bu1)) Wu2 bu2) x
      = upd Wu1 bu1 Wu2 bu2 x (R.agg a (ffn Wm1 bm1 Wm2 bm2 (R.gatherE a x))) := by
  rw [refUpd_eq, refFfn_eq]

/-- The node table after the first feed-forward block, after the first convolution, and after the second, as the
    reference's run names them. -/
theorem res_x0 (V0 : Valuation τ sig (Elt 𝕀)) : res_main_v23 V0 = R.x0 (rArgs V0) := by
  have h6 : res_main_v6 V0 = refDense bcast_S64_S1x64_1 bcast_S1x64_S50000x64_0_1
      (rArgs V0).a0 (rArgs V0).a4 (rArgs V0).a5 := rfl
  have h23 : res_main_v23 V0 = refDense bcast_S64_S1x64_1 bcast_S1x64_S50000x64_0_1
      (refGelu bcast_S_S50000x64 (res_main_v6 V0)) (rArgs V0).a6 (rArgs V0).a7 := rfl
  rw [h23, h6, refFfn_eq]
  rfl
theorem res_x1 (V0 : Valuation τ sig (Elt 𝕀)) : res_main_v92 V0 = R.x1 (rArgs V0) := by
  have h38 : res_main_v38 V0 = refDense bcast_S64_S1x64_1 bcast_S1x64_S800000x64_0_1
      (R.gatherE (rArgs V0) (res_main_v23 V0)) (rArgs V0).a8 (rArgs V0).a9 := rfl
  have h66 : res_main_v66 V0 = refDense bcast_S64_S1x64_1 bcast_S1x64_S50000x64_0_1
      (concatenate S50000x128 1 [⟨S50000x64, res_main_v23 V0⟩, ⟨S50000x64,
        R.agg (rArgs V0) (refDense bcast_S64_S1x64_1 bcast_S1x64_S800000x64_0_1
          (refGelu bcast_S_S800000x64 (res_main_v38 V0)) (rArgs V0).a10 (rArgs V0).a11)⟩]
        concatenates_S50000x64_S50000x64_S50000x128_d1) (rArgs V0).a12 (rArgs V0).a13 := rfl
  have h83 : res_main_v83 V0 = refDense bcast_S64_S1x64_1 bcast_S1x64_S50000x64_0_1
      (refGelu bcast_S_S50000x64 (res_main_v66 V0)) (rArgs V0).a14 (rArgs V0).a15 := rfl
  have h92 : res_main_v92 V0 = refL2 reducesTo_S50000x64_S50000_d1 h_S_ bcast_S50000_S50000x1_0 bcast_S_S50000x1
      bcast_S50000x1_S50000x64_0_1 (res_main_v83 V0) (res_main_v23 V0) := rfl
  rw [h92, h83, h66, h38, refConv_eq, res_x0]
  rfl

/-- The reference's result buffer after its run, at any launch contents, is the specification's result. -/
theorem ref_out_eq (V0 : Valuation τ sig (Elt 𝕀)) :
    val4 V0 (Proc.devRef .tc main_v193) = R.out (rArgs V0) := by
  have h107 : res_main_v107 V0 = refDense bcast_S64_S1x64_1 bcast_S1x64_S800000x64_0_1
      (R.gatherE (rArgs V0) (res_main_v92 V0)) (rArgs V0).a16 (rArgs V0).a17 := rfl
  have h135 : res_main_v135 V0 = refDense bcast_S64_S1x64_1 bcast_S1x64_S50000x64_0_1
      (concatenate S50000x128 1 [⟨S50000x64, res_main_v92 V0⟩, ⟨S50000x64,
        R.agg (rArgs V0) (refDense bcast_S64_S1x64_1 bcast_S1x64_S800000x64_0_1
          (refGelu bcast_S_S800000x64 (res_main_v107 V0)) (rArgs V0).a18 (rArgs V0).a19)⟩]
        concatenates_S50000x64_S50000x64_S50000x128_d1) (rArgs V0).a20 (rArgs V0).a21 := rfl
  have h152 : res_main_v152 V0 = refDense bcast_S64_S1x64_1 bcast_S1x64_S50000x64_0_1
      (refGelu bcast_S_S50000x64 (res_main_v135 V0)) (rArgs V0).a22 (rArgs V0).a23 := rfl
  have h165 : res_main_v165 V0 = refDense bcast_S64_S1x64_1 bcast_S1x64_S50000x64_0_1
      (refL2 reducesTo_S50000x64_S50000_d1 h_S_ bcast_S50000_S50000x1_0 bcast_S_S50000x1
        bcast_S50000x1_S50000x64_0_1 (res_main_v152 V0) (res_main_v92 V0)) (rArgs V0).a24 (rArgs V0).a25 := rfl
  refine (val4_main_v193 V0).trans ?_
  show R.logits (rArgs V0) (R.gatherQ (rArgs V0) (refDense bcast_S64_S1x64_1 bcast_S1x64_S50000x64_0_1
      (refGelu bcast_S_S50000x64 (res_main_v165 V0)) (rArgs V0).a26 (rArgs V0).a27)) = _
  rw [h165, h152, h135, h107, refConv_eq, res_x1, refFfn_eq]
  rfl

end Cert.Gnn

end
-- ==== Proof.PreDecode.lean ====
/-
  What the precondition says about the two index inputs.

  The precondition is a conjunction of tests, each reduced with "and" to one bit: every float input finite, every
  entry of the neighbour row of the edge list in `[0, 50000)`, every query index in `[0, 50000)`. If the whole
  conjunction is one, so is each of its last two members, and a reduction with "and" that is one is one at every
  entry; a signed comparison that is one says the order of the signed readings.
-/
import proofs.«408577_j31361851195877_2_alg».proof.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.Gnn

open Idealize.ShloMosaic Idealize.ShloMosaic.ValueIdx
open Cert.Pre_finite_inputs

local notation "𝕀" => Idealize.ShloMosaic.Ideal

variable [Cert.Pre_finite_inputs.Facts]

/-- The neighbour row of the edge list: row 1 of the `[2, 800000]` table, as a vector. -/
def nbrOf (a1 : IVec S2x800000 32) : IVec S800000 32 :=
  shapeCast S800000 (extractStridedSlice S1x800000 ![1, 0] a1 Facts.slices_S2x800000_S1x800000_1_0) Facts.shapeCasts_S1x800000_S800000

/-- The last part of the chain alone: whatever the conjunction of the earlier tests is, if the whole is one then both
    index tests hold at every entry. -/
private theorem part8_ranges (a1 : IVec S2x800000 32) (a3 : IVec S4096 32) (v133 : IVec S_ 1) (v136 : IVec S2 1)
    (h : fn_part8 (F := 𝕀) a1 a3 v133 v136 ix0 = 1#1) :
    (∀ e : Fin 800000, 0 ≤ (nbrOf a1 (ix1 e)).toInt ∧ (nbrOf a1 (ix1 e)).toInt < 50000)
      ∧ (∀ q : Fin 4096, 0 ≤ (a3 (ix1 q)).toInt ∧ (a3 (ix1 q)).toInt < 50000) := by
  -- the scalar shape has one index
  haveI : Subsingleton S_.Idx := ⟨fun _ _ => funext fun d => d.elim0⟩
  -- the two bounds, read signed
  have c0 : (0#32 : BitVec 32).toInt = 0 := by decide
  have c5 : (50000#32 : BitVec 32).toInt = 50000 := by decide
  unfold fn_part8 fn_part9 at h
  dsimp only at h
  -- a conjunction of bits is one only if both are: the last member is the query test, the one before it the
  -- neighbour test
  obtain ⟨hA, hq⟩ := IntOp.andi_eq_one.1 h
  obtain ⟨_, he⟩ := IntOp.andi_eq_one.1 hA
  refine ⟨fun e => ?_, fun q => ?_⟩
  · -- a reduction with "and" that is one is one at entry e, and there both comparisons are one
    obtain ⟨hge, hlt⟩ := IntOp.andi_eq_one.1 (Host.reduce_andi_all _ _ _ _ ix0 he (ix1 e))
    have h1 := IntOp.cmpi_sge.1 hge
    have h2 := IntOp.cmpi_slt.1 hlt
    -- a scalar repeated along the vector reads the scalar
    have b0 : broadcastInDim S800000 ![] Facts.bcast_S_S800000 (constantI S_ 32 0#32) (ix1 e) = 0#32 := rfl
    have b5 : broadcastInDim S800000 ![] Facts.bcast_S_S800000 (constantI S_ 32 50000#32) (ix1 e) = 50000#32 := rfl
    rw [b0, c0] at h1
    rw [b5, c5] at h2
    exact ⟨h1, h2⟩
  · obtain ⟨hge, hlt⟩ := IntOp.andi_eq_one.1 (Host.reduce_andi_all _ _ _ _ ix0 hq (ix1 q))
    have h1 := IntOp.cmpi_sge.1 hge
    have h2 := IntOp.cmpi_slt.1 hlt
    have b0 : broadcastInDim S4096 ![] Facts.bcast_S_S4096 (constantI S_ 32 0#32) (ix1 q) = 0#32 := rfl
    have b5 : broadcastInDim S4096 ![] Facts.bcast_S_S4096 (constantI S_ 32 50000#32) (ix1 q) = 50000#32 := rfl
    rw [b0, c0] at h1
    rw [b5, c5] at h2
    exact ⟨h1, h2⟩

/-- Under the precondition every neighbour index and every query index, read signed, lies in `[0, 50000)`. -/
theorem pre_ranges (a0 : FVec 𝕀 S50000x64 .f32) (a1 : IVec S2x800000 32) (a2 : FVec 𝕀 S800000 .f32) (a3 : IVec S4096 32) (a4 : FVec 𝕀 S64x64 .f32) (a5 : FVec 𝕀 S64 .f32) (a6 : FVec 𝕀 S64x64 .f32) (a7 : FVec 𝕀 S64 .f32) (a8 : FVec 𝕀 S64x64 .f32) (a9 : FVec 𝕀 S64 .f32) (a10 : FVec 𝕀 S64x64 .f32) (a11 : FVec 𝕀 S64 .f32) (a12 : FVec 𝕀 S128x64 .f32) (a13 : FVec 𝕀 S64 .f32) (a14 : FVec 𝕀 S64x64 .f32) (a15 : FVec 𝕀 S64 .f32) (a16 : FVec 𝕀 S64x64 .f32) (a17 : FVec 𝕀 S64 .f32) (a18 : FVec 𝕀 S64x64 .f32) (a19 : FVec 𝕀 S64 .f32) (a20 : FVec 𝕀 S128x64 .f32) (a21 : FVec 𝕀 S64 .f32) (a22 : FVec 𝕀 S64x64 .f32) (a23 : FVec 𝕀 S64 .f32) (a24 : FVec 𝕀 S64x64 .f32) (a25 : FVec 𝕀 S64 .f32) (a26 : FVec 𝕀 S64x64 .f32) (a27 : FVec 𝕀 S64 .f32) (a28 : FVec 𝕀 S64x2 .f32) (a29 : FVec 𝕀 S2 .f32)
    (h : fn (F := 𝕀) a0 a1 a2 a3 a4 a5 a6 a7 a8 a9 a10 a11 a12 a13 a14 a15 a16 a17 a18 a19 a20 a21 a22 a23 a24 a25 a26 a27 a28 a29 = fun _ => 1#1) :
    (∀ e : Fin 800000, 0 ≤ (nbrOf a1 (ix1 e)).toInt ∧ (nbrOf a1 (ix1 e)).toInt < 50000)
      ∧ (∀ q : Fin 4096, 0 ≤ (a3 (ix1 q)).toInt ∧ (a3 (ix1 q)).toInt < 50000) := by
  -- the chain of parts ends in its last part applied to the conjunction of the earlier tests
  exact part8_ranges a1 a3 _ _ (congrFun h ix0)

end Cert.Gnn

end
-- ==== Proof.Bridge.lean ====
/-
  The two programs compute the same result.

  Where every neighbour index and every query index is in the node range, the kernel program's mask on its row
  gathers is all ones, so its gathers are the reference's. A feed-forward block acts on each row by itself, so picking
  rows before or after it gives the same table: the message block applied to the whole node table and then gathered
  at the neighbours is the message block applied to the gathered rows, and the last block applied to the gathered
  query rows is the query rows of the last block's table. Everything else in the two programs is the same operation
  on the same operands.
-/
import proofs.«408577_j31361851195877_2_alg».proof.Proof.NetSpec
import proofs.«408577_j31361851195877_2_alg».proof.Proof.Gather
import proofs.«408577_j31361851195877_2_alg».proof.Proof.LibRows

noncomputable section

namespace Cert.Gnn

open Idealize.ShloMosaic Idealize.ShloMosaic.ValueIdx

local notation "𝕀" => Idealize.ShloMosaic.Ideal

variable [Cert.KernelIdeal.Facts₀] [Cert.ReferenceIdeal.Facts₀]

/-- The pieces the two programs share are the same terms. -/
theorem ew_eq (a : Args) : K.ew a = R.ew a := rfl
theorem node_eq (a : Args) : K.node a = R.node a := rfl
theorem nbr_eq (a : Args) : K.nbr a = R.nbr a := rfl
theorem startE_eq (a : Args) : K.startE a = R.startE a := rfl
theorem startQ_eq (a : Args) : K.startQ a = R.startQ a := rfl
theorem agg_eq (a : Args) (msg : FVec 𝕀 ⟨2, ![800000, 64]⟩ .f32) : K.agg a msg = R.agg a msg := rfl
theorem x0_eq (a : Args) : K.x0 a = R.x0 a := rfl
theorem logits_eq (a : Args) (t : FVec 𝕀 ⟨2, ![4096, 64]⟩ .f32) : K.logits a t = R.logits a t := rfl

/-- With the neighbour indices in range the masked gather at the edges is the reference's gather. -/
theorem takeE_eq (a : Args)
    (hE : ∀ e : Fin 800000, 0 ≤ (K.nbr a (ix1 e)).toInt ∧ (K.nbr a (ix1 e)).toInt < 50000)
    (x : FVec 𝕀 ⟨2, ![50000, 64]⟩ .f32) : K.takeE a x = R.gatherE a x := by
  unfold K.takeE
  rw [takeRows_eq_gather]
  · rfl
  · intro e
    have hs : K.startE a (ix2 e 0) = K.nbr a (ix1 e) := startCol_apply _ _ _ _ e (hE e).1
    rw [hs]
    have h49 : (49999#32 : BitVec 32).toInt = 49999 := by decide
    rw [h49]
    have := hE e
    omega

/-- With the query indices in range the masked gather at the queries is the reference's gather. -/
theorem takeQ_eq (a : Args)
    (hQ : ∀ q : Fin 4096, 0 ≤ (a.a3 (ix1 q)).toInt ∧ (a.a3 (ix1 q)).toInt < 50000)
    (x : FVec 𝕀 ⟨2, ![50000, 64]⟩ .f32) : K.takeQ a x = R.gatherQ a x := by
  unfold K.takeQ
  rw [takeRows_eq_gather]
  · rfl
  · intro q
    have hs : K.startQ a (ix2 q 0) = a.a3 (ix1 q) := startCol_apply _ _ _ _ q (hQ q).1
    rw [hs]
    have h49 : (49999#32 : BitVec 32).toInt = 49999 := by decide
    rw [h49]
    have := hQ q
    omega

/-- Gathering the neighbours' rows commutes with a feed-forward block. -/
theorem gatherE_ffn (a : Args) (w1 : FVec 𝕀 ⟨2, ![64, 64]⟩ .f32) (b1 : FVec 𝕀 ⟨1, ![64]⟩ .f32)
    (w2 : FVec 𝕀 ⟨2, ![64, 64]⟩ .f32) (b2 : FVec 𝕀 ⟨1, ![64]⟩ .f32) (x : FVec 𝕀 ⟨2, ![50000, 64]⟩ .f32) :
    R.gatherE a (ffn w1 b1 w2 b2 x) = ffn w1 b1 w2 b2 (R.gatherE a x) :=
  gather_rowsMap (N := 50000) (E := 800000) (by decide) _ _ x (R.startE a)

/-- Gathering the query rows commutes with a feed-forward block. -/
theorem gatherQ_ffn (a : Args) (w1 : FVec 𝕀 ⟨2, ![64, 64]⟩ .f32) (b1 : FVec 𝕀 ⟨1, ![64]⟩ .f32)
    (w2 : FVec 𝕀 ⟨2, ![64, 64]⟩ .f32) (b2 : FVec 𝕀 ⟨1, ![64]⟩ .f32) (x : FVec 𝕀 ⟨2, ![50000, 64]⟩ .f32) :
    R.gatherQ a (ffn w1 b1 w2 b2 x) = ffn w1 b1 w2 b2 (R.gatherQ a x) :=
  gather_rowsMap (N := 50000) (E := 4096) (by decide) _ _ x (R.startQ a)

/-- The node table after the first convolution, and after the second. -/
theorem x1_eq (a : Args)
    (hE : ∀ e : Fin 800000, 0 ≤ (K.nbr a (ix1 e)).toInt ∧ (K.nbr a (ix1 e)).toInt < 50000) : K.x1 a = R.x1 a := by
  unfold K.x1 R.x1
  rw [takeE_eq a hE, gatherE_ffn, agg_eq, x0_eq]

theorem x2_eq (a : Args)
    (hE : ∀ e : Fin 800000, 0 ≤ (K.nbr a (ix1 e)).toInt ∧ (K.nbr a (ix1 e)).toInt < 50000) : K.x2 a = R.x2 a := by
  unfold K.x2 R.x2
  rw [takeE_eq a hE, gatherE_ffn, agg_eq, x1_eq a hE]

/-- The results. -/
theorem out_eq (a : Args)
    (hE : ∀ e : Fin 800000, 0 ≤ (K.nbr a (ix1 e)).toInt ∧ (K.nbr a (ix1 e)).toInt < 50000)
    (hQ : ∀ q : Fin 4096, 0 ≤ (a.a3 (ix1 q)).toInt ∧ (a.a3 (ix1 q)).toInt < 50000) : K.out a = R.out a := by
  unfold K.out R.out
  rw [takeQ_eq a hQ, ← gatherQ_ffn, logits_eq, x2_eq a hE]

end Cert.Gnn

end
-- ==== Proof.Claims.lean ====
/-
  The five claims.

  The three frames are the generated ones (the reference's is its generated run with the result dropped), and the
  kernel's idealization changes nothing that needs a statement. For the equivalence: the kernel's program, run from
  any memory, ends with its result buffer at the specification's kernel-side result of the launch arguments (the run
  with every buffer's final contents, and the fold of those contents followed to the result); the reference ends with
  its result at the specification's reference-side result of its own launch arguments; the two memories agree on the
  arguments; and under the precondition every neighbour index and every query index is in the node range, where the
  two results are the same table.
-/
import proofs.«408577_j31361851195877_2_alg».proof.Defs
import proofs.«408577_j31361851195877_2_alg».proof.Proof.Gen.Kernel.Frame
import proofs.«408577_j31361851195877_2_alg».proof.Proof.Gen.KernelIdeal.Frame
import proofs.«408577_j31361851195877_2_alg».proof.Proof.Gen.ReferenceIdeal.Run
import proofs.«408577_j31361851195877_2_alg».proof.Proof.Gen.Pre_finite_inputs
import proofs.«408577_j31361851195877_2_alg».proof.Proof.KernelRun
import proofs.«408577_j31361851195877_2_alg».proof.Proof.KernelValue2
import proofs.«408577_j31361851195877_2_alg».proof.Proof.KernelValue3
import proofs.«408577_j31361851195877_2_alg».proof.Proof.RefValue
import proofs.«408577_j31361851195877_2_alg».proof.Proof.PreDecode
import proofs.«408577_j31361851195877_2_alg».proof.Proof.Bridge

set_option maxRecDepth 16384

noncomputable section

namespace Cert.Proof.Claims

open Idealize.ShloMosaic Idealize.ShloMosaic.TcCoe Idealize.ShloMosaic.ValueIdx Idealize.SL.Sem
open Cert.Gnn

local notation "𝕀" => Idealize.ShloMosaic.Ideal

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := 𝕀) m ρ)

/-- The idealization's ledger is empty. -/
theorem preserves : Cert.preserves_Kernel_KernelIdeal := trivial

section Kernel
open Cert.KernelIdeal Cert.KernelIdeal.Gen

/-- The kernel program's run: the result buffer at the specification's kernel-side result of the launch arguments,
    the arguments as launched. -/
theorem kernel_run (m : (ℓ : Loc nD τ sig) → Buf (Elt 𝕀) ℓ) (ρ : Dev nD → PrngReg) :
    θ_run (defs (F := 𝕀)) (onTc (τ := τ) (main (F := 𝕀))) ⟨m, fun _ => 0, ρ⟩ (fun r => ∀ c : Dev nD,
      r.2.mem ((c.tc : Thread nD τ).loc main_v47) = K.out (KV.kArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c =>
    ⟨(h c _ (mem_uc main_v47 (by decide))).trans (KV.W16_out_of m ρ c (KV.W12_x2 m ρ c) (KV.W12_args m ρ c)),
      (h c _ (mem_uc main_arg0 (by decide))).trans (W16_main_arg0 m ρ c),
      (h c _ (mem_uc main_arg1 (by decide))).trans (W16_main_arg1 m ρ c),
      (h c _ (mem_uc main_arg2 (by decide))).trans (W16_main_arg2 m ρ c),
      (h c _ (mem_uc main_arg3 (by decide))).trans (W16_main_arg3 m ρ c),
      (h c _ (mem_uc main_arg4 (by decide))).trans (W16_main_arg4 m ρ c),
      (h c _ (mem_uc main_arg5 (by decide))).trans (W16_main_arg5 m ρ c),
      (h c _ (mem_uc main_arg6 (by decide))).trans (W16_main_arg6 m ρ c),
      (h c _ (mem_uc main_arg7 (by decide))).trans (W16_main_arg7 m ρ c),
      (h c _ (mem_uc main_arg8 (by decide))).trans (W16_main_arg8 m ρ c),
      (h c _ (mem_uc main_arg9 (by decide))).trans (W16_main_arg9 m ρ c),
      (h c _ (mem_uc main_arg10 (by decide))).trans (W16_main_arg10 m ρ c),
      (h c _ (mem_uc main_arg11 (by decide))).trans (W16_main_arg11 m ρ c),
      (h c _ (mem_uc main_arg12 (by decide))).trans (W16_main_arg12 m ρ c),
      (h c _ (mem_uc main_arg13 (by decide))).trans (W16_main_arg13 m ρ c),
      (h c _ (mem_uc main_arg14 (by decide))).trans (W16_main_arg14 m ρ c),
      (h c _ (mem_uc main_arg15 (by decide))).trans (W16_main_arg15 m ρ c),
      (h c _ (mem_uc main_arg16 (by decide))).trans (W16_main_arg16 m ρ c),
      (h c _ (mem_uc main_arg17 (by decide))).trans (W16_main_arg17 m ρ c),
      (h c _ (mem_uc main_arg18 (by decide))).trans (W16_main_arg18 m ρ c),
      (h c _ (mem_uc main_arg19 (by decide))).trans (W16_main_arg19 m ρ c),
      (h c _ (mem_uc main_arg20 (by decide))).trans (W16_main_arg20 m ρ c),
      (h c _ (mem_uc main_arg21 (by decide))).trans (W16_main_arg21 m ρ c),
      (h c _ (mem_uc main_arg22 (by decide))).trans (W16_main_arg22 m ρ c),
      (h c _ (mem_uc main_arg23 (by decide))).trans (W16_main_arg23 m ρ c),
      (h c _ (mem_uc main_arg24 (by decide))).trans (W16_main_arg24 m ρ c),
      (h c _ (mem_uc main_arg25 (by decide))).trans (W16_main_arg25 m ρ c),
      (h c _ (mem_uc main_arg26 (by decide))).trans (W16_main_arg26 m ρ c),
      (h c _ (mem_uc main_arg27 (by decide))).trans (W16_main_arg27 m ρ c),
      (h c _ (mem_uc main_arg28 (by decide))).trans (W16_main_arg28 m ρ c),
      (h c _ (mem_uc main_arg29 (by decide))).trans (W16_main_arg29 m ρ c)⟩)
    (KRun.run_W16 (F := 𝕀) m ρ)

end Kernel

/-- At the extended reals the two programs, run from memories that agree on the arguments, end with the same
    result. -/
theorem algebraic : Cert.algebraic_KernelIdeal_ReferenceIdeal := by
  intro m ρ m' ρ' hpre hagree
  refine ⟨fun c => K.out (KV.kArgs m c), kernel_run m ρ, ?_⟩
  refine (θ_run Cert.ReferenceIdeal.defs _ _).mono (fun r h c => ⟨(h c).1.trans ?_, (h c).2⟩)
    (Cert.ReferenceIdeal.Value.run (F := 𝕀) m' ρ')
  -- the reference's term is the specification's reference-side result of its own arguments …
  refine ((Cert.ReferenceIdeal.Value.val4_main_v193 _).symm.trans (ref_out_eq _)).trans ?_
  -- … which are the kernel's arguments …
  obtain ⟨h0, h1, h2, h3, h4, h5, h6, h7, h8, h9, h10, h11, h12, h13, h14, h15, h16, h17, h18, h19, h20, h21, h22, h23, h24, h25, h26, h27, h28, h29⟩ := hagree c
  have ha : rArgs (StableHlo.launchContents m' c) = KV.kArgs m c := by
    unfold rArgs KV.kArgs
    simp only [Args.mk.injEq]
    exact ⟨h0, h1, h2, h3, h4, h5, h6, h7, h8, h9, h10, h11, h12, h13, h14, h15, h16, h17, h18, h19, h20, h21, h22, h23, h24, h25, h26, h27, h28, h29⟩
  rw [ha]
  -- … and under the precondition the index inputs are in range, where the two results agree
  obtain ⟨hE, hQ⟩ := pre_ranges _ _ _ _ _ _ _ _ _ _ _ _ _ _ _ _ _ _ _ _ _ _ _ _ _ _ _ _ _ _ (hpre c)
  exact (out_eq (KV.kArgs m c) hE hQ).symm

end Cert.Proof.Claims

end
-- ==== Proof.lean ====
/-
  A two-layer graph network over 50 000 nodes and 800 000 weighted edges, evaluated at 4096 query nodes: a
  feed-forward block on the node features, two graph convolutions (a message block along the edges, the messages
  scaled by the normalised edge weights and added up at the target nodes, an update block with a unit-length
  normalisation and a residual), a last feed-forward block and a logits layer. The kernel's program runs every block
  in a pipelined region over blocks of rows and, because every block acts on one row at a time, applies the message
  block and the last block on the other side of the row gathers than the reference does. Over the extended reals the
  two compute the same logits wherever the neighbour indices and the query indices name nodes, which the precondition
  says. The claims are assembled in Proof/Claims.lean.
-/
import proofs.«408577_j31361851195877_2_alg».proof.Defs
import proofs.«408577_j31361851195877_2_alg».proof.Proof.Gen.Kernel
import proofs.«408577_j31361851195877_2_alg».proof.Proof.Gen.Kernel.Skeleton
import proofs.«408577_j31361851195877_2_alg».proof.Proof.Gen.Kernel.Launch
import proofs.«408577_j31361851195877_2_alg».proof.Proof.Gen.Kernel.Points
import proofs.«408577_j31361851195877_2_alg».proof.Proof.Gen.Kernel.Frame
import proofs.«408577_j31361851195877_2_alg».proof.Proof.Gen.KernelIdeal
import proofs.«408577_j31361851195877_2_alg».proof.Proof.Gen.KernelIdeal.Skeleton
import proofs.«408577_j31361851195877_2_alg».proof.Proof.Gen.KernelIdeal.Launch
import proofs.«408577_j31361851195877_2_alg».proof.Proof.Gen.KernelIdeal.Points
import proofs.«408577_j31361851195877_2_alg».proof.Proof.Gen.KernelIdeal.Frame
import proofs.«408577_j31361851195877_2_alg».proof.Proof.Gen.ReferenceIdeal
import proofs.«408577_j31361851195877_2_alg».proof.Proof.Gen.ReferenceIdeal.Run
import proofs.«408577_j31361851195877_2_alg».proof.Proof.Gen.Pre_finite_inputs
import proofs.«408577_j31361851195877_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
